-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x256 .f32) (main_arg1 : IVec S2x1600000 32) (main_arg2 : IVec S100000 32) (main_arg3 : FVec F S256x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S100x1 : Shape := ⟨2, ![100, 1]⟩
abbrev S100x64 : Shape := ⟨2, ![100, 64]⟩
abbrev S5000x100 : Shape := ⟨2, ![5000, 100]⟩
abbrev S1x1 : Shape := ⟨2, ![1, 1]⟩

abbrev nBuf : Space → Nat
  | .hbm => 77
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x64, .f32⟩
  | .hbm, ⟨43, _⟩ => ⟨S_, .f32⟩
  | .hbm, ⟨44, _⟩ => ⟨S100000x64, .f32⟩
  | .hbm, ⟨45, _⟩ => ⟨S1700000x1, .i32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S100000x1, .i32⟩
  | .hbm, ⟨76, _⟩ => ⟨S100x1, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S64, .f32⟩
  | .local _ .vmem, ⟨28, _⟩ => ⟨S5000x1, .i32⟩
  | .local _ .vmem, ⟨29, _⟩ => ⟨S5000x1, .i32⟩
  | .local _ .vmem, ⟨30, _⟩ => ⟨S64x1, .f32⟩
  | .local _ .vmem, ⟨31, _⟩ => ⟨S1, .f32⟩
  | .local _ .vmem, ⟨32, _⟩ => ⟨S100x1, .f32⟩
  | .local _ .vmem, ⟨33, _⟩ => ⟨S100x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem6_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_11 : BitVec 32 := 0#32
  let v30 : BitVec 1 := Scalar.cmpi .ne v29 c0_i32_11
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S100x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S100x64_S100x64_0_0 : ∀ a, (![0, 0] : Fin 2 → Nat) a + S100x64.size a ≤ S100x64.size a
  h_S100x64 : 0 < S100x64.numel
  shapeCasts_S100x64_S100x64 : S100x64.ShapeCasts S100x64
  iota_S5000x100_d1_w32 : S5000x100.Iotas .tc 32 [1]
  broadcasts_S5000x1_S5000x100 : S5000x1.Broadcasts S5000x100
  natLt_1_32 : 1 < 32
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S100x1 : S1x1.Broadcasts S100x1
  inb_S100x1_S100x1_0_0 : ∀ a, (![0, 0] : Fin 2 → Nat) a + S100x1.size a ≤ S100x1.size a
  h_S100x1 : 0 < S100x1.numel
  scatter_S100000_S1700000x1_S1700000_n_0_0_1_wf : ScatterDims.WF S100000 S1700000x1 S1700000 [] [0] [0] 1
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x100_S5000x64_S100x64_0_0_1_1_n_n_wf : DotDims.WF S5000x100 S5000x64 S100x64 [0] [0] [1] [1] [] []
  dot_S100x64_S64x1_S100x1_1_0_0_1_n_n_wf : DotDims.WF S100x64 S64x1 S100x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .i32 = 32 ∨ (Rect.block (s := S100000x1) S5000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1.size a ≤ S1.size a
  hwx3_5 : ∀ i : grid3.Coords, EltTy.bits .f32 = 32 ∨ (Rect.block (s := S1) S1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S100x1.size a ≤ S100x1.size a
  hwx3_6 : ∀ i : grid3.Coords, EltTy.bits .f32 = 32 ∨ (Rect.block (s := S100x1) S100x1.size (cc3_transform_6 i) (hinb3_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x100_S5000x64_S100x64_0_0_1_1_n_n : DotDims S5000x100 S5000x64 S100x64 where
  lhsContracting := [0]
  rhsContracting := [0]
  lhsNonContracting := [1]
  rhsNonContracting := [1]
  lhsBatch := []
  rhsBatch := []
  wf := dot_S5000x100_S5000x64_S100x64_0_0_1_1_n_n_wf
def dot_S100x64_S64x1_S100x1_1_0_0_1_n_n : DotDims S100x64 S64x1 S100x1 where
  lhsContracting := [1]
  rhsContracting := [0]
  lhsNonContracting := [0]
  rhsNonContracting := [1]
  lhsBatch := []
  rhsBatch := []
  wf := dot_S100x64_S64x1_S100x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50) S100x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100x64 : Shape := ⟨2, ![100, 64]⟩
abbrev S100000x1 : Shape := ⟨2, ![100000, 1]⟩
abbrev S100x1 : Shape := ⟨2, ![100, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S100x64, .f32⟩
  | .hbm, ⟨119, _⟩ => ⟨S100000x1, .i32⟩
  | .hbm, ⟨120, _⟩ => ⟨S100x64, .f32⟩
  | .hbm, ⟨121, _⟩ => ⟨S100x1, .f32⟩
  | .hbm, ⟨122, _⟩ => ⟨S1x1, .f32⟩
  | .hbm, ⟨123, _⟩ => ⟨S100x1, .f32⟩
  | .hbm, ⟨124, _⟩ => ⟨S100x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100x64 : S_.BroadcastsInDim S100x64 (![] : Fin 0 → Fin S100x64.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S100x1_0_1 : S1x1.BroadcastsInDim S100x1 (![0, 1] : Fin 2 → Fin S100x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S100x64_S100000x1_S100000x64_1_0_0_1_wf : ScatterDims.WF S100x64 S100000x1 S100000x64 [1] [0] [0] 1
  dot_S100x64_S64x1_S100x1_1_0_0_1_n_n_wf : DotDims.WF S100x64 S64x1 S100x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def dot_S100x64_S64x1_S100x1_1_0_0_1_n_n : DotDims S100x64 S64x1 S100x1 where
  lhsContracting := [1]
  rhsContracting := [0]
  lhsNonContracting := [0]
  rhsNonContracting := [1]
  lhsBatch := []
  rhsBatch := []
  wf := dot_S100x64_S64x1_S100x1_1_0_0_1_n_n_wf

class Facts : Prop extends Facts₀ where

variable [Facts]
-- ==== Proof.K.Reg0.lean ====
/- Region 0 (the first projection, scaled row by row): what each grid point's body leaves in the output window's
   staging buffer as a function of the three input blocks, the pipeline's proof data over it, and the body's
   obligation at every point.  Stated at any float instance and at a parameter `V`: the buffers' contents when
   the region is entered. -/
import proofs.«422783_j89661737271610_2_alg».proof.Proof.Gen.Kernel.Launch
import proofs.«422783_j89661737271610_2_alg».proof.Proof.Gen.Kernel.Skeleton
import proofs.«422783_j89661737271610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x1 := Rect.unit (s := S5000x1) ![0, 0] S5000x1.size inb_S5000x1_S5000x1_0_0
abbrev r0_3 : Rect S5000x64 := Rect.unit (s := S5000x64) ![0, 0] S5000x64.size inb_S5000x64_S5000x64_0_0

/-- The output block after the body: its one store, of the body's product over the three loaded blocks. -/
def out0_3 (x0 : Vec F S5000x256 .f32) (x1 : Vec F S256x64 .f32) (x2 : Vec F S5000x1 .f32) : Vec F S5000x64 .f32 :=
  View.canon [⟨r0_3, k0_pay1 (View.ld x0 r0_0) (View.ld x1 r0_1) (View.ld x2 r0_2)⟩]

/-- The one store tiles the output buffer, so it covers it. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

set_option maxHeartbeats 1000000 in
/-- The body on whole staging memrefs, the three inputs' at read contents `x0 x1 x2` and the output's at anything,
    runs to the continuation holding the inputs' as they were and the output's at `out0_3` of them.  The body reads
    the output buffer once before its store; what it reads there is not used. -/
theorem sound_kernel0 (c : Dev nD) (E : Set ℕ) (i : grid0.Coords)
    (arg1 : Memref sig .tc .vmem S5000x256 .f32) (harg1 : arg1.IsWhole) (arg2 : Memref sig .tc .vmem S256x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x256 .f32) (x1 : Vec F S256x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_scale_kernel i arg1 harg1 arg2 harg2 arg3 harg3 arg4 harg4) K := by
  simp only [cc0__proj_scale_kernel_eq_skeleton]; unfold cc0__proj_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data: arrays as entered; inputs' buffers at their blocks, the output's at `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Region 1 (bias, rectifier and the next projection, scaled row by row on the way in and on the way out): what each
   grid point's body leaves in the output window's staging buffer as a function of the four input blocks, the
   pipeline's proof data over it, and the body's obligation at every point.  Stated at any float instance and at a
   parameter `V`: the buffers' contents when the region is entered. -/
import proofs.«422783_j89661737271610_2_alg».proof.Proof.Gen.Kernel.Launch
import proofs.«422783_j89661737271610_2_alg».proof.Proof.Gen.Kernel.Skeleton
import proofs.«422783_j89661737271610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it is fetched there (an
    unfetched point has the block index of the point before), for any proof data whose array is the entry contents
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it is fetched there (an
    unfetched point has the block index of the point before), for any proof data whose array is the entry contents
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it is fetched there (an
    unfetched point has the block index of the point before), for any proof data whose array is the entry contents
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it is fetched there (an
    unfetched point has the block index of the point before), for any proof data whose array is the entry contents
    and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S64 := Rect.unit (s := S64) ![0] S64.size inb_S64_S64_0
abbrev r1_3 : Rect S64x64 := Rect.unit (s := S64x64) ![0, 0] S64x64.size inb_S64x64_S64x64_0_0

/-- The output block after the body: its one store, of the body's value over the loaded blocks (the scale column is
    loaded twice). -/
def out1_4 (x0 : Vec F S5000x64 .f32) (x1 : Vec F S5000x1 .f32) (x2 : Vec F S64 .f32) (x3 : Vec F S64x64 .f32) : Vec F S5000x64 .f32 :=
  View.canon [⟨r1_0, k1_pay1 (View.ld x0 r1_0) (View.ld x1 r1_1) (View.ld x2 r1_2) (View.ld x3 r1_3) (View.ld x1 r1_1)⟩]

/-- The one store is of the whole block, so it covers it. -/
theorem cover1_4 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in
/-- The body on whole staging buffers, the inputs' at contents `x0 … x3` and the output's at anything, leaves the inputs'
    as they were and the output's at `out1_4` of them: five loads of the inputs (the scale column twice), a load of the
    output buffer that nothing reads, and the one store. -/
theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S5000x64 .f32) (harg5 : arg5.IsWhole)
    (x0 : Vec F S5000x64 .f32) (x1 : Vec F S5000x1 .f32) (x2 : Vec F S64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E
          (cc1__fused_bias_matmul_kernel i arg1 harg1 arg2 harg2 arg3 harg3 arg4 harg4 arg5 harg5) K := by
  simp only [cc1__fused_bias_matmul_kernel_eq_skeleton]; unfold cc1__fused_bias_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data: arrays as entered; inputs' buffers at their blocks, the output's at `out1_4` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

/-- What the body leaves in each input window's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Region 2 (bias, rectifier and the next projection, scaled row by row on the way in and on the way out): what each
   grid point's body leaves in the output window's staging buffer as a function of the four input blocks, the
   pipeline's proof data over it, and the body's obligation at every point.  Stated at any float instance and at a
   parameter `V`: the buffers' contents when the region is entered. -/
import proofs.«422783_j89661737271610_2_alg».proof.Proof.Gen.Kernel.Launch
import proofs.«422783_j89661737271610_2_alg».proof.Proof.Gen.Kernel.Skeleton
import proofs.«422783_j89661737271610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it is fetched there (an
    unfetched point has the block index of the point before), for any proof data whose array is the entry contents
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it is fetched there (an
    unfetched point has the block index of the point before), for any proof data whose array is the entry contents
    and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it is fetched there (an
    unfetched point has the block index of the point before), for any proof data whose array is the entry contents
    and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it is fetched there (an
    unfetched point has the block index of the point before), for any proof data whose array is the entry contents
    and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S64 := Rect.unit (s := S64) ![0] S64.size inb_S64_S64_0
abbrev r2_3 : Rect S64x64 := Rect.unit (s := S64x64) ![0, 0] S64x64.size inb_S64x64_S64x64_0_0

/-- The output block after the body: its one store, of the body's value over the loaded blocks (the scale column is
    loaded twice). -/
def out2_4 (x0 : Vec F S5000x64 .f32) (x1 : Vec F S5000x1 .f32) (x2 : Vec F S64 .f32) (x3 : Vec F S64x64 .f32) : Vec F S5000x64 .f32 :=
  View.canon [⟨r2_0, k2_pay1 (View.ld x0 r2_0) (View.ld x1 r2_1) (View.ld x2 r2_2) (View.ld x3 r2_3) (View.ld x1 r2_1)⟩]

/-- The one store is of the whole block, so it covers it. -/
theorem cover2_4 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in
/-- The body on whole staging buffers, the inputs' at contents `x0 … x3` and the output's at anything, leaves the inputs'
    as they were and the output's at `out2_4` of them: five loads of the inputs (the scale column twice), a load of the
    output buffer that nothing reads, and the one store. -/
theorem sound_kernel2 (c : Dev nD) (E : Set ℕ) (i : grid2.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S5000x64 .f32) (harg5 : arg5.IsWhole)
    (x0 : Vec F S5000x64 .f32) (x1 : Vec F S5000x1 .f32) (x2 : Vec F S64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E
          (cc2__fused_bias_matmul_kernel i arg1 harg1 arg2 harg2 arg3 harg3 arg4 harg4 arg5 harg5) K := by
  simp only [cc2__fused_bias_matmul_kernel_eq_skeleton]; unfold cc2__fused_bias_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data: arrays as entered; inputs' buffers at their blocks, the output's at `out2_4` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

/-- What the body leaves in each input window's buffer: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- Region 3 (bias, the pool into the graphs' rows accumulated over the grid in a scratch buffer, and at the last
   point the linear head): the pipeline's proof data, its invariant carrying the scratch from point to point, and
   the body's obligation at every point.  Stated at any float instance and at a parameter `V`: the buffers'
   contents when the region is entered. -/
import proofs.«422783_j89661737271610_2_alg».proof.Proof.Gen.Kernel.Launch
import proofs.«422783_j89661737271610_2_alg».proof.Proof.Gen.Kernel.Skeleton
import proofs.«422783_j89661737271610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S5000x1 := Rect.unit (s := S5000x1) ![0, 0] S5000x1.size inb_S5000x1_S5000x1_0_0
abbrev r3_2 : Rect S64 := Rect.unit (s := S64) ![0] S64.size inb_S64_S64_0
abbrev r3_4 : Rect S64x1 := Rect.unit (s := S64x1) ![0, 0] S64x1.size inb_S64x1_S64x1_0_0
abbrev r3_5 : Rect S1 := Rect.unit (s := S1) ![0] S1.size inb_S1_S1_0
abbrev r3_6 : Rect S100x1 := Rect.unit (s := S100x1) ![0, 0] S100x1.size inb_S100x1_S100x1_0_0
abbrev r3_s : Rect S100x64 := Rect.unit (s := S100x64) ![0, 0] S100x64.size inb_S100x64_S100x64_0_0

/-- The scratch as the first point resets it: all zeros. -/
def zero3 : Vec F S100x64 .f32 := View.canon [⟨r3_s, k3_pay1⟩]

/-- The scratch after one point's accumulation, from the point's four input blocks and the scratch before it. -/
def step3 (x0 : Vec F S5000x64 .f32) (x1 : Vec F S5000x1 .f32) (x2 : Vec F S64 .f32) (x3 : Vec F S5000x1 .i32)
    (s : Vec F S100x64 .f32) : Vec F S100x64 .f32 :=
  View.canon [⟨r3_s, k3_pay2 (View.ld x0 r3_0) (View.ld x1 r3_1) (View.ld x2 r3_2) (View.ld x3 r3_1) (View.ld s r3_s)⟩]

/-- The scratch after the body at point `n`: the first point accumulates onto zeros, every later one onto what the
    point before left. -/
def scr3 (c : Dev nD) : (n : ℕ) → n < cfg3.N → Vec F S100x64 .f32
  | 0, hn => step3 (iblk3 V c 0 ⟨0, hn⟩) (iblk3 V c 1 ⟨0, hn⟩) (iblk3 V c 2 ⟨0, hn⟩) (iblk3 V c 3 ⟨0, hn⟩) zero3
  | n + 1, hn => step3 (iblk3 V c 0 ⟨n + 1, hn⟩) (iblk3 V c 1 ⟨n + 1, hn⟩) (iblk3 V c 2 ⟨n + 1, hn⟩) (iblk3 V c 3 ⟨n + 1, hn⟩)
      (scr3 c n (Nat.lt_of_succ_lt hn))

/-- The output block as the last point stores it: the head over the scratch. -/
def out3_6 (s : Vec F S100x64 .f32) (x4 : Vec F S64x1 .f32) (x5 : Vec F S1 .f32) : Vec F S100x1 .f32 :=
  View.canon [⟨r3_6, k3_pay3 (View.ld s r3_s) (View.ld x4 r3_4) (View.ld x5 r3_5)⟩]

/-- The region's invariant before position `n`: before the first point what the launch hands over (every scoped buffer
    that is no staging buffer of this region at some contents, the generator register at some state); afterwards the same
    with the scratch at what the point before left in it. -/
def PhiS3 (c : Dev nD) : (n : ℕ) → n ≤ cfg3.N → sProp 𝕄
  | 0, _ => Pipeline.ΦA spec3 c
  | n + 1, hn => iprop(iprop(owns (c : Thread nD τ) (Memref.whole cc3_scratch0) fullShare (scr3 V c n hn)
      ∗ Pipeline.scopedRestBut (Ix := Unit) (Name := ℕ) (U := UR sig nD τ) (Lvl := ℕ) (Val := Elt F) spec3 c [cc3_scratch0])
      ∗ (∃ r, prngReg c r))

theorem PhiS3_zero (c : Dev nD) (n : ℕ) (h : n ≤ cfg3.N) (hz : n = 0) : PhiS3 V c n h = Pipeline.ΦA spec3 c := by
  subst hz; rfl

/-- After point `n`: the scratch at that point's contents. -/
theorem PhiS3_succ (c : Dev nD) (n : ℕ) (hn : n < cfg3.N) :
    PhiS3 V c (n + 1) hn = iprop(iprop(owns (c : Thread nD τ) (Memref.whole cc3_scratch0) fullShare (scr3 V c n hn)
      ∗ Pipeline.scopedRestBut (Ix := Unit) (Name := ℕ) (U := UR sig nD τ) (Lvl := ℕ) (Val := Elt F) spec3 c [cc3_scratch0])
      ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(owns (c : Thread nD τ) (Memref.whole cc3_scratch0) fullShare (scr3 V c (n - 1) (by omega))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-- The scoped buffers that are no staging buffer of this region, split at the scratch: the scratch whole at some
    contents, every other one left unopened. -/
theorem scopedRest3_split (c : Dev nD) :
    (Pipeline.scopedRest (Ix := Unit) (Name := ℕ) (U := UR sig nD τ) (Lvl := ℕ) (Val := Elt F) spec3 c : sProp 𝕄)
      = iprop((∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

/-- The class invariant with the scratch as a memref owned at some contents. -/
theorem PhiA3_eq (c : Dev nD) :
    (Pipeline.ΦA spec3 c : sProp 𝕄)
      = iprop(iprop((∃ d, owns (c : Thread nD τ) (Memref.whole cc3_scratch0) fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [owns_whole]; try rfl

/-- The proof data of the pool region: arrays as entered; the inputs' buffers at their blocks; the output's at the head
    over the scratch (consulted at the last point only: elsewhere the window is idle and not written back). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (scr3 V c t.val t.isLt) (iblk3 V c 4 t) (iblk3 V c 5 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem after3_6 (c : Dev nD) (t : Fin cfg3.N) :
    (dat3 V c).after 6 t = out3_6 (scr3 V c t.val t.isLt) (iblk3 V c 4 t) (iblk3 V c 5 t) := by dsimp only [dat3]

/-! ## The body's two conditions, in closed form -/

/-- The first condition of the body (reset the scratch): the grid coordinate is zero. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second condition of the body (the head): the grid coordinate is the last. -/
abbrev cond3_1 (i : grid3.Coords) : Prop := k3_cond2 i = 1#1
/-- It holds at the last point only. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
/-- Off the last point the output window is idle, -/
theorem idleAt3_6 : ∀ t : Fin cfg3.N, ¬cond3_1 (grid3.coords t) → cfg3.idle 6 (grid3.coords t) = true := by decide +kernel
/-- and not written back; -/
theorem noFlush3_6 : ∀ t : Fin cfg3.N, ¬cond3_1 (grid3.coords t) → (cfg3.win 6).flush t = false := by decide +kernel
/-- at the last point it is live. -/
theorem liveAt3_6 : ∀ t : Fin cfg3.N, cond3_1 (grid3.coords t) → cfg3.idle 6 (grid3.coords t) = false := by decide +kernel

/-! ## What the inputs' buffers hold when the body runs -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

/-- Each input's current buffer holds its block at every point, fetched there or not (unfetched, the block index has
    not moved since the point that fetched it). -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

/-! ## The body's triple, case by case -/

theorem zeros2 : (![0, 0] : Fin 2 → ℕ) = fun _ => 0 := by funext a; fin_cases a <;> rfl
theorem zeros1 : (![0] : Fin 1 → ℕ) = fun _ => 0 := by funext a; fin_cases a <;> rfl

/-- A store through the scratch's whole rectangle, last, covers the scratch. -/
theorem cover3_s (p : Vec F S100x64 .f32) (L : List (View.Piece (Elt F) S100x64 .f32)) (y : S100x64.Idx) :
    ∃ pc ∈ ((⟨r3_s, p⟩ : View.Piece (Elt F) S100x64 .f32) :: L), y ∈ pc.1.set :=
  ⟨_, List.mem_cons_self, View.mem_set_unit_zero (S := S100x64) zeros2 inb_S100x64_S100x64_0_0 y⟩
/-- The head's one store covers the output block. -/
theorem cover3_6 (p : Vec F S100x1 .f32) (y : S100x1.Idx) :
    ∃ pc ∈ ([⟨r3_6, p⟩] : List (View.Piece (Elt F) S100x1 .f32)), y ∈ pc.1.set :=
  ⟨_, List.mem_cons_self, View.mem_set_unit_zero (S := S100x1) zeros2 inb_S100x1_S100x1_0_0 y⟩

set_option maxHeartbeats 1000000 in
/-- A middle point (neither condition holds): on whole memrefs, the four inputs at their contents and the scratch at `s`,
    the body runs to the inputs as they were and the scratch at `step3` of them. -/
theorem sound_kernel3_mid (c : Dev nD) (E : Set ℕ) (i : grid3.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S1 .f32) (harg6 : arg6.IsWhole)
    (arg7 : Memref sig .tc .vmem S100x1 .f32) (harg7 : arg7.IsWhole) (arg8 : Memref sig .tc .vmem S100x64 .f32) (harg8 : arg8.IsWhole)
    (hc0 : ¬cond3_0 i) (hc1 : ¬cond3_1 i)
    (x0 : Vec F S5000x64 .f32) (x1 : Vec F S5000x1 .f32) (x2 : Vec F S64 .f32) (x3 : Vec F S5000x1 .i32) (s : Vec F S100x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg8 fullShare (step3 x0 x1 x2 x3 s)) -∗ K ⟨⟩))
      ⊢ wp frame (wpE (defs₀ (F := F)) Variants.none c none) E
          (cc3__fused_tail_kernel i arg1 harg1 arg2 harg2 arg3 harg3 arg4 harg4 arg5 harg5 arg6 harg6 arg7 harg7 arg8 harg8) K := by
  simp only [cc3__fused_tail_kernel_eq_skeleton]; unfold cc3__fused_tail_kernel_skel
  unfold owns
  iintro ⟨⟨%f0, %hf0, H0⟩, ⟨%f1, %hf1, H1⟩, ⟨%f2, %hf2, H2⟩, ⟨%f3, %hf3, H3⟩, ⟨%f8, %hf8, H8⟩, Hk⟩
  subst hf0; subst hf1; subst hf2; subst hf3; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H8
  ipureintro
  exact View.read_writes_eq_canon _ _ _ (cover3_s _ _)

set_option maxHeartbeats 1000000 in
/-- The first point (the first condition holds, the second does not): the scratch, at anything, is reset to zeros and the
    point accumulated onto them. -/
theorem sound_kernel3_first (c : Dev nD) (E : Set ℕ) (i : grid3.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S1 .f32) (harg6 : arg6.IsWhole)
    (arg7 : Memref sig .tc .vmem S100x1 .f32) (harg7 : arg7.IsWhole) (arg8 : Memref sig .tc .vmem S100x64 .f32) (harg8 : arg8.IsWhole)
    (hc0 : cond3_0 i) (hc1 : ¬cond3_1 i)
    (x0 : Vec F S5000x64 .f32) (x1 : Vec F S5000x1 .f32) (x2 : Vec F S64 .f32) (x3 : Vec F S5000x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg8 fullShare (step3 x0 x1 x2 x3 zero3)) -∗ K ⟨⟩))
      ⊢ wp frame (wpE (defs₀ (F := F)) Variants.none c none) E
          (cc3__fused_tail_kernel i arg1 harg1 arg2 harg2 arg3 harg3 arg4 harg4 arg5 harg5 arg6 harg6 arg7 harg7 arg8 harg8) K := by
  simp only [cc3__fused_tail_kernel_eq_skeleton]; unfold cc3__fused_tail_kernel_skel
  unfold owns
  iintro ⟨⟨%f0, %hf0, H0⟩, ⟨%f1, %hf1, H1⟩, ⟨%f2, %hf2, H2⟩, ⟨%f3, %hf3, H3⟩, ⟨%d8, %f8, -, H8⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H8
  ipureintro
  rw [View.read_writes_eq_canon _ _ _ (cover3_s _ _), View.canon_cons_unit_zero (S := S100x64) zeros2]
  unfold step3 zero3
  sl_unfold_words
  rw [View.readCov_eq_canon_ld _ _ _ (cover3_s _ _)]
  exact (View.canon_unit_zero (Val := Elt F) (S := S100x64) (e := .f32) zeros2 inb_S100x64_S100x64_0_0 _).symm

set_option maxHeartbeats 1000000 in
/-- The last point (the second condition holds, the first does not): the point is accumulated into the scratch, and the
    head over the scratch, the weights and the bias is stored into the output block, which was at anything. -/
theorem sound_kernel3_last (c : Dev nD) (E : Set ℕ) (i : grid3.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S1 .f32) (harg6 : arg6.IsWhole)
    (arg7 : Memref sig .tc .vmem S100x1 .f32) (harg7 : arg7.IsWhole) (arg8 : Memref sig .tc .vmem S100x64 .f32) (harg8 : arg8.IsWhole)
    (hc0 : ¬cond3_0 i) (hc1 : cond3_1 i)
    (x0 : Vec F S5000x64 .f32) (x1 : Vec F S5000x1 .f32) (x2 : Vec F S64 .f32) (x3 : Vec F S5000x1 .i32)
    (x4 : Vec F S64x1 .f32) (x5 : Vec F S1 .f32) (s : Vec F S100x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 (step3 x0 x1 x2 x3 s) x4 x5)
            ∗ owns (c : Thread nD τ) arg8 fullShare (step3 x0 x1 x2 x3 s)) -∗ K ⟨⟩))
      ⊢ wp frame (wpE (defs₀ (F := F)) Variants.none c none) E
          (cc3__fused_tail_kernel i arg1 harg1 arg2 harg2 arg3 harg3 arg4 harg4 arg5 harg5 arg6 harg6 arg7 harg7 arg8 harg8) K := by
  simp only [cc3__fused_tail_kernel_eq_skeleton]; unfold cc3__fused_tail_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0; subst hf1; subst hf2; subst hf3; subst hf4; subst hf5; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    rw [View.read_writes_eq_canon _ _ _ (cover3_6 _)]
    unfold out3_6 step3
    sl_unfold_words
    rw [View.readCov_eq_canon_ld _ _ _ (cover3_s _ _)]
    rfl
  iexists _; isplitr
  swap; · iexact H8
  ipureintro
  exact View.read_writes_eq_canon _ _ _ (cover3_s _ _)

/-! ## The scratch, point by point -/

/-- At the first point the scratch is the point's accumulation onto zeros; -/
theorem scr3_zero (c : Dev nD) (t : Fin cfg3.N) (h0 : t.val = 0) :
    scr3 V c t.val t.isLt = step3 (iblk3 V c 0 t) (iblk3 V c 1 t) (iblk3 V c 2 t) (iblk3 V c 3 t) zero3 := by
  obtain ⟨n, hn⟩ := t
  cases n with
  | zero => rfl
  | succ n => exact absurd h0 (Nat.succ_ne_zero n)

/-- at a later point, onto what the point before left. -/
theorem scr3_pos (c : Dev nD) (t : Fin cfg3.N) (h0 : t.val ≠ 0) :
    scr3 V c t.val t.isLt = step3 (iblk3 V c 0 t) (iblk3 V c 1 t) (iblk3 V c 2 t) (iblk3 V c 3 t)
      (scr3 V c (t.val - 1) (Nat.lt_of_le_of_lt (Nat.sub_le _ _) t.isLt)) := by
  obtain ⟨n, hn⟩ := t
  cases n with
  | zero => exact absurd rfl h0
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point. The inputs' memrefs hold their blocks; the point's position says which of the three cases it
    is in. The invariant hands the body the scratch (at anything at the first point, afterwards at what the point before
    left) and takes it back at this point's contents; the other scoped buffers, the generator register and what the core
    owes pass through. Off the last point the output's buffer is handed back as found; at the last point it is left at the
    head over the scratch. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 20 := lt_of_lt_of_eq t.isLt (show cfg3.N = 20 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 6 t (idleAt3_6 t hc1) (noFlush3_6 t hc1)]
    rw [PhiS3_castSucc V c t, PhiS3_zero V c _ _ h0, PhiA3_eq, scr3_zero V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel3_first c Set.univ _ _ _ _ _ _ _ _ _ _ _ _ _ _ _ _ _ hc0 hc1
      (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h19 : t.val = 19
    · have hc0 : ¬cond3_0 (grid3.coords t) := fun h => h0 ((hcond3_0 t).mp h)
      have hc1 : cond3_1 (grid3.coords t) := (hcond3_1 t).mpr h19
      rw [show (dat3 V c).leavesExact 6 t = owns (c : Thread nD τ) (st3_6 t) fullShare ((dat3 V c).after 6 t) from by
        unfold Dat.leavesExact; rw [liveAt3_6 t hc1], after3_6]
      rw [PhiS3_castSucc V c t, PhiS3_pos V c _ _ h0, scr3_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_last c Set.univ _ _ _ _ _ _ _ _ _ _ _ _ _ _ _ _ _ hc0 hc1
        (iblk3 V c 0 t) (iblk3 V c 1 t) (iblk3 V c 2 t) (iblk3 V c 3 t) (iblk3 V c 4 t) (iblk3 V c 5 t)
        (scr3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond3_0 (grid3.coords t) := fun h => h0 ((hcond3_0 t).mp h)
      have hc1 : ¬cond3_1 (grid3.coords t) := fun h => h19 ((hcond3_1 t).mp h)
      rw [Dat.leavesExact_idle (dat3 V c) 6 t (idleAt3_6 t hc1) (noFlush3_6 t hc1)]
      rw [PhiS3_castSucc V c t, PhiS3_pos V c _ _ h0, scr3_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_mid c Set.univ _ _ _ _ _ _ _ _ _ _ _ _ _ _ _ _ _ hc0 hc1
        (iblk3 V c 0 t) (iblk3 V c 1 t) (iblk3 V c 2 t) (iblk3 V c 3 t)
        (scr3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (the class's invariant: every scoped buffer that is no staging buffer at some
    contents, the generator register at some state) is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back. -/
theorem hout3 (c : Dev nD) : (dat3 V c).Φ (Fin.last cfg3.N) ⊢ (Pipeline.ΦA spec3 c : sProp 𝕄) := by
  have ht : (Fin.last cfg3.N).val ≠ 0 := by rw [Fin.val_last]; have : cfg3.N = 20 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨⟨HS, HR⟩, Hg⟩
  isplitl [HS HR]
  · isplitl [HS]
    · iexists _; iexact HS
    iexact HR
  iexact Hg

end Cert.Kernel.Hand

end
-- ==== Proof.K.Run.lean ====
/- The run of @main as ten items — three stretches of host operations, then four kernel regions each followed by the
   stretch that consumes its result — with the contents of every unscoped buffer at every boundary named: a fold
   from the launch memory (a stretch's operations applied; a region's arrays at what its write-backs leave).  Every
   weakly fair execution ends with every unscoped buffer at the last boundary's contents; the argument arrays there
   are the launch's, and the result array is what the pool region's write-back left. -/
import proofs.«422783_j89661737271610_2_alg».proof.Proof.K.Reg0
import proofs.«422783_j89661737271610_2_alg».proof.Proof.K.Reg1
import proofs.«422783_j89661737271610_2_alg».proof.Proof.K.Reg2
import proofs.«422783_j89661737271610_2_alg».proof.Proof.K.Reg3
import proofs.«422783_j89661737271610_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- Region 0's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- Region 0's exit: its arrays at what the pipeline leaves, every other buffer as entered. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- Region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- Region 2's entry. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (V7 m) c).arrAt w cfg2.N
abbrev V8 : (c : Dev nD) → (b : Ref sig .tc) → Buf (Elt F) ((c : Thread nD τ).loc b) := fun c b => W8 m c b
/-- Region 3's entry. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- The end. -/
def W10 (c : Dev nD) : Valuation τ sig (Elt F) :=
  Pipeline.withArrays spec3 c (W9 m c) fun w => (dat3 (V9 m) c).arrAt w cfg3.N
abbrev V10 : (c : Dev nD) → (b : Ref sig .tc) → Buf (Elt F) ((c : Thread nD τ).loc b) := fun c b => W10 m c b

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

theorem hF0 (c : Dev nD) (w : Fin cfg0.W) : (dat0 (V3 m) c).arrAt w cfg0.N = V4 m c (Pipeline.arrRef spec0 w) := (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
theorem hF1 (c : Dev nD) (w : Fin cfg1.W) : (dat1 (V5 m) c).arrAt w cfg1.N = V6 m c (Pipeline.arrRef spec1 w) := (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
theorem hF2 (c : Dev nD) (w : Fin cfg2.W) : (dat2 (V7 m) c).arrAt w cfg2.N = V8 m c (Pipeline.arrRef spec2 w) := (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
theorem hF3 (c : Dev nD) (w : Fin cfg3.W) : (dat3 (V9 m) c).arrAt w cfg3.N = V10 m c (Pipeline.arrRef spec3 w) := (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The arguments end as launched, and the result is the pool region's -/

/-- A stretch of host operations leaves alone every buffer none of them writes. -/
theorem W1_of (c : Dev nD) (b : Ref sig .tc) (h : b ∉ hostOps0_W) :
    W1 m c (Proc.devRef .tc b) = W0 m c (Proc.devRef .tc b) :=
  StableHlo.after_of_writes_sub hostOps0 _ hostOps0_writes h
theorem W2_of (c : Dev nD) (b : Ref sig .tc) (h : b ∉ hostOps0_1_W) :
    W2 m c (Proc.devRef .tc b) = W1 m c (Proc.devRef .tc b) :=
  StableHlo.after_of_writes_sub hostOps0_1 _ hostOps0_1_writes h
theorem W3_of (c : Dev nD) (b : Ref sig .tc) (h : b ∉ hostOps0_2_W) :
    W3 m c (Proc.devRef .tc b) = W2 m c (Proc.devRef .tc b) :=
  StableHlo.after_of_writes_sub hostOps0_2 _ hostOps0_2_writes h
theorem W5_of (c : Dev nD) (b : Ref sig .tc) (h : b ∉ hostOps1_W) :
    W5 m c (Proc.devRef .tc b) = W4 m c (Proc.devRef .tc b) :=
  StableHlo.after_of_writes_sub hostOps1 _ hostOps1_writes h
theorem W7_of (c : Dev nD) (b : Ref sig .tc) (h : b ∉ hostOps2_W) :
    W7 m c (Proc.devRef .tc b) = W6 m c (Proc.devRef .tc b) :=
  StableHlo.after_of_writes_sub hostOps2 _ hostOps2_writes h
theorem W9_of (c : Dev nD) (b : Ref sig .tc) (h : b ∉ hostOps3_W) :
    W9 m c (Proc.devRef .tc b) = W8 m c (Proc.devRef .tc b) :=
  StableHlo.after_of_writes_sub hostOps3 _ hostOps3_writes h

/-- A region never writes back an input window's array: it leaves the region as it entered. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hw _).trans (A_eq2 (V7 m) c w))
theorem W10_in (c : Dev nD) (w : Fin cfg3.W) (hw : (cfg3.win w).isOut = false) :
    W10 m c (Proc.devRef .tc (Pipeline.arrRef spec3 w)) = W9 m c (Proc.devRef .tc (Pipeline.arrRef spec3 w)) :=
  (W10_arr m c w).trans (((dat3 (V9 m) c).arrAt_in w hw _).trans (A_eq3 (V9 m) c w))

/-- `main_arg0` reaches the end as launched: no stretch writes it, and a region at most reads it. -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := W9_of m c main_arg0 (by decide)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_in m c 0 rfl
    _ = W2 m c (Proc.devRef .tc main_arg0) := W3_of m c main_arg0 (by decide)
    _ = W1 m c (Proc.devRef .tc main_arg0) := W2_of m c main_arg0 (by decide)
    _ = W0 m c (Proc.devRef .tc main_arg0) := W1_of m c main_arg0 (by decide)
    _ = m ((c : Thread nD τ).loc main_arg0) := rfl
/-- `main_arg1` reaches the end as launched: no stretch writes it, and a region at most reads it. -/
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := W9_of m c main_arg1 (by decide)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of m c main_arg1 (by decide)
    _ = m ((c : Thread nD τ).loc main_arg1) := rfl
/-- `main_arg2` reaches the end as launched: no stretch writes it, and a region at most reads it. -/
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := W9_of m c main_arg2 (by decide)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) := W1_of m c main_arg2 (by decide)
    _ = m ((c : Thread nD τ).loc main_arg2) := rfl
/-- `main_arg3` reaches the end as launched: no stretch writes it, and a region at most reads it. -/
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := W9_of m c main_arg3 (by decide)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_in m c 1 rfl
    _ = W2 m c (Proc.devRef .tc main_arg3) := W3_of m c main_arg3 (by decide)
    _ = W1 m c (Proc.devRef .tc main_arg3) := W2_of m c main_arg3 (by decide)
    _ = W0 m c (Proc.devRef .tc main_arg3) := W1_of m c main_arg3 (by decide)
    _ = m ((c : Thread nD τ).loc main_arg3) := rfl
/-- `main_arg4` reaches the end as launched: no stretch writes it, and a region at most reads it. -/
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := W9_of m c main_arg4 (by decide)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_in m c 2 rfl
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := W1_of m c main_arg4 (by decide)
    _ = m ((c : Thread nD τ).loc main_arg4) := rfl
/-- `main_arg5` reaches the end as launched: no stretch writes it, and a region at most reads it. -/
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_in m c 3 rfl
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := W1_of m c main_arg5 (by decide)
    _ = m ((c : Thread nD τ).loc main_arg5) := rfl
/-- `main_arg6` reaches the end as launched: no stretch writes it, and a region at most reads it. -/
theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_in m c 2 rfl
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of m c main_arg6 (by decide)
    _ = W0 m c (Proc.devRef .tc main_arg6) := W1_of m c main_arg6 (by decide)
    _ = m ((c : Thread nD τ).loc main_arg6) := rfl
/-- `main_arg7` reaches the end as launched: no stretch writes it, and a region at most reads it. -/
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := W9_of m c main_arg7 (by decide)
    _ = W7 m c (Proc.devRef .tc main_arg7) := W8_in m c 3 rfl
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of m c main_arg7 (by decide)
    _ = W0 m c (Proc.devRef .tc main_arg7) := W1_of m c main_arg7 (by decide)
    _ = m ((c : Thread nD τ).loc main_arg7) := rfl
/-- `main_arg8` reaches the end as launched: no stretch writes it, and a region at most reads it. -/
theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_in m c 2 rfl
    _ = W8 m c (Proc.devRef .tc main_arg8) := W9_of m c main_arg8 (by decide)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of m c main_arg8 (by decide)
    _ = W0 m c (Proc.devRef .tc main_arg8) := W1_of m c main_arg8 (by decide)
    _ = m ((c : Thread nD τ).loc main_arg8) := rfl
/-- `main_arg9` reaches the end as launched: no stretch writes it, and a region at most reads it. -/
theorem W10_main_arg9 (c : Dev nD) : W10 m c (Proc.devRef .tc main_arg9) = m ((c : Thread nD τ).loc main_arg9) :=
  calc W10 m c (Proc.devRef .tc main_arg9)
    _ = W9 m c (Proc.devRef .tc main_arg9) := W10_in m c 4 rfl
    _ = W8 m c (Proc.devRef .tc main_arg9) := W9_of m c main_arg9 (by decide)
    _ = W7 m c (Proc.devRef .tc main_arg9) := W8_of_ne m c main_arg9 (by decide)
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of m c main_arg9 (by decide)
    _ = W0 m c (Proc.devRef .tc main_arg9) := W1_of m c main_arg9 (by decide)
    _ = m ((c : Thread nD τ).loc main_arg9) := rfl
/-- `main_arg10` reaches the end as launched: no stretch writes it, and a region at most reads it. -/
theorem W10_main_arg10 (c : Dev nD) : W10 m c (Proc.devRef .tc main_arg10) = m ((c : Thread nD τ).loc main_arg10) :=
  calc W10 m c (Proc.devRef .tc main_arg10)
    _ = W9 m c (Proc.devRef .tc main_arg10) := W10_in m c 5 rfl
    _ = W8 m c (Proc.devRef .tc main_arg10) := W9_of m c main_arg10 (by decide)
    _ = W7 m c (Proc.devRef .tc main_arg10) := W8_of_ne m c main_arg10 (by decide)
    _ = W6 m c (Proc.devRef .tc main_arg10) := W7_of m c main_arg10 (by decide)
    _ = W5 m c (Proc.devRef .tc main_arg10) := W6_of_ne m c main_arg10 (by decide)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of m c main_arg10 (by decide)
    _ = W0 m c (Proc.devRef .tc main_arg10) := W1_of m c main_arg10 (by decide)
    _ = m ((c : Thread nD τ).loc main_arg10) := rfl

/-- An argument reaches the end as launched: no stretch writes it, and a region only reads it. -/
theorem W10_arg (c : Dev nD) (b : Ref sig .tc)
    (hb : b ∈ ([main_arg0, main_arg1, main_arg2, main_arg3, main_arg4, main_arg5, main_arg6, main_arg7, main_arg8, main_arg9, main_arg10] : List (Ref sig .tc))) :
    W10 m c (Proc.devRef .tc b) = m ((c : Thread nD τ).loc b) := by
  simp only [List.mem_cons, List.not_mem_nil, or_false] at hb
  rcases hb with rfl | rfl | rfl | rfl | rfl | rfl | rfl | rfl | rfl | rfl | rfl
  exacts [W10_main_arg0 m c, W10_main_arg1 m c, W10_main_arg2 m c, W10_main_arg3 m c, W10_main_arg4 m c, W10_main_arg5 m c,
    W10_main_arg6 m c, W10_main_arg7 m c, W10_main_arg8 m c, W10_main_arg9 m c, W10_main_arg10 m c]

/-- The result array at the end: what the pool region's write-back left. -/
theorem W10_out (c : Dev nD) : W10 m c (Proc.devRef .tc main_v50) = (dat3 (V9 m) c).arrAt 6 cfg3.N :=
  W10_arr m c 6

/-! ## The proof data family and the thread state -/

def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 (the first projection) over the thread state: entered with every unscoped buffer at `W3`, left with them at
    `W4`.  Its windows' arrays are split out of the unscoped buffers at entry and put back at their final contents at
    exit; the generator register passes through the region's invariant; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the first fused layer) over the thread state: entered with every unscoped buffer at `W5`, left with them at
    `W6`.  Its windows' arrays are split out of the unscoped buffers at entry and put back at their final contents at
    exit; the generator register passes through the region's invariant; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the second fused layer) over the thread state: entered with every unscoped buffer at `W7`, left with them at
    `W8`.  Its windows' arrays are split out of the unscoped buffers at entry and put back at their final contents at
    exit; the generator register passes through the region's invariant; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the pool and the head) over the thread state: entered with every unscoped buffer at `W9`, left with them at
    `W10`.  Its windows' arrays are split out of the unscoped buffers at entry and put back at their final contents at
    exit; the generator register passes through the region's invariant; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun c t => owed_eq3 (V9 m) c t
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (V9 m) c w) (V9 m c) fun w => A_eq3 (V9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec3 c : sProp 𝕄)).trans (hin3 (V9 m) c)
    unfold Pipeline.ΦA
    iintro ⟨Hp, -, Hr⟩
    isplitl [Hr]; · iexact Hr
    iexact Hp
  hout c := by
    rw [Pipeline.ownSems0_none]
    refine (hout3 (V9 m) c).trans (?_ : (Pipeline.ΦA spec3 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (V9 m) c w)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's ten items in order: a host segment per stretch of operations, from the contents at the boundary before
    it; a region per kernel. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]

set_option backward.isDefEq.respectTransparency.types false in
/-- Every weakly fair execution of @main from `m` with zero counters terminates, nothing faulting, with every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- An argument's buffer in a final memory that has every unscoped buffer at the last boundary's contents. -/
theorem arg_of_all {r : PUnit × MemSt nD τ sig (Elt F)}
    (h : ∀ c : Dev nD, ∀ b ∈ Pipeline.ucRefs τ sig, r.2.mem (((c : Thread nD τ)).1, b) = W10 m c b)
    (c : Dev nD) (b : Ref sig .tc) (hs : ¬ (Proc.devRef .tc b : DevRef τ sig).isScoped)
    (hb : b ∈ ([main_arg0, main_arg1, main_arg2, main_arg3, main_arg4, main_arg5, main_arg6, main_arg7, main_arg8, main_arg9, main_arg10] : List (Ref sig .tc))) :
    r.2.mem ((c.tc : Thread nD τ).loc b) = m ((c.tc : Thread nD τ).loc b) :=
  (h c _ (mem_uc b hs)).trans (W10_arg m c b hb)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    ⟨arg_of_all m h c main_arg0 (by decide) (by decide),
     arg_of_all m h c main_arg1 (by decide) (by decide),
     arg_of_all m h c main_arg2 (by decide) (by decide),
     arg_of_all m h c main_arg3 (by decide) (by decide),
     arg_of_all m h c main_arg4 (by decide) (by decide),
     arg_of_all m h c main_arg5 (by decide) (by decide),
     arg_of_all m h c main_arg6 (by decide) (by decide),
     arg_of_all m h c main_arg7 (by decide) (by decide),
     arg_of_all m h c main_arg8 (by decide) (by decide),
     arg_of_all m h c main_arg9 (by decide) (by decide),
     arg_of_all m h c main_arg10 (by decide) (by decide)⟩) (run_all m ρ)

/-- The run with the result named: the result array ends at what the pool region's write-back left, the arguments as launched. -/
theorem run_out : θ_run defs (onTc (τ := τ) (main (F := F))) ⟨m, fun _ => 0, ρ⟩ (fun r => ∀ c : Dev nD,
      r.2.mem ((c.tc : Thread nD τ).loc main_v50) = (dat3 (V9 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    ⟨(h c _ (mem_uc main_v50 (by decide))).trans (W10_out m c),
     arg_of_all m h c main_arg0 (by decide) (by decide),
     arg_of_all m h c main_arg1 (by decide) (by decide),
     arg_of_all m h c main_arg2 (by decide) (by decide),
     arg_of_all m h c main_arg3 (by decide) (by decide),
     arg_of_all m h c main_arg4 (by decide) (by decide),
     arg_of_all m h c main_arg5 (by decide) (by decide),
     arg_of_all m h c main_arg6 (by decide) (by decide),
     arg_of_all m h c main_arg7 (by decide) (by decide),
     arg_of_all m h c main_arg8 (by decide) (by decide),
     arg_of_all m h c main_arg9 (by decide) (by decide),
     arg_of_all m h c main_arg10 (by decide) (by decide)⟩) (run_all m ρ)

end Cert.Kernel.Hand

end
-- ==== Proof.KI.Reg0.lean ====
/- Region 0 (the first projection, scaled row by row): what each grid point's body leaves in the output window's
   staging buffer as a function of the three input blocks, the pipeline's proof data over it, and the body's
   obligation at every point.  Stated at any float instance and at a parameter `V`: the buffers' contents when
   the region is entered. -/
import proofs.«422783_j89661737271610_2_alg».proof.Proof.Gen.KernelIdeal.Launch
import proofs.«422783_j89661737271610_2_alg».proof.Proof.Gen.KernelIdeal.Skeleton
import proofs.«422783_j89661737271610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x1 := Rect.unit (s := S5000x1) ![0, 0] S5000x1.size inb_S5000x1_S5000x1_0_0
abbrev r0_3 : Rect S5000x64 := Rect.unit (s := S5000x64) ![0, 0] S5000x64.size inb_S5000x64_S5000x64_0_0

/-- The output block after the body: its one store, of the body's product over the three loaded blocks. -/
def out0_3 (x0 : Vec F S5000x256 .f32) (x1 : Vec F S256x64 .f32) (x2 : Vec F S5000x1 .f32) : Vec F S5000x64 .f32 :=
  View.canon [⟨r0_3, k0_pay1 (View.ld x0 r0_0) (View.ld x1 r0_1) (View.ld x2 r0_2)⟩]

/-- The one store tiles the output buffer, so it covers it. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

set_option maxHeartbeats 1000000 in
/-- The body on whole staging memrefs, the three inputs' at read contents `x0 x1 x2` and the output's at anything,
    runs to the continuation holding the inputs' as they were and the output's at `out0_3` of them.  The body reads
    the output buffer once before its store; what it reads there is not used. -/
theorem sound_kernel0 (c : Dev nD) (E : Set ℕ) (i : grid0.Coords)
    (arg1 : Memref sig .tc .vmem S5000x256 .f32) (harg1 : arg1.IsWhole) (arg2 : Memref sig .tc .vmem S256x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x256 .f32) (x1 : Vec F S256x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_scale_kernel i arg1 harg1 arg2 harg2 arg3 harg3 arg4 harg4) K := by
  simp only [cc0__proj_scale_kernel_eq_skeleton]; unfold cc0__proj_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data: arrays as entered; inputs' buffers at their blocks, the output's at `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 (bias, rectifier and the next projection, scaled row by row on the way in and on the way out): what each
   grid point's body leaves in the output window's staging buffer as a function of the four input blocks, the
   pipeline's proof data over it, and the body's obligation at every point.  Stated at any float instance and at a
   parameter `V`: the buffers' contents when the region is entered. -/
import proofs.«422783_j89661737271610_2_alg».proof.Proof.Gen.KernelIdeal.Launch
import proofs.«422783_j89661737271610_2_alg».proof.Proof.Gen.KernelIdeal.Skeleton
import proofs.«422783_j89661737271610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it is fetched there (an
    unfetched point has the block index of the point before), for any proof data whose array is the entry contents
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it is fetched there (an
    unfetched point has the block index of the point before), for any proof data whose array is the entry contents
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it is fetched there (an
    unfetched point has the block index of the point before), for any proof data whose array is the entry contents
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it is fetched there (an
    unfetched point has the block index of the point before), for any proof data whose array is the entry contents
    and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S64 := Rect.unit (s := S64) ![0] S64.size inb_S64_S64_0
abbrev r1_3 : Rect S64x64 := Rect.unit (s := S64x64) ![0, 0] S64x64.size inb_S64x64_S64x64_0_0

/-- The output block after the body: its one store, of the body's value over the loaded blocks (the scale column is
    loaded twice). -/
def out1_4 (x0 : Vec F S5000x64 .f32) (x1 : Vec F S5000x1 .f32) (x2 : Vec F S64 .f32) (x3 : Vec F S64x64 .f32) : Vec F S5000x64 .f32 :=
  View.canon [⟨r1_0, k1_pay1 (View.ld x0 r1_0) (View.ld x1 r1_1) (View.ld x2 r1_2) (View.ld x3 r1_3) (View.ld x1 r1_1)⟩]

/-- The one store is of the whole block, so it covers it. -/
theorem cover1_4 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in
/-- The body on whole staging buffers, the inputs' at contents `x0 … x3` and the output's at anything, leaves the inputs'
    as they were and the output's at `out1_4` of them: five loads of the inputs (the scale column twice), a load of the
    output buffer that nothing reads, and the one store. -/
theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S5000x64 .f32) (harg5 : arg5.IsWhole)
    (x0 : Vec F S5000x64 .f32) (x1 : Vec F S5000x1 .f32) (x2 : Vec F S64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E
          (cc1__fused_bias_matmul_kernel i arg1 harg1 arg2 harg2 arg3 harg3 arg4 harg4 arg5 harg5) K := by
  simp only [cc1__fused_bias_matmul_kernel_eq_skeleton]; unfold cc1__fused_bias_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data: arrays as entered; inputs' buffers at their blocks, the output's at `out1_4` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

/-- What the body leaves in each input window's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 (bias, rectifier and the next projection, scaled row by row on the way in and on the way out): what each
   grid point's body leaves in the output window's staging buffer as a function of the four input blocks, the
   pipeline's proof data over it, and the body's obligation at every point.  Stated at any float instance and at a
   parameter `V`: the buffers' contents when the region is entered. -/
import proofs.«422783_j89661737271610_2_alg».proof.Proof.Gen.KernelIdeal.Launch
import proofs.«422783_j89661737271610_2_alg».proof.Proof.Gen.KernelIdeal.Skeleton
import proofs.«422783_j89661737271610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it is fetched there (an
    unfetched point has the block index of the point before), for any proof data whose array is the entry contents
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it is fetched there (an
    unfetched point has the block index of the point before), for any proof data whose array is the entry contents
    and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it is fetched there (an
    unfetched point has the block index of the point before), for any proof data whose array is the entry contents
    and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it is fetched there (an
    unfetched point has the block index of the point before), for any proof data whose array is the entry contents
    and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S64 := Rect.unit (s := S64) ![0] S64.size inb_S64_S64_0
abbrev r2_3 : Rect S64x64 := Rect.unit (s := S64x64) ![0, 0] S64x64.size inb_S64x64_S64x64_0_0

/-- The output block after the body: its one store, of the body's value over the loaded blocks (the scale column is
    loaded twice). -/
def out2_4 (x0 : Vec F S5000x64 .f32) (x1 : Vec F S5000x1 .f32) (x2 : Vec F S64 .f32) (x3 : Vec F S64x64 .f32) : Vec F S5000x64 .f32 :=
  View.canon [⟨r2_0, k2_pay1 (View.ld x0 r2_0) (View.ld x1 r2_1) (View.ld x2 r2_2) (View.ld x3 r2_3) (View.ld x1 r2_1)⟩]

/-- The one store is of the whole block, so it covers it. -/
theorem cover2_4 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in
/-- The body on whole staging buffers, the inputs' at contents `x0 … x3` and the output's at anything, leaves the inputs'
    as they were and the output's at `out2_4` of them: five loads of the inputs (the scale column twice), a load of the
    output buffer that nothing reads, and the one store. -/
theorem sound_kernel2 (c : Dev nD) (E : Set ℕ) (i : grid2.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S5000x64 .f32) (harg5 : arg5.IsWhole)
    (x0 : Vec F S5000x64 .f32) (x1 : Vec F S5000x1 .f32) (x2 : Vec F S64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E
          (cc2__fused_bias_matmul_kernel i arg1 harg1 arg2 harg2 arg3 harg3 arg4 harg4 arg5 harg5) K := by
  simp only [cc2__fused_bias_matmul_kernel_eq_skeleton]; unfold cc2__fused_bias_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data: arrays as entered; inputs' buffers at their blocks, the output's at `out2_4` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

/-- What the body leaves in each input window's buffer: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 (bias, the pool into the graphs' rows accumulated over the grid in a scratch buffer, and at the last
   point the linear head): the pipeline's proof data, its invariant carrying the scratch from point to point, and
   the body's obligation at every point.  Stated at any float instance and at a parameter `V`: the buffers'
   contents when the region is entered. -/
import proofs.«422783_j89661737271610_2_alg».proof.Proof.Gen.KernelIdeal.Launch
import proofs.«422783_j89661737271610_2_alg».proof.Proof.Gen.KernelIdeal.Skeleton
import proofs.«422783_j89661737271610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S5000x1 := Rect.unit (s := S5000x1) ![0, 0] S5000x1.size inb_S5000x1_S5000x1_0_0
abbrev r3_2 : Rect S64 := Rect.unit (s := S64) ![0] S64.size inb_S64_S64_0
abbrev r3_4 : Rect S64x1 := Rect.unit (s := S64x1) ![0, 0] S64x1.size inb_S64x1_S64x1_0_0
abbrev r3_5 : Rect S1 := Rect.unit (s := S1) ![0] S1.size inb_S1_S1_0
abbrev r3_6 : Rect S100x1 := Rect.unit (s := S100x1) ![0, 0] S100x1.size inb_S100x1_S100x1_0_0
abbrev r3_s : Rect S100x64 := Rect.unit (s := S100x64) ![0, 0] S100x64.size inb_S100x64_S100x64_0_0

/-- The scratch as the first point resets it: all zeros. -/
def zero3 : Vec F S100x64 .f32 := View.canon [⟨r3_s, k3_pay1⟩]

/-- The scratch after one point's accumulation, from the point's four input blocks and the scratch before it. -/
def step3 (x0 : Vec F S5000x64 .f32) (x1 : Vec F S5000x1 .f32) (x2 : Vec F S64 .f32) (x3 : Vec F S5000x1 .i32)
    (s : Vec F S100x64 .f32) : Vec F S100x64 .f32 :=
  View.canon [⟨r3_s, k3_pay2 (View.ld x0 r3_0) (View.ld x1 r3_1) (View.ld x2 r3_2) (View.ld x3 r3_1) (View.ld s r3_s)⟩]

/-- The scratch after the body at point `n`: the first point accumulates onto zeros, every later one onto what the
    point before left. -/
def scr3 (c : Dev nD) : (n : ℕ) → n < cfg3.N → Vec F S100x64 .f32
  | 0, hn => step3 (iblk3 V c 0 ⟨0, hn⟩) (iblk3 V c 1 ⟨0, hn⟩) (iblk3 V c 2 ⟨0, hn⟩) (iblk3 V c 3 ⟨0, hn⟩) zero3
  | n + 1, hn => step3 (iblk3 V c 0 ⟨n + 1, hn⟩) (iblk3 V c 1 ⟨n + 1, hn⟩) (iblk3 V c 2 ⟨n + 1, hn⟩) (iblk3 V c 3 ⟨n + 1, hn⟩)
      (scr3 c n (Nat.lt_of_succ_lt hn))

/-- The output block as the last point stores it: the head over the scratch. -/
def out3_6 (s : Vec F S100x64 .f32) (x4 : Vec F S64x1 .f32) (x5 : Vec F S1 .f32) : Vec F S100x1 .f32 :=
  View.canon [⟨r3_6, k3_pay3 (View.ld s r3_s) (View.ld x4 r3_4) (View.ld x5 r3_5)⟩]

/-- The region's invariant before position `n`: before the first point what the launch hands over (every scoped buffer
    that is no staging buffer of this region at some contents, the generator register at some state); afterwards the same
    with the scratch at what the point before left in it. -/
def PhiS3 (c : Dev nD) : (n : ℕ) → n ≤ cfg3.N → sProp 𝕄
  | 0, _ => Pipeline.ΦA spec3 c
  | n + 1, hn => iprop(iprop(owns (c : Thread nD τ) (Memref.whole cc3_scratch0) fullShare (scr3 V c n hn)
      ∗ Pipeline.scopedRestBut (Ix := Unit) (Name := ℕ) (U := UR sig nD τ) (Lvl := ℕ) (Val := Elt F) spec3 c [cc3_scratch0])
      ∗ (∃ r, prngReg c r))

theorem PhiS3_zero (c : Dev nD) (n : ℕ) (h : n ≤ cfg3.N) (hz : n = 0) : PhiS3 V c n h = Pipeline.ΦA spec3 c := by
  subst hz; rfl

/-- After point `n`: the scratch at that point's contents. -/
theorem PhiS3_succ (c : Dev nD) (n : ℕ) (hn : n < cfg3.N) :
    PhiS3 V c (n + 1) hn = iprop(iprop(owns (c : Thread nD τ) (Memref.whole cc3_scratch0) fullShare (scr3 V c n hn)
      ∗ Pipeline.scopedRestBut (Ix := Unit) (Name := ℕ) (U := UR sig nD τ) (Lvl := ℕ) (Val := Elt F) spec3 c [cc3_scratch0])
      ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(owns (c : Thread nD τ) (Memref.whole cc3_scratch0) fullShare (scr3 V c (n - 1) (by omega))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-- The scoped buffers that are no staging buffer of this region, split at the scratch: the scratch whole at some
    contents, every other one left unopened. -/
theorem scopedRest3_split (c : Dev nD) :
    (Pipeline.scopedRest (Ix := Unit) (Name := ℕ) (U := UR sig nD τ) (Lvl := ℕ) (Val := Elt F) spec3 c : sProp 𝕄)
      = iprop((∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

/-- The class invariant with the scratch as a memref owned at some contents. -/
theorem PhiA3_eq (c : Dev nD) :
    (Pipeline.ΦA spec3 c : sProp 𝕄)
      = iprop(iprop((∃ d, owns (c : Thread nD τ) (Memref.whole cc3_scratch0) fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [owns_whole]; try rfl

/-- The proof data of the pool region: arrays as entered; the inputs' buffers at their blocks; the output's at the head
    over the scratch (consulted at the last point only: elsewhere the window is idle and not written back). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (scr3 V c t.val t.isLt) (iblk3 V c 4 t) (iblk3 V c 5 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem after3_6 (c : Dev nD) (t : Fin cfg3.N) :
    (dat3 V c).after 6 t = out3_6 (scr3 V c t.val t.isLt) (iblk3 V c 4 t) (iblk3 V c 5 t) := by dsimp only [dat3]

/-! ## The body's two conditions, in closed form -/

/-- The first condition of the body (reset the scratch): the grid coordinate is zero. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second condition of the body (the head): the grid coordinate is the last. -/
abbrev cond3_1 (i : grid3.Coords) : Prop := k3_cond2 i = 1#1
/-- It holds at the last point only. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
/-- Off the last point the output window is idle, -/
theorem idleAt3_6 : ∀ t : Fin cfg3.N, ¬cond3_1 (grid3.coords t) → cfg3.idle 6 (grid3.coords t) = true := by decide +kernel
/-- and not written back; -/
theorem noFlush3_6 : ∀ t : Fin cfg3.N, ¬cond3_1 (grid3.coords t) → (cfg3.win 6).flush t = false := by decide +kernel
/-- at the last point it is live. -/
theorem liveAt3_6 : ∀ t : Fin cfg3.N, cond3_1 (grid3.coords t) → cfg3.idle 6 (grid3.coords t) = false := by decide +kernel

/-! ## What the inputs' buffers hold when the body runs -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

/-- Each input's current buffer holds its block at every point, fetched there or not (unfetched, the block index has
    not moved since the point that fetched it). -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

/-! ## The body's triple, case by case -/

theorem zeros2 : (![0, 0] : Fin 2 → ℕ) = fun _ => 0 := by funext a; fin_cases a <;> rfl
theorem zeros1 : (![0] : Fin 1 → ℕ) = fun _ => 0 := by funext a; fin_cases a <;> rfl

/-- A store through the scratch's whole rectangle, last, covers the scratch. -/
theorem cover3_s (p : Vec F S100x64 .f32) (L : List (View.Piece (Elt F) S100x64 .f32)) (y : S100x64.Idx) :
    ∃ pc ∈ ((⟨r3_s, p⟩ : View.Piece (Elt F) S100x64 .f32) :: L), y ∈ pc.1.set :=
  ⟨_, List.mem_cons_self, View.mem_set_unit_zero (S := S100x64) zeros2 inb_S100x64_S100x64_0_0 y⟩
/-- The head's one store covers the output block. -/
theorem cover3_6 (p : Vec F S100x1 .f32) (y : S100x1.Idx) :
    ∃ pc ∈ ([⟨r3_6, p⟩] : List (View.Piece (Elt F) S100x1 .f32)), y ∈ pc.1.set :=
  ⟨_, List.mem_cons_self, View.mem_set_unit_zero (S := S100x1) zeros2 inb_S100x1_S100x1_0_0 y⟩

set_option maxHeartbeats 1000000 in
/-- A middle point (neither condition holds): on whole memrefs, the four inputs at their contents and the scratch at `s`,
    the body runs to the inputs as they were and the scratch at `step3` of them. -/
theorem sound_kernel3_mid (c : Dev nD) (E : Set ℕ) (i : grid3.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S1 .f32) (harg6 : arg6.IsWhole)
    (arg7 : Memref sig .tc .vmem S100x1 .f32) (harg7 : arg7.IsWhole) (arg8 : Memref sig .tc .vmem S100x64 .f32) (harg8 : arg8.IsWhole)
    (hc0 : ¬cond3_0 i) (hc1 : ¬cond3_1 i)
    (x0 : Vec F S5000x64 .f32) (x1 : Vec F S5000x1 .f32) (x2 : Vec F S64 .f32) (x3 : Vec F S5000x1 .i32) (s : Vec F S100x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg8 fullShare (step3 x0 x1 x2 x3 s)) -∗ K ⟨⟩))
      ⊢ wp frame (wpE (defs₀ (F := F)) Variants.none c none) E
          (cc3__fused_tail_kernel i arg1 harg1 arg2 harg2 arg3 harg3 arg4 harg4 arg5 harg5 arg6 harg6 arg7 harg7 arg8 harg8) K := by
  simp only [cc3__fused_tail_kernel_eq_skeleton]; unfold cc3__fused_tail_kernel_skel
  unfold owns
  iintro ⟨⟨%f0, %hf0, H0⟩, ⟨%f1, %hf1, H1⟩, ⟨%f2, %hf2, H2⟩, ⟨%f3, %hf3, H3⟩, ⟨%f8, %hf8, H8⟩, Hk⟩
  subst hf0; subst hf1; subst hf2; subst hf3; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H8
  ipureintro
  exact View.read_writes_eq_canon _ _ _ (cover3_s _ _)

set_option maxHeartbeats 1000000 in
/-- The first point (the first condition holds, the second does not): the scratch, at anything, is reset to zeros and the
    point accumulated onto them. -/
theorem sound_kernel3_first (c : Dev nD) (E : Set ℕ) (i : grid3.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S1 .f32) (harg6 : arg6.IsWhole)
    (arg7 : Memref sig .tc .vmem S100x1 .f32) (harg7 : arg7.IsWhole) (arg8 : Memref sig .tc .vmem S100x64 .f32) (harg8 : arg8.IsWhole)
    (hc0 : cond3_0 i) (hc1 : ¬cond3_1 i)
    (x0 : Vec F S5000x64 .f32) (x1 : Vec F S5000x1 .f32) (x2 : Vec F S64 .f32) (x3 : Vec F S5000x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg8 fullShare (step3 x0 x1 x2 x3 zero3)) -∗ K ⟨⟩))
      ⊢ wp frame (wpE (defs₀ (F := F)) Variants.none c none) E
          (cc3__fused_tail_kernel i arg1 harg1 arg2 harg2 arg3 harg3 arg4 harg4 arg5 harg5 arg6 harg6 arg7 harg7 arg8 harg8) K := by
  simp only [cc3__fused_tail_kernel_eq_skeleton]; unfold cc3__fused_tail_kernel_skel
  unfold owns
  iintro ⟨⟨%f0, %hf0, H0⟩, ⟨%f1, %hf1, H1⟩, ⟨%f2, %hf2, H2⟩, ⟨%f3, %hf3, H3⟩, ⟨%d8, %f8, -, H8⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H8
  ipureintro
  rw [View.read_writes_eq_canon _ _ _ (cover3_s _ _), View.canon_cons_unit_zero (S := S100x64) zeros2]
  unfold step3 zero3
  sl_unfold_words
  rw [View.readCov_eq_canon_ld _ _ _ (cover3_s _ _)]
  exact (View.canon_unit_zero (Val := Elt F) (S := S100x64) (e := .f32) zeros2 inb_S100x64_S100x64_0_0 _).symm

set_option maxHeartbeats 1000000 in
/-- The last point (the second condition holds, the first does not): the point is accumulated into the scratch, and the
    head over the scratch, the weights and the bias is stored into the output block, which was at anything. -/
theorem sound_kernel3_last (c : Dev nD) (E : Set ℕ) (i : grid3.Coords)
    (arg1 : Memref sig .tc .vmem S5000x64 .f32) (harg1 : arg1.IsWhole) (arg2 : Memref sig .tc .vmem S5000x1 .f32) (harg2 : arg2.IsWhole)
    (arg3 : Memref sig .tc .vmem S64 .f32) (harg3 : arg3.IsWhole) (arg4 : Memref sig .tc .vmem S5000x1 .i32) (harg4 : arg4.IsWhole)
    (arg5 : Memref sig .tc .vmem S64x1 .f32) (harg5 : arg5.IsWhole) (arg6 : Memref sig .tc .vmem S1 .f32) (harg6 : arg6.IsWhole)
    (arg7 : Memref sig .tc .vmem S100x1 .f32) (harg7 : arg7.IsWhole) (arg8 : Memref sig .tc .vmem S100x64 .f32) (harg8 : arg8.IsWhole)
    (hc0 : ¬cond3_0 i) (hc1 : cond3_1 i)
    (x0 : Vec F S5000x64 .f32) (x1 : Vec F S5000x1 .f32) (x2 : Vec F S64 .f32) (x3 : Vec F S5000x1 .i32)
    (x4 : Vec F S64x1 .f32) (x5 : Vec F S1 .f32) (s : Vec F S100x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 (step3 x0 x1 x2 x3 s) x4 x5)
            ∗ owns (c : Thread nD τ) arg8 fullShare (step3 x0 x1 x2 x3 s)) -∗ K ⟨⟩))
      ⊢ wp frame (wpE (defs₀ (F := F)) Variants.none c none) E
          (cc3__fused_tail_kernel i arg1 harg1 arg2 harg2 arg3 harg3 arg4 harg4 arg5 harg5 arg6 harg6 arg7 harg7 arg8 harg8) K := by
  simp only [cc3__fused_tail_kernel_eq_skeleton]; unfold cc3__fused_tail_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0; subst hf1; subst hf2; subst hf3; subst hf4; subst hf5; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    rw [View.read_writes_eq_canon _ _ _ (cover3_6 _)]
    unfold out3_6 step3
    sl_unfold_words
    rw [View.readCov_eq_canon_ld _ _ _ (cover3_s _ _)]
    rfl
  iexists _; isplitr
  swap; · iexact H8
  ipureintro
  exact View.read_writes_eq_canon _ _ _ (cover3_s _ _)

/-! ## The scratch, point by point -/

/-- At the first point the scratch is the point's accumulation onto zeros; -/
theorem scr3_zero (c : Dev nD) (t : Fin cfg3.N) (h0 : t.val = 0) :
    scr3 V c t.val t.isLt = step3 (iblk3 V c 0 t) (iblk3 V c 1 t) (iblk3 V c 2 t) (iblk3 V c 3 t) zero3 := by
  obtain ⟨n, hn⟩ := t
  cases n with
  | zero => rfl
  | succ n => exact absurd h0 (Nat.succ_ne_zero n)

/-- at a later point, onto what the point before left. -/
theorem scr3_pos (c : Dev nD) (t : Fin cfg3.N) (h0 : t.val ≠ 0) :
    scr3 V c t.val t.isLt = step3 (iblk3 V c 0 t) (iblk3 V c 1 t) (iblk3 V c 2 t) (iblk3 V c 3 t)
      (scr3 V c (t.val - 1) (Nat.lt_of_le_of_lt (Nat.sub_le _ _) t.isLt)) := by
  obtain ⟨n, hn⟩ := t
  cases n with
  | zero => exact absurd rfl h0
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point. The inputs' memrefs hold their blocks; the point's position says which of the three cases it
    is in. The invariant hands the body the scratch (at anything at the first point, afterwards at what the point before
    left) and takes it back at this point's contents; the other scoped buffers, the generator register and what the core
    owes pass through. Off the last point the output's buffer is handed back as found; at the last point it is left at the
    head over the scratch. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 20 := lt_of_lt_of_eq t.isLt (show cfg3.N = 20 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 6 t (idleAt3_6 t hc1) (noFlush3_6 t hc1)]
    rw [PhiS3_castSucc V c t, PhiS3_zero V c _ _ h0, PhiA3_eq, scr3_zero V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel3_first c Set.univ _ _ _ _ _ _ _ _ _ _ _ _ _ _ _ _ _ hc0 hc1
      (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h19 : t.val = 19
    · have hc0 : ¬cond3_0 (grid3.coords t) := fun h => h0 ((hcond3_0 t).mp h)
      have hc1 : cond3_1 (grid3.coords t) := (hcond3_1 t).mpr h19
      rw [show (dat3 V c).leavesExact 6 t = owns (c : Thread nD τ) (st3_6 t) fullShare ((dat3 V c).after 6 t) from by
        unfold Dat.leavesExact; rw [liveAt3_6 t hc1], after3_6]
      rw [PhiS3_castSucc V c t, PhiS3_pos V c _ _ h0, scr3_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_last c Set.univ _ _ _ _ _ _ _ _ _ _ _ _ _ _ _ _ _ hc0 hc1
        (iblk3 V c 0 t) (iblk3 V c 1 t) (iblk3 V c 2 t) (iblk3 V c 3 t) (iblk3 V c 4 t) (iblk3 V c 5 t)
        (scr3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond3_0 (grid3.coords t) := fun h => h0 ((hcond3_0 t).mp h)
      have hc1 : ¬cond3_1 (grid3.coords t) := fun h => h19 ((hcond3_1 t).mp h)
      rw [Dat.leavesExact_idle (dat3 V c) 6 t (idleAt3_6 t hc1) (noFlush3_6 t hc1)]
      rw [PhiS3_castSucc V c t, PhiS3_pos V c _ _ h0, scr3_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_mid c Set.univ _ _ _ _ _ _ _ _ _ _ _ _ _ _ _ _ _ hc0 hc1
        (iblk3 V c 0 t) (iblk3 V c 1 t) (iblk3 V c 2 t) (iblk3 V c 3 t)
        (scr3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (the class's invariant: every scoped buffer that is no staging buffer at some
    contents, the generator register at some state) is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back. -/
theorem hout3 (c : Dev nD) : (dat3 V c).Φ (Fin.last cfg3.N) ⊢ (Pipeline.ΦA spec3 c : sProp 𝕄) := by
  have ht : (Fin.last cfg3.N).val ≠ 0 := by rw [Fin.val_last]; have : cfg3.N = 20 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨⟨HS, HR⟩, Hg⟩
  isplitl [HS HR]
  · isplitl [HS]
    · iexists _; iexact HS
    iexact HR
  iexact Hg

end Cert.KernelIdeal.Hand

end
-- ==== Proof.KI.Run.lean ====
/- The run of @main as ten items — three stretches of host operations, then four kernel regions each followed by the
   stretch that consumes its result — with the contents of every unscoped buffer at every boundary named: a fold
   from the launch memory (a stretch's operations applied; a region's arrays at what its write-backs leave).  Every
   weakly fair execution ends with every unscoped buffer at the last boundary's contents; the argument arrays there
   are the launch's, and the result array is what the pool region's write-back left. -/
import proofs.«422783_j89661737271610_2_alg».proof.Proof.KI.Reg0
import proofs.«422783_j89661737271610_2_alg».proof.Proof.KI.Reg1
import proofs.«422783_j89661737271610_2_alg».proof.Proof.KI.Reg2
import proofs.«422783_j89661737271610_2_alg».proof.Proof.KI.Reg3
import proofs.«422783_j89661737271610_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- Region 0's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- Region 0's exit: its arrays at what the pipeline leaves, every other buffer as entered. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- Region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- Region 2's entry. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (V7 m) c).arrAt w cfg2.N
abbrev V8 : (c : Dev nD) → (b : Ref sig .tc) → Buf (Elt F) ((c : Thread nD τ).loc b) := fun c b => W8 m c b
/-- Region 3's entry. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- The end. -/
def W10 (c : Dev nD) : Valuation τ sig (Elt F) :=
  Pipeline.withArrays spec3 c (W9 m c) fun w => (dat3 (V9 m) c).arrAt w cfg3.N
abbrev V10 : (c : Dev nD) → (b : Ref sig .tc) → Buf (Elt F) ((c : Thread nD τ).loc b) := fun c b => W10 m c b

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

theorem hF0 (c : Dev nD) (w : Fin cfg0.W) : (dat0 (V3 m) c).arrAt w cfg0.N = V4 m c (Pipeline.arrRef spec0 w) := (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
theorem hF1 (c : Dev nD) (w : Fin cfg1.W) : (dat1 (V5 m) c).arrAt w cfg1.N = V6 m c (Pipeline.arrRef spec1 w) := (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
theorem hF2 (c : Dev nD) (w : Fin cfg2.W) : (dat2 (V7 m) c).arrAt w cfg2.N = V8 m c (Pipeline.arrRef spec2 w) := (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
theorem hF3 (c : Dev nD) (w : Fin cfg3.W) : (dat3 (V9 m) c).arrAt w cfg3.N = V10 m c (Pipeline.arrRef spec3 w) := (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The arguments end as launched, and the result is the pool region's -/

/-- A stretch of host operations leaves alone every buffer none of them writes. -/
theorem W1_of (c : Dev nD) (b : Ref sig .tc) (h : b ∉ hostOps0_W) :
    W1 m c (Proc.devRef .tc b) = W0 m c (Proc.devRef .tc b) :=
  StableHlo.after_of_writes_sub hostOps0 _ hostOps0_writes h
theorem W2_of (c : Dev nD) (b : Ref sig .tc) (h : b ∉ hostOps0_1_W) :
    W2 m c (Proc.devRef .tc b) = W1 m c (Proc.devRef .tc b) :=
  StableHlo.after_of_writes_sub hostOps0_1 _ hostOps0_1_writes h
theorem W3_of (c : Dev nD) (b : Ref sig .tc) (h : b ∉ hostOps0_2_W) :
    W3 m c (Proc.devRef .tc b) = W2 m c (Proc.devRef .tc b) :=
  StableHlo.after_of_writes_sub hostOps0_2 _ hostOps0_2_writes h
theorem W5_of (c : Dev nD) (b : Ref sig .tc) (h : b ∉ hostOps1_W) :
    W5 m c (Proc.devRef .tc b) = W4 m c (Proc.devRef .tc b) :=
  StableHlo.after_of_writes_sub hostOps1 _ hostOps1_writes h
theorem W7_of (c : Dev nD) (b : Ref sig .tc) (h : b ∉ hostOps2_W) :
    W7 m c (Proc.devRef .tc b) = W6 m c (Proc.devRef .tc b) :=
  StableHlo.after_of_writes_sub hostOps2 _ hostOps2_writes h
theorem W9_of (c : Dev nD) (b : Ref sig .tc) (h : b ∉ hostOps3_W) :
    W9 m c (Proc.devRef .tc b) = W8 m c (Proc.devRef .tc b) :=
  StableHlo.after_of_writes_sub hostOps3 _ hostOps3_writes h

/-- A region never writes back an input window's array: it leaves the region as it entered. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hw _).trans (A_eq2 (V7 m) c w))
theorem W10_in (c : Dev nD) (w : Fin cfg3.W) (hw : (cfg3.win w).isOut = false) :
    W10 m c (Proc.devRef .tc (Pipeline.arrRef spec3 w)) = W9 m c (Proc.devRef .tc (Pipeline.arrRef spec3 w)) :=
  (W10_arr m c w).trans (((dat3 (V9 m) c).arrAt_in w hw _).trans (A_eq3 (V9 m) c w))

/-- `main_arg0` reaches the end as launched: no stretch writes it, and a region at most reads it. -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := W9_of m c main_arg0 (by decide)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_in m c 0 rfl
    _ = W2 m c (Proc.devRef .tc main_arg0) := W3_of m c main_arg0 (by decide)
    _ = W1 m c (Proc.devRef .tc main_arg0) := W2_of m c main_arg0 (by decide)
    _ = W0 m c (Proc.devRef .tc main_arg0) := W1_of m c main_arg0 (by decide)
    _ = m ((c : Thread nD τ).loc main_arg0) := rfl
/-- `main_arg1` reaches the end as launched: no stretch writes it, and a region at most reads it. -/
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := W9_of m c main_arg1 (by decide)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of m c main_arg1 (by decide)
    _ = m ((c : Thread nD τ).loc main_arg1) := rfl
/-- `main_arg2` reaches the end as launched: no stretch writes it, and a region at most reads it. -/
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := W9_of m c main_arg2 (by decide)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) := W1_of m c main_arg2 (by decide)
    _ = m ((c : Thread nD τ).loc main_arg2) := rfl
/-- `main_arg3` reaches the end as launched: no stretch writes it, and a region at most reads it. -/
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := W9_of m c main_arg3 (by decide)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_in m c 1 rfl
    _ = W2 m c (Proc.devRef .tc main_arg3) := W3_of m c main_arg3 (by decide)
    _ = W1 m c (Proc.devRef .tc main_arg3) := W2_of m c main_arg3 (by decide)
    _ = W0 m c (Proc.devRef .tc main_arg3) := W1_of m c main_arg3 (by decide)
    _ = m ((c : Thread nD τ).loc main_arg3) := rfl
/-- `main_arg4` reaches the end as launched: no stretch writes it, and a region at most reads it. -/
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := W9_of m c main_arg4 (by decide)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_in m c 2 rfl
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := W1_of m c main_arg4 (by decide)
    _ = m ((c : Thread nD τ).loc main_arg4) := rfl
/-- `main_arg5` reaches the end as launched: no stretch writes it, and a region at most reads it. -/
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_in m c 3 rfl
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := W1_of m c main_arg5 (by decide)
    _ = m ((c : Thread nD τ).loc main_arg5) := rfl
/-- `main_arg6` reaches the end as launched: no stretch writes it, and a region at most reads it. -/
theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_in m c 2 rfl
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of m c main_arg6 (by decide)
    _ = W0 m c (Proc.devRef .tc main_arg6) := W1_of m c main_arg6 (by decide)
    _ = m ((c : Thread nD τ).loc main_arg6) := rfl
/-- `main_arg7` reaches the end as launched: no stretch writes it, and a region at most reads it. -/
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := W9_of m c main_arg7 (by decide)
    _ = W7 m c (Proc.devRef .tc main_arg7) := W8_in m c 3 rfl
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of m c main_arg7 (by decide)
    _ = W0 m c (Proc.devRef .tc main_arg7) := W1_of m c main_arg7 (by decide)
    _ = m ((c : Thread nD τ).loc main_arg7) := rfl
/-- `main_arg8` reaches the end as launched: no stretch writes it, and a region at most reads it. -/
theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_in m c 2 rfl
    _ = W8 m c (Proc.devRef .tc main_arg8) := W9_of m c main_arg8 (by decide)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of m c main_arg8 (by decide)
    _ = W0 m c (Proc.devRef .tc main_arg8) := W1_of m c main_arg8 (by decide)
    _ = m ((c : Thread nD τ).loc main_arg8) := rfl
/-- `main_arg9` reaches the end as launched: no stretch writes it, and a region at most reads it. -/
theorem W10_main_arg9 (c : Dev nD) : W10 m c (Proc.devRef .tc main_arg9) = m ((c : Thread nD τ).loc main_arg9) :=
  calc W10 m c (Proc.devRef .tc main_arg9)
    _ = W9 m c (Proc.devRef .tc main_arg9) := W10_in m c 4 rfl
    _ = W8 m c (Proc.devRef .tc main_arg9) := W9_of m c main_arg9 (by decide)
    _ = W7 m c (Proc.devRef .tc main_arg9) := W8_of_ne m c main_arg9 (by decide)
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of m c main_arg9 (by decide)
    _ = W0 m c (Proc.devRef .tc main_arg9) := W1_of m c main_arg9 (by decide)
    _ = m ((c : Thread nD τ).loc main_arg9) := rfl
/-- `main_arg10` reaches the end as launched: no stretch writes it, and a region at most reads it. -/
theorem W10_main_arg10 (c : Dev nD) : W10 m c (Proc.devRef .tc main_arg10) = m ((c : Thread nD τ).loc main_arg10) :=
  calc W10 m c (Proc.devRef .tc main_arg10)
    _ = W9 m c (Proc.devRef .tc main_arg10) := W10_in m c 5 rfl
    _ = W8 m c (Proc.devRef .tc main_arg10) := W9_of m c main_arg10 (by decide)
    _ = W7 m c (Proc.devRef .tc main_arg10) := W8_of_ne m c main_arg10 (by decide)
    _ = W6 m c (Proc.devRef .tc main_arg10) := W7_of m c main_arg10 (by decide)
    _ = W5 m c (Proc.devRef .tc main_arg10) := W6_of_ne m c main_arg10 (by decide)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of m c main_arg10 (by decide)
    _ = W0 m c (Proc.devRef .tc main_arg10) := W1_of m c main_arg10 (by decide)
    _ = m ((c : Thread nD τ).loc main_arg10) := rfl

/-- An argument reaches the end as launched: no stretch writes it, and a region only reads it. -/
theorem W10_arg (c : Dev nD) (b : Ref sig .tc)
    (hb : b ∈ ([main_arg0, main_arg1, main_arg2, main_arg3, main_arg4, main_arg5, main_arg6, main_arg7, main_arg8, main_arg9, main_arg10] : List (Ref sig .tc))) :
    W10 m c (Proc.devRef .tc b) = m ((c : Thread nD τ).loc b) := by
  simp only [List.mem_cons, List.not_mem_nil, or_false] at hb
  rcases hb with rfl | rfl | rfl | rfl | rfl | rfl | rfl | rfl | rfl | rfl | rfl
  exacts [W10_main_arg0 m c, W10_main_arg1 m c, W10_main_arg2 m c, W10_main_arg3 m c, W10_main_arg4 m c, W10_main_arg5 m c,
    W10_main_arg6 m c, W10_main_arg7 m c, W10_main_arg8 m c, W10_main_arg9 m c, W10_main_arg10 m c]

/-- The result array at the end: what the pool region's write-back left. -/
theorem W10_out (c : Dev nD) : W10 m c (Proc.devRef .tc main_v50) = (dat3 (V9 m) c).arrAt 6 cfg3.N :=
  W10_arr m c 6

/-! ## The proof data family and the thread state -/

def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 (the first projection) over the thread state: entered with every unscoped buffer at `W3`, left with them at
    `W4`.  Its windows' arrays are split out of the unscoped buffers at entry and put back at their final contents at
    exit; the generator register passes through the region's invariant; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the first fused layer) over the thread state: entered with every unscoped buffer at `W5`, left with them at
    `W6`.  Its windows' arrays are split out of the unscoped buffers at entry and put back at their final contents at
    exit; the generator register passes through the region's invariant; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the second fused layer) over the thread state: entered with every unscoped buffer at `W7`, left with them at
    `W8`.  Its windows' arrays are split out of the unscoped buffers at entry and put back at their final contents at
    exit; the generator register passes through the region's invariant; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the pool and the head) over the thread state: entered with every unscoped buffer at `W9`, left with them at
    `W10`.  Its windows' arrays are split out of the unscoped buffers at entry and put back at their final contents at
    exit; the generator register passes through the region's invariant; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun c t => owed_eq3 (V9 m) c t
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (V9 m) c w) (V9 m c) fun w => A_eq3 (V9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec3 c : sProp 𝕄)).trans (hin3 (V9 m) c)
    unfold Pipeline.ΦA
    iintro ⟨Hp, -, Hr⟩
    isplitl [Hr]; · iexact Hr
    iexact Hp
  hout c := by
    rw [Pipeline.ownSems0_none]
    refine (hout3 (V9 m) c).trans (?_ : (Pipeline.ΦA spec3 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (V9 m) c w)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's ten items in order: a host segment per stretch of operations, from the contents at the boundary before
    it; a region per kernel. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]

set_option backward.isDefEq.respectTransparency.types false in
/-- Every weakly fair execution of @main from `m` with zero counters terminates, nothing faulting, with every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- An argument's buffer in a final memory that has every unscoped buffer at the last boundary's contents. -/
theorem arg_of_all {r : PUnit × MemSt nD τ sig (Elt F)}
    (h : ∀ c : Dev nD, ∀ b ∈ Pipeline.ucRefs τ sig, r.2.mem (((c : Thread nD τ)).1, b) = W10 m c b)
    (c : Dev nD) (b : Ref sig .tc) (hs : ¬ (Proc.devRef .tc b : DevRef τ sig).isScoped)
    (hb : b ∈ ([main_arg0, main_arg1, main_arg2, main_arg3, main_arg4, main_arg5, main_arg6, main_arg7, main_arg8, main_arg9, main_arg10] : List (Ref sig .tc))) :
    r.2.mem ((c.tc : Thread nD τ).loc b) = m ((c.tc : Thread nD τ).loc b) :=
  (h c _ (mem_uc b hs)).trans (W10_arg m c b hb)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    ⟨arg_of_all m h c main_arg0 (by decide) (by decide),
     arg_of_all m h c main_arg1 (by decide) (by decide),
     arg_of_all m h c main_arg2 (by decide) (by decide),
     arg_of_all m h c main_arg3 (by decide) (by decide),
     arg_of_all m h c main_arg4 (by decide) (by decide),
     arg_of_all m h c main_arg5 (by decide) (by decide),
     arg_of_all m h c main_arg6 (by decide) (by decide),
     arg_of_all m h c main_arg7 (by decide) (by decide),
     arg_of_all m h c main_arg8 (by decide) (by decide),
     arg_of_all m h c main_arg9 (by decide) (by decide),
     arg_of_all m h c main_arg10 (by decide) (by decide)⟩) (run_all m ρ)

/-- The run with the result named: the result array ends at what the pool region's write-back left, the arguments as launched. -/
theorem run_out : θ_run defs (onTc (τ := τ) (main (F := F))) ⟨m, fun _ => 0, ρ⟩ (fun r => ∀ c : Dev nD,
      r.2.mem ((c.tc : Thread nD τ).loc main_v50) = (dat3 (V9 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    ⟨(h c _ (mem_uc main_v50 (by decide))).trans (W10_out m c),
     arg_of_all m h c main_arg0 (by decide) (by decide),
     arg_of_all m h c main_arg1 (by decide) (by decide),
     arg_of_all m h c main_arg2 (by decide) (by decide),
     arg_of_all m h c main_arg3 (by decide) (by decide),
     arg_of_all m h c main_arg4 (by decide) (by decide),
     arg_of_all m h c main_arg5 (by decide) (by decide),
     arg_of_all m h c main_arg6 (by decide) (by decide),
     arg_of_all m h c main_arg7 (by decide) (by decide),
     arg_of_all m h c main_arg8 (by decide) (by decide),
     arg_of_all m h c main_arg9 (by decide) (by decide),
     arg_of_all m h c main_arg10 (by decide) (by decide)⟩) (run_all m ρ)

end Cert.KernelIdeal.Hand

end
-- ==== Proof.Spec.lean ====
/-
  The mathematics of the two programs, as functions of the argument arrays over the extended reals.

  A graph convolution layer sends node features `H` to `A (H W)`-like sums: every edge `e` carries the row of its
  source node to its target node, weighted by `dinv[src e] * dinv[dst e]`, where `dinv` is the inverse square
  root of the target degree.  The reference weights each edge's row by the product; the kernel scales every row
  by `dinv` of its node BEFORE the rows travel and scales every target row by `dinv` of its node AFTER the sum.
  The two agree because `dinv` of a node is a non-negative REAL number — it is the inverse square root GUARDED by
  "the degree is positive", zero otherwise, and that guarded value is a non-negative real whatever extended real the
  degree is (the inverse root of +∞ is 0, of a positive real a positive real) — and multiplying by a non-negative
  real distributes over any finite sum of extended reals.

  Gathers and scatters are kept as the host operations they are (the edge arrays may hold any words: a start index is
  clamped when a row is read and an update that lands outside is dropped, on both sides alike); everything else is
  written index by index.
-/
import Idealize.ShloMosaic.PureOps.Ideal
import Idealize.ShloMosaic.PureOps.Contract
import Idealize.ShloMosaic.Lib.ValueIdx

noncomputable section

open scoped BigOperators

namespace Cert.Spec

open Idealize.ShloMosaic Idealize.ShloMosaic.ValueIdx

/-! ## Shapes -/

abbrev SN : Shape := ⟨1, ![100000]⟩
abbrev SNx1 : Shape := ⟨2, ![100000, 1]⟩
abbrev SNx256 : Shape := ⟨2, ![100000, 256]⟩
abbrev SNx64 : Shape := ⟨2, ![100000, 64]⟩
abbrev S256x64 : Shape := ⟨2, ![256, 64]⟩
abbrev S64x64 : Shape := ⟨2, ![64, 64]⟩
abbrev S64x1 : Shape := ⟨2, ![64, 1]⟩
abbrev S64 : Shape := ⟨1, ![64]⟩
abbrev S1 : Shape := ⟨1, ![1]⟩
abbrev SE : Shape := ⟨1, ![1700000]⟩
abbrev SEx1 : Shape := ⟨2, ![1700000, 1]⟩
abbrev SEx64 : Shape := ⟨2, ![1700000, 64]⟩
abbrev SGx64 : Shape := ⟨2, ![100, 64]⟩
abbrev SGx1 : Shape := ⟨2, ![100, 1]⟩

/-! ## The dimension numbers of the gathers and scatters (the printed programs state the same lists) -/

/-- Scatter of one word per edge into a vector over the nodes (the degree count). -/
def sdDeg : ScatterDims SN SEx1 SE where
  updateWindowDims := []
  insertedWindowDims := [0]
  scatterDimsToOperandDims := [0]
  indexVectorDim := 1

/-- Scatter of one row per edge into the rows of a node array. -/
def sdRows : ScatterDims SNx64 SEx1 SEx64 where
  updateWindowDims := [1]
  insertedWindowDims := [0]
  scatterDimsToOperandDims := [0]
  indexVectorDim := 1

/-- Scatter of one row per node into the rows of a graph array (the pool). -/
def sdPool : ScatterDims SGx64 SNx1 SNx64 where
  updateWindowDims := [1]
  insertedWindowDims := [0]
  scatterDimsToOperandDims := [0]
  indexVectorDim := 1

/-- Read of one row per edge out of a node array (the row index clamped into the array). -/
def gdRows : GatherDims SNx64 SEx1 SEx64 where
  offsetDims := [1]
  collapsedSliceDims := [0]
  operandBatchingDims := []
  startIndicesBatchingDims := []
  startIndexMap := [0]
  indexVectorDim := 1
  sliceSizes := ![1, 64]

/-- Read of one entry per edge out of a vector over the nodes. -/
def gdVec : GatherDims SN SEx1 SE where
  offsetDims := []
  collapsedSliceDims := [0]
  operandBatchingDims := []
  startIndicesBatchingDims := []
  startIndexMap := [0]
  indexVectorDim := 1
  sliceSizes := ![1]

/-! ## The pieces -/

/-- The target degree of every node: one for every edge that lands on it. `di` holds the edges' targets. -/
def deg (di : IVec SEx1 32) : SN.Idx → EReal :=
  Host.scatterAdd (F := Ideal) (φ := .f32) sdDeg (fun _ => Ideal.ofBits .f32 0x00000000#32) di (fun _ => Ideal.ofBits .f32 0x3F800000#32)

/-- The inverse square root of the degree, zero where the degree is not positive. -/
def dinv (di : IVec SEx1 32) : SN.Idx → EReal := fun i =>
  Scalar.select (Ideal.cmp .ogt (deg di i) (Ideal.ofBits .f32 0x00000000#32)) (Ideal.rsqrt (deg di i)) (Ideal.ofBits .f32 0x00000000#32)

/-- The rows of `H` carried along the edges and summed at their targets (`si`: the edges' sources, `di`: their targets). -/
def agg (si di : IVec SEx1 32) (H : SNx64.Idx → EReal) : SNx64.Idx → EReal :=
  Host.scatterAdd (F := Ideal) (φ := .f32) sdRows (fun _ => Ideal.ofBits .f32 0x00000000#32) di (Host.gather gdRows H si)

/-- The same with every edge's row weighted by `nrm` of the edge. -/
def aggW (si di : IVec SEx1 32) (nrm : SE.Idx → EReal) (H : SNx64.Idx → EReal) : SNx64.Idx → EReal :=
  Host.scatterAdd (F := Ideal) (φ := .f32) sdRows (fun _ => Ideal.ofBits .f32 0x00000000#32) di
    (fun j => Host.gather gdRows H si j * nrm (ix1 (j 0)))

/-- The edge weight of the reference: `dinv` read at the edge's source times `dinv` read at its target
    (`sj`, `dj`: the two index columns the reference reads `dinv` through). -/
def norm (di sj dj : IVec SEx1 32) : SE.Idx → EReal := fun e =>
  Host.gather gdVec (dinv di) sj e * Host.gather gdVec (dinv di) dj e

/-- The first projection: `x W`. -/
def proj256 (x : SNx256.Idx → EReal) (w : S256x64.Idx → EReal) : SNx64.Idx → EReal := fun i =>
  ∑ k : Fin 256, x (ix2 (i 0) k) * w (ix2 k (i 1))

/-- A later projection: `y W`. -/
def proj64 (y : SNx64.Idx → EReal) (w : S64x64.Idx → EReal) : SNx64.Idx → EReal := fun i =>
  ∑ k : Fin 64, y (ix2 (i 0) k) * w (ix2 k (i 1))

/-- Every row scaled by `dinv` of its node. -/
def scaleRows (di : IVec SEx1 32) (H : SNx64.Idx → EReal) : SNx64.Idx → EReal := fun i =>
  H i * dinv di (ix1 (i 0))

/-- Bias added to every row. -/
def addBias (H : SNx64.Idx → EReal) (b : S64.Idx → EReal) : SNx64.Idx → EReal := fun i => H i + b (ix1 (i 1))

/-- The rectifier. -/
def relu (H : SNx64.Idx → EReal) : SNx64.Idx → EReal := fun i => max (H i) 0

/-- The pooled rows as the reference sums them: every node's row added to the row of its graph. -/
def poolRef (bi : IVec SNx1 32) (H : SNx64.Idx → EReal) : SGx64.Idx → EReal :=
  Host.scatterAdd (F := Ideal) (φ := .f32) sdPool (fun _ => Ideal.ofBits .f32 0x00000000#32) bi H

/-- The pooled rows as the kernel sums them: every node's row times the indicator "the node's graph word is `g`". -/
def poolKer (bi : IVec SNx1 32) (H : SNx64.Idx → EReal) : SGx64.Idx → EReal := fun i =>
  ∑ n : Fin 100000, (if bi (ix2 n 0) = BitVec.ofNat 32 (i 0).val then (1 : EReal) else 0) * H (ix2 n (i 1))

/-- The linear head. -/
def head (P : SGx64.Idx → EReal) (wl : S64x1.Idx → EReal) (bl : S1.Idx → EReal) : SGx1.Idx → EReal := fun i =>
  (∑ k : Fin 64, P (ix2 (i 0) k) * wl (ix2 k (i 1))) + bl (ix1 0)

/-! ## The kernel's four regions, each as one function of the arrays it is entered with (`d`: the scale column) -/

/-- `dinv` as the one-column array the kernel's regions read. -/
def dcol (di : IVec SEx1 32) : SNx1.Idx → EReal := fun i => dinv di (ix1 (i 0))

/-- Region 0: the first projection, every row scaled by `d` of its node. -/
def projScaleK (x : SNx256.Idx → EReal) (w : S256x64.Idx → EReal) (d : SNx1.Idx → EReal) : SNx64.Idx → EReal := fun i =>
  (∑ k : Fin 256, x (ix2 (i 0) k) * w (ix2 k (i 1))) * d (ix2 (i 0) 0)

/-- Regions 1 and 2: the summed rows scaled by `d`, bias, rectifier, the next projection, scaled by `d` again. -/
def layerK (a : SNx64.Idx → EReal) (d : SNx1.Idx → EReal) (b : S64.Idx → EReal) (w : S64x64.Idx → EReal) : SNx64.Idx → EReal := fun i =>
  (∑ k : Fin 64, max (a (ix2 (i 0) k) * d (ix2 (i 0) 0) + b (ix1 k)) 0 * w (ix2 k (i 1))) * d (ix2 (i 0) 0)

/-- Region 3: the summed rows scaled by `d`, bias, the pool by indicators, the linear head. -/
def tailK (a : SNx64.Idx → EReal) (d : SNx1.Idx → EReal) (b : S64.Idx → EReal) (bi : IVec SNx1 32)
    (wl : S64x1.Idx → EReal) (bl : S1.Idx → EReal) : SGx1.Idx → EReal :=
  head (poolKer bi (fun i => a i * d (ix2 (i 0) 0) + b (ix1 (i 1)))) wl bl

/-! ## The two programs -/

/-- What the kernel computes. `si`, `di`: the source and target index columns; `bi`: the graph index column. -/
def kernelOut (si di : IVec SEx1 32) (bi : IVec SNx1 32) (x : SNx256.Idx → EReal) (w1 : S256x64.Idx → EReal) (b1 : S64.Idx → EReal)
    (w2 : S64x64.Idx → EReal) (b2 : S64.Idx → EReal) (w3 : S64x64.Idx → EReal) (b3 : S64.Idx → EReal)
    (wl : S64x1.Idx → EReal) (bl : S1.Idx → EReal) : SGx1.Idx → EReal :=
  let a1 := agg si di (projScaleK x w1 (dcol di))
  let a2 := agg si di (layerK a1 (dcol di) b1 w2)
  let a3 := agg si di (layerK a2 (dcol di) b2 w3)
  tailK a3 (dcol di) b3 bi wl bl

/-- What the reference computes. `sj`, `dj`: the index columns through which it reads `dinv` at an edge's ends. -/
def refOut (si di sj dj : IVec SEx1 32) (bi : IVec SNx1 32) (x : SNx256.Idx → EReal) (w1 : S256x64.Idx → EReal) (b1 : S64.Idx → EReal)
    (w2 : S64x64.Idx → EReal) (b2 : S64.Idx → EReal) (w3 : S64x64.Idx → EReal) (b3 : S64.Idx → EReal)
    (wl : S64x1.Idx → EReal) (bl : S1.Idx → EReal) : SGx1.Idx → EReal :=
  let nrm := norm di sj dj
  let y1 := relu (addBias (aggW si di nrm (proj256 x w1)) b1)
  let y2 := relu (addBias (aggW si di nrm (proj64 y1 w2)) b2)
  let h := addBias (aggW si di nrm (proj64 y2 w3)) b3
  head (poolRef bi h) wl bl

end Cert.Spec

end
-- ==== Proof.KI.Host.lean ====
/- What the host operations between the kernel regions compute, over the extended reals.

   The edge list arrives as a [2 × E] array of node words; @main appends one self-loop per node (an iota) to each of
   its two rows, giving the source and target vectors of length E + N.  The target vector, as a one-column array, is
   the scatter index of every sum over edges; the source vector, with a negative word moved up by N, as a one-column
   array, is the gather index of every row read.  Before the first region the host counts the target degree of every
   node and takes its inverse square root (zero where the degree is not positive); after each of the first three
   regions it carries the region's rows along the edges and sums them at their targets.  Every other buffer a region
   reads is an argument, or a value an earlier stretch wrote, and reaches the region unchanged. -/
import proofs.«422783_j89661737271610_2_alg».proof.Proof.KI.Run
import proofs.«422783_j89661737271610_2_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.ShloMosaic.ValueIdx
open Idealize.SL.Sem
open Cert.KernelIdeal Cert.KernelIdeal.Gen

/-! ## The index columns, as the operations write them -/

/-- Row 0 of the edge list followed by one self-loop per node: the edges' sources. -/
def srcVecK (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- Row 1 of the edge list followed by one self-loop per node: the edges' targets. -/
def dstVecK (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- The gather index: the sources, a negative word moved up by the number of nodes, as one column. -/
def srcColK (ei : IVec S2x1600000 32) : IVec S1700000x1 32 :=
  broadcastInDim S1700000x1 ![0] bcast_S1700000_S1700000x1_0
    (select (cmpi .slt (srcVecK ei) (broadcastInDim S1700000 ![] bcast_S_S1700000 (constantI S_ 32 0#32)))
      (addi (srcVecK ei) (broadcastInDim S1700000 ![] bcast_S_S1700000 (constantI S_ 32 100000#32)))
      (srcVecK ei))

/-- The scatter index: the targets as one column. -/
def dstColK (ei : IVec S2x1600000 32) : IVec S1700000x1 32 :=
  broadcastInDim S1700000x1 ![0] bcast_S1700000_S1700000x1_0 (dstVecK ei)

/-- The graph index of every node as one column. -/
def batchColK (bt : IVec S100000 32) : IVec S100000x1 32 :=
  shapeCast S100000x1 bt shapeCasts_S100000_S100000x1

/-! ## The operations read over the extended reals -/

/-- A vector cast to one column reads, at (p, 0), the vector at p. -/
theorem host_shapeCast_col_apply {α : Type} {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) :=
  shapeCast_apply x h _ _ (by
    have hu : (j 1).val = 0 := by have := idx2_lt1 j; omega
    rw [Shape.rowMajor_val_two, Shape.rowMajor_val_one]
    show (j 0).val = (j 0).val * 1 + (j 1).val
    rw [hu, Nat.mul_one, Nat.add_zero])

/-- A scalar constant broadcast to any shape is that constant everywhere. -/
theorem host_bcast_const {t : Shape} (h : S_.BroadcastsInDim t ![]) (b : BitVec 32) :
    (broadcastInDim t ![] h (constant (F := Ideal) S_ .f32 b) : FVec Ideal t .f32) = fun _ => Ideal.ofBits .f32 b :=
  funext fun j => StableHlo.Predicate.bcast_scalar h (by decide) _ j

/-- The rows carried along the edges and summed at their targets, as the stretch after a region writes it:
    the scatter and the gather are the ones the sum over edges is defined with, started from zero. -/
theorem host_agg (si di : IVec S1700000x1 32) (H : FVec Ideal S100000x64 .f32) :
    Host.scatterAdd scatter_S100000x64_S1700000x1_S1700000x64_1_0_0_1
        (broadcastInDim S100000x64 ![] bcast_S_S100000x64 (constant (F := Ideal) S_ .f32 0x00000000#32)) di
        (Host.gather gather_S100000x64_S1700000x1_S1700000x64_1_0_n_n_0_1_164 H si)
      = Cert.Spec.agg si di H := by
  rw [host_bcast_const]
  rfl

/-- The guarded inverse square root read at one node. -/
theorem host_dinv_read (dg : FVec Ideal S100000 .f32) (k : S100000.Idx) :
    select (cmpf .ogt dg fun _ => Ideal.ofBits .f32 0x00000000#32) (Host.rsqrt dg) (fun _ => Ideal.ofBits .f32 0x00000000#32) k
      = Scalar.select (Ideal.cmp .ogt (dg k) (Ideal.ofBits .f32 0x00000000#32)) (Ideal.rsqrt (dg k)) (Ideal.ofBits .f32 0x00000000#32) := rfl

/-- The scale column as the first stretches write it: the degree counted by a scatter of ones from zero, its inverse
    square root where it is positive and zero elsewhere, cast to one column. -/
theorem host_dcol (di : IVec S1700000x1 32) :
    (fun i => shapeCast S100000x1
        (select
          (cmpf .ogt
            (Host.scatterAdd scatter_S100000_S1700000x1_S1700000_n_0_0_1
              (broadcastInDim S100000 ![] bcast_S_S100000 (constant (F := Ideal) S_ .f32 0x00000000#32)) di
              (broadcastInDim S1700000 ![] bcast_S_S1700000 (constant (F := Ideal) S_ .f32 0x3F800000#32)))
            (broadcastInDim S100000 ![] bcast_S_S100000 (constant (F := Ideal) S_ .f32 0x00000000#32)))
          (Host.rsqrt
            (Host.scatterAdd scatter_S100000_S1700000x1_S1700000_n_0_0_1
              (broadcastInDim S100000 ![] bcast_S_S100000 (constant (F := Ideal) S_ .f32 0x00000000#32)) di
              (broadcastInDim S1700000 ![] bcast_S_S1700000 (constant (F := Ideal) S_ .f32 0x3F800000#32))))
          (broadcastInDim S100000 ![] bcast_S_S100000 (constant (F := Ideal) S_ .f32 0x00000000#32)))
        shapeCasts_S100000_S100000x1 i : FVec Ideal S100000x1 .f32)
      = Cert.Spec.dcol di := by
  have hd : scatter_S100000_S1700000x1_S1700000_n_0_0_1 = Cert.Spec.sdDeg := rfl
  have hdeg : Host.scatterAdd (F := Ideal) (φ := .f32) scatter_S100000_S1700000x1_S1700000_n_0_0_1 (fun _ => Ideal.ofBits .f32 0x00000000#32) di
      (fun _ => Ideal.ofBits .f32 0x3F800000#32) = Cert.Spec.deg di := by rw [hd]; rfl
  funext i
  rw [host_shapeCast_col_apply, host_bcast_const bcast_S_S100000, host_bcast_const bcast_S_S1700000, hdeg, host_dinv_read]
  rfl

/-! ## A stretch's results as terms over the contents it starts from -/

section Stretch

variable {F : FTy → Type} [FloatOps F] (V : Valuation τ sig (Elt F))

/-- The first stretch writes the source vector from the edge list. -/
theorem host_after0_v3 : StableHlo.after hostOps0 V (Proc.devRef .tc main_v3) = srcVecK (V (Proc.devRef .tc main_arg1)) := by
  after_results <;> rfl

/-- The first stretch writes the target vector from the edge list. -/
theorem host_after0_v6 : StableHlo.after hostOps0 V (Proc.devRef .tc main_v6) = dstVecK (V (Proc.devRef .tc main_arg1)) := by
  after_results <;> rfl

set_option maxHeartbeats 2000000 in
/-- The first three stretches write the scale column from the edge list. -/
theorem host_after012_v15 :
    StableHlo.after hostOps0_2 (StableHlo.after hostOps0_1 (StableHlo.after hostOps0 V)) (Proc.devRef .tc main_v15)
      = (fun i => shapeCast S100000x1
        (select
          (cmpf .ogt
            (Host.scatterAdd scatter_S100000_S1700000x1_S1700000_n_0_0_1
              (broadcastInDim S100000 ![] bcast_S_S100000 (constant (F := F) S_ .f32 0x00000000#32)) (dstColK (V (Proc.devRef .tc main_arg1)))
              (broadcastInDim S1700000 ![] bcast_S_S1700000 (constant (F := F) S_ .f32 0x3F800000#32)))
            (broadcastInDim S100000 ![] bcast_S_S100000 (constant (F := F) S_ .f32 0x00000000#32)))
          (Host.rsqrt
            (Host.scatterAdd scatter_S100000_S1700000x1_S1700000_n_0_0_1
              (broadcastInDim S100000 ![] bcast_S_S100000 (constant (F := F) S_ .f32 0x00000000#32)) (dstColK (V (Proc.devRef .tc main_arg1)))
              (broadcastInDim S1700000 ![] bcast_S_S1700000 (constant (F := F) S_ .f32 0x3F800000#32))))
          (broadcastInDim S100000 ![] bcast_S_S100000 (constant (F := F) S_ .f32 0x00000000#32)))
        shapeCasts_S100000_S100000x1 i : FVec F S100000x1 .f32) := by
  after_results <;> rfl

/-- The stretch after region 0: the scatter of the gathered rows of region 0's result. -/
theorem host_after1_v26 : StableHlo.after hostOps1 V (Proc.devRef .tc main_v26)
    = Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 (V (Proc.devRef .tc main_v6)))
        (Host.gather gather_S100000x64_S1700000x1_S1700000x64_1_0_n_n_0_1_164 (V (Proc.devRef .tc main_v16))
          (broadcastInDim S1700000x1 ![0] bcast_S1700000_S1700000x1_0
            (select (cmpi .slt (V (Proc.devRef .tc main_v3)) (broadcastInDim S1700000 ![] bcast_S_S1700000 (constantI S_ 32 0#32)))
              (addi (V (Proc.devRef .tc main_v3)) (broadcastInDim S1700000 ![] bcast_S_S1700000 (constantI S_ 32 100000#32)))
              (V (Proc.devRef .tc main_v3))))) := by
  after_results <;> rfl

/-- The stretch after region 1 likewise. -/
theorem host_after2_v37 : StableHlo.after hostOps2 V (Proc.devRef .tc main_v37)
    = Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 (V (Proc.devRef .tc main_v6)))
        (Host.gather gather_S100000x64_S1700000x1_S1700000x64_1_0_n_n_0_1_164 (V (Proc.devRef .tc main_v27))
          (broadcastInDim S1700000x1 ![0] bcast_S1700000_S1700000x1_0
            (select (cmpi .slt (V (Proc.devRef .tc main_v3)) (broadcastInDim S1700000 ![] bcast_S_S1700000 (constantI S_ 32 0#32)))
              (addi (V (Proc.devRef .tc main_v3)) (broadcastInDim S1700000 ![] bcast_S_S1700000 (constantI S_ 32 100000#32)))
              (V (Proc.devRef .tc main_v3))))) := by
  after_results <;> rfl

set_option maxHeartbeats 1000000 in
/-- The stretch after region 2 likewise. -/
theorem host_after3_v48 : StableHlo.after hostOps3 V (Proc.devRef .tc main_v48)
    = Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 (V (Proc.devRef .tc main_v6)))
        (Host.gather gather_S100000x64_S1700000x1_S1700000x64_1_0_n_n_0_1_164 (V (Proc.devRef .tc main_v38))
          (broadcastInDim S1700000x1 ![0] bcast_S1700000_S1700000x1_0
            (select (cmpi .slt (V (Proc.devRef .tc main_v3)) (broadcastInDim S1700000 ![] bcast_S_S1700000 (constantI S_ 32 0#32)))
              (addi (V (Proc.devRef .tc main_v3)) (broadcastInDim S1700000 ![] bcast_S_S1700000 (constantI S_ 32 100000#32)))
              (V (Proc.devRef .tc main_v3))))) := by
  after_results <;> rfl

/-- The stretch after region 2 also casts the graph index vector to one column. -/
theorem host_after3_v49 : StableHlo.after hostOps3 V (Proc.devRef .tc main_v49) = batchColK (V (Proc.devRef .tc main_arg2)) := by
  after_results <;> rfl

end Stretch

/-! ## What no stretch and no region changes -/

section Pass

variable {F : FTy → Type} [FloatOps F]
variable (m : (ℓ : Loc nD τ sig) → Buf (Elt F) ℓ) (c : Dev nD)

/-- A buffer none of the first three stretches writes enters region 0 as launched. -/
theorem host_W3_launch (b : Ref sig .tc) (h0 : b ∉ hostOps0_W) (h1 : b ∉ hostOps0_1_W) (h2 : b ∉ hostOps0_2_W) :
    W3 m c (Proc.devRef .tc b) = m ((c : Thread nD τ).loc b) :=
  (W3_of m c b h2).trans <| (W2_of m c b h1).trans <| (W1_of m c b h0).trans rfl

/-- A buffer that is no array of region 0 and that the next stretch does not write enters region 1 as it entered region 0. -/
theorem host_W5_of_W3 (b : Ref sig .tc) (hw : ∀ w, Pipeline.arrRef spec0 w ≠ b) (h : b ∉ hostOps1_W) :
    W5 m c (Proc.devRef .tc b) = W3 m c (Proc.devRef .tc b) :=
  (W5_of m c b h).trans (W4_of_ne m c b hw)

/-- Likewise from region 1's entry to region 2's. -/
theorem host_W7_of_W5 (b : Ref sig .tc) (hw : ∀ w, Pipeline.arrRef spec1 w ≠ b) (h : b ∉ hostOps2_W) :
    W7 m c (Proc.devRef .tc b) = W5 m c (Proc.devRef .tc b) :=
  (W7_of m c b h).trans (W6_of_ne m c b hw)

/-- Likewise from region 2's entry to region 3's. -/
theorem host_W9_of_W7 (b : Ref sig .tc) (hw : ∀ w, Pipeline.arrRef spec2 w ≠ b) (h : b ∉ hostOps3_W) :
    W9 m c (Proc.devRef .tc b) = W7 m c (Proc.devRef .tc b) :=
  (W9_of m c b h).trans (W8_of_ne m c b hw)

theorem W3_arg0 : W3 m c (Proc.devRef .tc main_arg0) = m ((c : Thread nD τ).loc main_arg0) :=
  host_W3_launch m c main_arg0 (by decide) (by decide) (by decide)
theorem W3_arg3 : W3 m c (Proc.devRef .tc main_arg3) = m ((c : Thread nD τ).loc main_arg3) :=
  host_W3_launch m c main_arg3 (by decide) (by decide) (by decide)
theorem W5_arg4 : W5 m c (Proc.devRef .tc main_arg4) = m ((c : Thread nD τ).loc main_arg4) :=
  (host_W5_of_W3 m c main_arg4 (by decide) (by decide)).trans (host_W3_launch m c main_arg4 (by decide) (by decide) (by decide))
theorem W5_arg5 : W5 m c (Proc.devRef .tc main_arg5) = m ((c : Thread nD τ).loc main_arg5) :=
  (host_W5_of_W3 m c main_arg5 (by decide) (by decide)).trans (host_W3_launch m c main_arg5 (by decide) (by decide) (by decide))
theorem W7_arg6 : W7 m c (Proc.devRef .tc main_arg6) = m ((c : Thread nD τ).loc main_arg6) :=
  (host_W7_of_W5 m c main_arg6 (by decide) (by decide)).trans <| (host_W5_of_W3 m c main_arg6 (by decide) (by decide)).trans
    (host_W3_launch m c main_arg6 (by decide) (by decide) (by decide))
theorem W7_arg7 : W7 m c (Proc.devRef .tc main_arg7) = m ((c : Thread nD τ).loc main_arg7) :=
  (host_W7_of_W5 m c main_arg7 (by decide) (by decide)).trans <| (host_W5_of_W3 m c main_arg7 (by decide) (by decide)).trans
    (host_W3_launch m c main_arg7 (by decide) (by decide) (by decide))
theorem W9_arg8 : W9 m c (Proc.devRef .tc main_arg8) = m ((c : Thread nD τ).loc main_arg8) :=
  (host_W9_of_W7 m c main_arg8 (by decide) (by decide)).trans <| (host_W7_of_W5 m c main_arg8 (by decide) (by decide)).trans <|
    (host_W5_of_W3 m c main_arg8 (by decide) (by decide)).trans (host_W3_launch m c main_arg8 (by decide) (by decide) (by decide))
theorem W9_arg9 : W9 m c (Proc.devRef .tc main_arg9) = m ((c : Thread nD τ).loc main_arg9) :=
  (host_W9_of_W7 m c main_arg9 (by decide) (by decide)).trans <| (host_W7_of_W5 m c main_arg9 (by decide) (by decide)).trans <|
    (host_W5_of_W3 m c main_arg9 (by decide) (by decide)).trans (host_W3_launch m c main_arg9 (by decide) (by decide) (by decide))
theorem W9_arg10 : W9 m c (Proc.devRef .tc main_arg10) = m ((c : Thread nD τ).loc main_arg10) :=
  (host_W9_of_W7 m c main_arg10 (by decide) (by decide)).trans <| (host_W7_of_W5 m c main_arg10 (by decide) (by decide)).trans <|
    (host_W5_of_W3 m c main_arg10 (by decide) (by decide)).trans (host_W3_launch m c main_arg10 (by decide) (by decide) (by decide))

/-- The scale column enters every later region as it entered region 0: every region only reads it, no stretch writes it again. -/
theorem W5_v15 : W5 m c (Proc.devRef .tc main_v15) = W3 m c (Proc.devRef .tc main_v15) :=
  (W5_of m c main_v15 (by decide)).trans (W4_in m c 2 rfl)
theorem W7_v15 : W7 m c (Proc.devRef .tc main_v15) = W3 m c (Proc.devRef .tc main_v15) :=
  (W7_of m c main_v15 (by decide)).trans <|
    (W6_in m c 1 rfl).trans (W5_v15 m c)
theorem W9_v15 : W9 m c (Proc.devRef .tc main_v15) = W3 m c (Proc.devRef .tc main_v15) :=
  (W9_of m c main_v15 (by decide)).trans <|
    (W8_in m c 1 rfl).trans (W7_v15 m c)

/-- The source vector, written by the first stretch, is still there at every region's exit. -/
theorem host_W3_v3 : W3 m c (Proc.devRef .tc main_v3) = srcVecK (m ((c : Thread nD τ).loc main_arg1)) :=
  (W3_of m c main_v3 (by decide)).trans <|
    (W2_of m c main_v3 (by decide)).trans (host_after0_v3 (W0 m c))
theorem W4_v3 : W4 m c (Proc.devRef .tc main_v3) = srcVecK (m ((c : Thread nD τ).loc main_arg1)) :=
  (W4_of_ne m c main_v3 (by decide)).trans (host_W3_v3 m c)
theorem W6_v3 : W6 m c (Proc.devRef .tc main_v3) = srcVecK (m ((c : Thread nD τ).loc main_arg1)) :=
  (W6_of_ne m c main_v3 (by decide)).trans <|
    (W5_of m c main_v3 (by decide)).trans (W4_v3 m c)
theorem W8_v3 : W8 m c (Proc.devRef .tc main_v3) = srcVecK (m ((c : Thread nD τ).loc main_arg1)) :=
  (W8_of_ne m c main_v3 (by decide)).trans <|
    (W7_of m c main_v3 (by decide)).trans (W6_v3 m c)

/-- The target vector, written by the first stretch, is still there at every region's exit. -/
theorem host_W3_v6 : W3 m c (Proc.devRef .tc main_v6) = dstVecK (m ((c : Thread nD τ).loc main_arg1)) :=
  (W3_of m c main_v6 (by decide)).trans <|
    (W2_of m c main_v6 (by decide)).trans (host_after0_v6 (W0 m c))
theorem W4_v6 : W4 m c (Proc.devRef .tc main_v6) = dstVecK (m ((c : Thread nD τ).loc main_arg1)) :=
  (W4_of_ne m c main_v6 (by decide)).trans (host_W3_v6 m c)
theorem W6_v6 : W6 m c (Proc.devRef .tc main_v6) = dstVecK (m ((c : Thread nD τ).loc main_arg1)) :=
  (W6_of_ne m c main_v6 (by decide)).trans <|
    (W5_of m c main_v6 (by decide)).trans (W4_v6 m c)
theorem W8_v6 : W8 m c (Proc.devRef .tc main_v6) = dstVecK (m ((c : Thread nD τ).loc main_arg1)) :=
  (W8_of_ne m c main_v6 (by decide)).trans <|
    (W7_of m c main_v6 (by decide)).trans (W6_v6 m c)

end Pass

/-! ## What the stretches compute -/

section Compute

variable (m : (ℓ : Loc nD τ sig) → Buf (Elt Ideal) ℓ) (c : Dev nD)

/-- The rows of region 0's result carried along the edges and summed at their targets. -/
theorem W5_v26 : W5 m c (Proc.devRef .tc main_v26)
    = Cert.Spec.agg (srcColK (m ((c : Thread nD τ).loc main_arg1))) (dstColK (m ((c : Thread nD τ).loc main_arg1)))
        (W4 m c (Proc.devRef .tc main_v16)) := by
  refine (host_after1_v26 (W4 m c)).trans ?_
  rw [W4_v3, W4_v6]
  exact host_agg _ _ _
/-- The rows of region 1's result likewise. -/
theorem W7_v37 : W7 m c (Proc.devRef .tc main_v37)
    = Cert.Spec.agg (srcColK (m ((c : Thread nD τ).loc main_arg1))) (dstColK (m ((c : Thread nD τ).loc main_arg1)))
        (W6 m c (Proc.devRef .tc main_v27)) := by
  refine (host_after2_v37 (W6 m c)).trans ?_
  rw [W6_v3, W6_v6]
  exact host_agg _ _ _
/-- The rows of region 2's result likewise. -/
theorem W9_v48 : W9 m c (Proc.devRef .tc main_v48)
    = Cert.Spec.agg (srcColK (m ((c : Thread nD τ).loc main_arg1))) (dstColK (m ((c : Thread nD τ).loc main_arg1)))
        (W8 m c (Proc.devRef .tc main_v38)) := by
  refine (host_after3_v48 (W8 m c)).trans ?_
  rw [W8_v3, W8_v6]
  exact host_agg _ _ _
/-- The graph index column the last region reads. -/
theorem W9_v49 : W9 m c (Proc.devRef .tc main_v49) = batchColK (m ((c : Thread nD τ).loc main_arg2)) :=
  (host_after3_v49 (W8 m c)).trans
    (congrArg batchColK ((W8_of_ne m c main_arg2 (by decide)).trans <| (host_W7_of_W5 m c main_arg2 (by decide) (by decide)).trans <|
      (host_W5_of_W3 m c main_arg2 (by decide) (by decide)).trans (host_W3_launch m c main_arg2 (by decide) (by decide) (by decide))))
/-- The scale column: the inverse square root of every node's target degree, zero where the degree is not positive. -/
theorem W3_v15 : W3 m c (Proc.devRef .tc main_v15) = Cert.Spec.dcol (dstColK (m ((c : Thread nD τ).loc main_arg1))) :=
  (host_after012_v15 (W0 m c)).trans (host_dcol _)

end Compute

end Cert.KernelIdeal.Hand

end
-- ==== Proof.KI.Val0.lean ====
/- Region 0's output array when the region ends, over the extended reals: every row of the first projection
   (the node features times the weights, summed over the 256 feature columns) scaled by that row's entry of the
   scale column.  Point `t` of the 20 writes rows `5000 t … 5000 t + 4999`; the 20 blocks tile the array. -/
import proofs.«422783_j89661737271610_2_alg».proof.Proof.KI.Reg0
import proofs.«422783_j89661737271610_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The product's operand indices: row `i 0` of the left factor against column `i 1` of the right one -/

theorem lhs0_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs0_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs0_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs0_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-! ## The body's product at an entry of the block -/

set_option maxHeartbeats 400000 in
/-- Entry `(p, q)` of what the body stores: row `p` of the feature block against column `q` of the weights, summed
    over the 256 columns, times the scale block's entry of row `p`.  The narrowing of the two factors is the identity
    over the extended reals, and the sum starts from zero. -/
theorem pay0_apply (x0 : FVec Ideal S5000x256 .f32) (x1 : FVec Ideal S256x64 .f32) (x2 : FVec Ideal S5000x1 .f32) (p : Fin 5000) (q : Fin 64) :
    k0_pay1 x0 x1 x2 (ix2 p q) = (∑ k : Fin 256, x0 (ix2 p k) * x1 (ix2 k q)) * x2 (ix2 p 0) := by
  unfold k0_pay1
  have hm : matmul dot_S5000x256_S256x64_S5000x64_1_0_0_1_n_n none (truncf .bf16 x0 bitsLt_bf16_f32) (truncf .bf16 x1 bitsLt_bf16_f32)
      (constant (F := Ideal) S5000x64 .f32 0x00000000#32) (ix2 p q) = ∑ k : Fin 256, x0 (ix2 p k) * x1 (ix2 k q) := by
    refine (Ideal.matmul_constant_zero_apply dot_S5000x256_S256x64_S5000x64_1_0_0_1_n_n none _ _ (ix2 p q)).trans ?_
    rw [← Equiv.sum_comp (contrEquiv1 dot_S5000x256_S256x64_S5000x64_1_0_0_1_n_n 256 rfl rfl).symm]
    refine Finset.sum_congr rfl fun k _ => ?_
    have hk := contrEquiv1_symm_val dot_S5000x256_S256x64_S5000x64_1_0_0_1_n_n 256 rfl rfl k
    have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
      match a with
      | ⟨0, _⟩ => exact lhs0_0 _ _
      | ⟨1, _⟩ => exact (lhs0_1 _ _).trans hk)
    have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
      match a with
      | ⟨0, _⟩ => exact (rhs0_0 _ _).trans hk
      | ⟨1, _⟩ => exact rhs0_1 _ _)
    rw [el, er]
    rfl
  have hb : broadcastTo S5000x64 (shapeCast S5000x1 x2 shapeCasts_S5000x1_S5000x1) broadcasts_S5000x1_S5000x64 (ix2 p q) = x2 (ix2 p 0) := by
    rw [shapeCast_self]
    exact broadcastTo_apply x2 broadcasts_S5000x1_S5000x64 (ix2 p q) (ix2 p 0) fun a => by
      match a with
      | ⟨0, _⟩ => rfl
      | ⟨1, _⟩ => rfl
  exact congrArg₂ (· * ·) hm hb

/-! ## The blocks as rows of the arrays -/

theorem hz0 : (![0, 0] : Fin 2 → Nat) = fun _ => 0 := funext fun a => by
  match a with
  | ⟨0, _⟩ => rfl
  | ⟨1, _⟩ => rfl

/-- Where each window's block sits at point `t`: the features', the scale column's and the output's are block row
    `t`; the weights' is the whole array at every point.  Decided over the 20 points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The feature block at point `t` is rows `5000 t … 5000 t + 4999` of the feature array. -/
theorem iblk0_0_apply (c : Dev nD) (t : Fin cfg0.N) (y : S5000x256.Idx) (k : S100000x256.Idx)
    (hk0 : (k 0).val = 5000 * t.val + (y 0).val) (hk1 : (k 1).val = (y 1).val) :
    (iblk0 V c 0 t : Vec Ideal S5000x256 .f32) y = (V c main_arg0 : S100000x256.Idx → Elt Ideal .f32) k := by
  obtain ⟨e00, e01, -⟩ := idx_facts0 t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e00, hk0]; omega
  | ⟨1, _⟩ => show win0_0.index t 1 * 256 + 1 * (y 1).val = (k 1).val; rw [e01, hk1]; omega

/-- The weights' block at every point is the weight array. -/
theorem iblk0_1_apply (c : Dev nD) (t : Fin cfg0.N) (y : S256x64.Idx) (k : S256x64.Idx)
    (hk0 : (k 0).val = (y 0).val) (hk1 : (k 1).val = (y 1).val) :
    (iblk0 V c 1 t : Vec Ideal S256x64 .f32) y = (V c main_arg3 : S256x64.Idx → Elt Ideal .f32) k := by
  obtain ⟨-, -, e10, e11, -⟩ := idx_facts0 t
  unfold iblk0
  rw [View.read_apply]
  show V c main_arg3 _ = V c main_arg3 _
  congr 1
  funext a
  apply Fin.ext
  match a with
  | ⟨0, _⟩ => show win0_1.index t 0 * 256 + 1 * (y 0).val = (k 0).val; rw [e10, hk0]; omega
  | ⟨1, _⟩ => show win0_1.index t 1 * 64 + 1 * (y 1).val = (k 1).val; rw [e11, hk1]; omega

/-- The scale block at point `t` is rows `5000 t … 5000 t + 4999` of the scale column. -/
theorem iblk0_2_apply (c : Dev nD) (t : Fin cfg0.N) (y : S5000x1.Idx) (k : S100000x1.Idx)
    (hk0 : (k 0).val = 5000 * t.val + (y 0).val) (hk1 : (k 1).val = (y 1).val) :
    (iblk0 V c 2 t : Vec Ideal S5000x1 .f32) y = (V c main_v15 : S100000x1.Idx → Elt Ideal .f32) k := by
  obtain ⟨-, -, -, -, e20, e21, -⟩ := idx_facts0 t
  unfold iblk0
  rw [View.read_apply]
  show V c main_v15 _ = V c main_v15 _
  congr 1
  funext a
  apply Fin.ext
  match a with
  | ⟨0, _⟩ => show win0_2.index t 0 * 5000 + 1 * (y 0).val = (k 0).val; rw [e20, hk0]; omega
  | ⟨1, _⟩ => show win0_2.index t 1 * 1 + 1 * (y 1).val = (k 1).val; rw [e21, hk1]; omega

/-! ## What a point writes back, the cover, and the array -/

set_option maxHeartbeats 400000 in
/-- Over any arrays: when the three blocks are rows `5000 t …` of the features, the whole weights and rows `5000 t …`
    of the scale column, entry `j` of what the body stores is the scaled projection at the array index `i` on row
    `5000 t + j 0`, column `j 1`. -/
theorem block0_eq (x : Cert.Spec.SNx256.Idx → EReal) (w : Cert.Spec.S256x64.Idx → EReal) (d : Cert.Spec.SNx1.Idx → EReal)
    (x0 : FVec Ideal S5000x256 .f32) (x1 : FVec Ideal S256x64 .f32) (x2 : FVec Ideal S5000x1 .f32) (t : Nat)
    (h0 : ∀ (y : S5000x256.Idx) (k : S100000x256.Idx), (k 0).val = 5000 * t + (y 0).val → (k 1).val = (y 1).val → x0 y = x k)
    (h1 : ∀ (y : S256x64.Idx) (k : S256x64.Idx), (k 0).val = (y 0).val → (k 1).val = (y 1).val → x1 y = w k)
    (h2 : ∀ (y : S5000x1.Idx) (k : S100000x1.Idx), (k 0).val = 5000 * t + (y 0).val → (k 1).val = (y 1).val → x2 y = d k)
    (j : S5000x64.Idx) (i : S100000x64.Idx) (hi0 : (i 0).val = 5000 * t + (j 0).val) (hi1 : (i 1).val = (j 1).val) :
    k0_pay1 (F := Ideal) x0 x1 x2 j = Cert.Spec.projScaleK x w d i := by
  obtain ⟨p, q, rfl⟩ : ∃ (p : Fin 5000) (q : Fin 64), j = ix2 p q := ⟨j 0, j 1, eq_ix2 j⟩
  rw [pay0_apply]
  unfold Cert.Spec.projScaleK
  have hs : ∀ k : Fin 256, x0 (ix2 p k) * x1 (ix2 k q) = x (ix2 (i 0) k) * w (ix2 k (i 1)) := fun k => by
    rw [h0 (ix2 p k) (ix2 (i 0) k) hi0 rfl, h1 (ix2 k q) (ix2 k (i 1)) rfl hi1]
  rw [Finset.sum_congr rfl fun k _ => hs k, h2 (ix2 p 0) (ix2 (i 0) 0) hi0 rfl]

set_option maxHeartbeats 400000 in
/-- What point `t` writes back is block row `t` of the scaled projection of the arrays as the region finds them. -/
theorem flushed0_eq (c : Dev nD) (t : Fin cfg0.N) :
    (dat0 (F := Ideal) V c).flushed 3 t = ((cfg0.win 3).blk t).view.read (Elt Ideal)
      (Cert.Spec.projScaleK (V c main_arg0) (V c main_arg3) (V c main_v15)) := by
  show (cfg0.win 3).cut (grid0.coords t) ((dat0 V c).after 3 t) = _
  rw [after0_3]
  unfold out0_3
  rw [View.canon_unit_zero hz0]
  simp only [View.ld_unit_zero (S := S5000x256) hz0, View.ld_unit_zero (S := S256x64) hz0, View.ld_unit_zero (S := S5000x1) hz0]
  obtain ⟨-, -, -, -, -, -, e30, e31⟩ := idx_facts0 t
  funext j
  rw [View.read_apply]
  refine block0_eq (V c main_arg0) (V c main_arg3) (V c main_v15) (iblk0 V c 0 t) (iblk0 V c 1 t) (iblk0 V c 2 t) t.val
    (iblk0_0_apply V c t) (iblk0_1_apply V c t) (iblk0_2_apply V c t) j (((cfg0.win 3).blk t).view.emb j) ?_ ?_
  · show win0_3.index t 0 * 5000 + 1 * (j 0).val = 5000 * t.val + (j 0).val; rw [e30]; omega
  · show win0_3.index t 1 * 64 + 1 * (j 1).val = (j 1).val; rw [e31]; omega

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Every index of the output array is in the block of the point its row falls to: row `r` to point `r / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e31]; omega

/-- The output array when the region ends: the scaled projection of the arrays as the region finds them. -/
theorem final0 (c : Dev nD) : (dat0 (F := Ideal) V c).arrAt 3 cfg0.N
    = Cert.Spec.projScaleK (V c main_arg0) (V c main_arg3) (V c main_v15) :=
  (dat0 V c).arrAt_eq_of_cover 3 _ (fun t _ => flushed0_eq V c t) cover0

end Cert.KernelIdeal.Hand

end
-- ==== Proof.KI.Val1.lean ====
/- Region 1's output array after the region, at the extended reals: every row of the summed rows scaled by its node's
   entry of the scale column, the bias added, the rectifier, the next projection, and the row scaled again.  First
   the body's stored value read at one index of a block, then the blocks put together into the whole array. -/
import proofs.«422783_j89661737271610_2_alg».proof.Proof.KI.Reg1
import proofs.«422783_j89661737271610_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## The body's stored value at one index of a block -/

/-- A one-column block spread along the rows reads, at row `p`, the column's entry of that row. -/
theorem col1_apply (x : Vec Ideal S5000x1 .f32) (p : Fin 5000) (q : Fin 64) :
    broadcastTo S5000x64 (shapeCast S5000x1 x shapeCasts_S5000x1_S5000x1) broadcasts_S5000x1_S5000x64 (ix2 p q) = x (ix2 p 0) := by
  rw [shapeCast_self]
  exact broadcastTo_apply _ _ _ (ix2 p 0) (fun a => by match a with | ⟨0, _⟩ => rfl | ⟨1, _⟩ => rfl)

/-- The bias vector spread down the rows reads, at column `q`, its entry `q`. -/
theorem row1_apply (x : Vec Ideal S64 .f32) (p : Fin 5000) (q : Fin 64) :
    broadcastTo S5000x64 (shapeCast S1x64 x shapeCasts_S64_S1x64) broadcasts_S1x64_S5000x64 (ix2 p q) = x (ix1 q) := by
  rw [broadcastTo_apply _ _ _ (ix2 (0 : Fin 1) q) (fun a => by match a with | ⟨0, _⟩ => rfl | ⟨1, _⟩ => rfl)]
  rw [shapeCast_addUnit_apply]
  exact congrArg x (funext fun a => by match a with | ⟨0, _⟩ => rfl)

/-- The product's left operand index at row `i 0`, contraction index `q`: the row, -/
theorem lhs1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and the contraction index; -/
theorem lhs1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's: the contraction index, -/
theorem rhs1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and the column. -/
theorem rhs1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into the zero block, read at row `p` and column `q`: the sum over the 64 contraction indices. -/
theorem mm1_apply (a : FVec Ideal S5000x64 .bf16) (b : FVec Ideal S64x64 .bf16) (p : Fin 5000) (q : Fin 64) :
    matmul dot_S5000x64_S64x64_S5000x64_1_0_0_1_n_n none a b (constant S5000x64 .f32 0x00000000#32) (ix2 p q) = ∑ k : Fin 64, a (ix2 p k) * b (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs1_0 _ _
    | ⟨1, _⟩ => exact (lhs1_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs1_0 _ _).trans hk
    | ⟨1, _⟩ => exact rhs1_1 _ _)
  rw [el, er]

/-- The body's stored value at row `p`, column `q` of a block: the row of the first operand scaled by the row's entry of
    the scale column, the bias added, the rectifier, the product with the weights, scaled by the (second) scale
    column's entry of the row. -/
theorem pay1_apply (x0 : Vec Ideal S5000x64 .f32) (x1 : Vec Ideal S5000x1 .f32) (x2 : Vec Ideal S64 .f32) (x3 : Vec Ideal S64x64 .f32)
    (x4 : Vec Ideal S5000x1 .f32) (p : Fin 5000) (q : Fin 64) :
    k1_pay1 (F := Ideal) x0 x1 x2 x3 x4 (ix2 p q)
      = (∑ k : Fin 64, max (x0 (ix2 p k) * x1 (ix2 p 0) + x2 (ix1 k)) 0 * x3 (ix2 k q)) * x4 (ix2 p 0) := by
  unfold k1_pay1
  rw [mulf_apply, col1_apply, mm1_apply]
  refine congrArg (· * x4 (ix2 p 0)) (Finset.sum_congr rfl fun k _ => ?_)
  rw [truncf_apply, truncf_apply, maximumf_apply, addf_apply, mulf_apply, col1_apply, row1_apply, shapeCast_self, broadcast_apply]
  rw [show (Scalar.ofBits (F := Ideal) .f32 0x00000000#32) = Ideal.ofBits .f32 0x00000000#32 from rfl, Ideal.ofBits_zero_f32]

/-! ## From the blocks to the whole array -/

theorem hz1_2 : (![0, 0] : Fin 2 → Nat) = fun _ => 0 := funext fun a => by fin_cases a <;> rfl
theorem hz1_1 : (![0] : Fin 1 → Nat) = fun _ => 0 := funext fun a => by fin_cases a <;> rfl

/-- The value stored for a block, at row `p` and column `q` of the block, where that entry sits at index `i` of the whole
    array, is the layer's value at `i`, given where each loaded block's entries sit in its array: the first operand's
    row and the scale column's entry move with the output's row, the bias and the weights are read whole. -/
theorem blk1_4_eq (x0 : Vec Ideal S5000x64 .f32) (x1 : Vec Ideal S5000x1 .f32) (x2 : Vec Ideal S64 .f32) (x3 : Vec Ideal S64x64 .f32)
    (a : Cert.Spec.SNx64.Idx → EReal) (d : Cert.Spec.SNx1.Idx → EReal) (b : Cert.Spec.S64.Idx → EReal) (w : Cert.Spec.S64x64.Idx → EReal)
    (p : Fin 5000) (q : Fin 64) (i : Cert.Spec.SNx64.Idx)
    (h0 : ∀ k : Fin 64, x0 (ix2 p k) = a (ix2 (i 0) k)) (h1 : x1 (ix2 p 0) = d (ix2 (i 0) 0))
    (h2 : ∀ k : Fin 64, x2 (ix1 k) = b (ix1 k)) (h3 : ∀ k : Fin 64, x3 (ix2 k q) = w (ix2 k (i 1))) :
    k1_pay1 (F := Ideal) x0 x1 x2 x3 x1 (ix2 p q) = Cert.Spec.layerK a d b w i := by
  rw [pay1_apply]
  unfold Cert.Spec.layerK
  rw [h1]
  refine congrArg (· * d (ix2 (i 0) 0)) (Finset.sum_congr rfl fun k _ => ?_)
  rw [h0, h2, h3]

/-- The windows' index maps over the grid: the first operand's and the scale column's blocks move with the output's
    block down the rows, the bias and the weights stay, and the output's block at point `t` is block `t`. -/
theorem idx_facts1_4 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the layer's value of the arrays as the region is entered. -/
theorem flushed1_4_eq (c : Dev nD) (t : Fin cfg1.N) :
    (dat1 (F := Ideal) V c).flushed 4 t = ((cfg1.win 4).blk t).view.read (Elt Ideal)
      (Cert.Spec.layerK (V c main_v26) (V c main_v15) (V c main_arg4) (V c main_arg5)) := by
  show (cfg1.win 4).cut (grid1.coords t) ((dat1 V c).after 4 t) = _
  rw [after1_4]
  unfold out1_4
  rw [View.canon_unit_zero hz1_2]
  simp only [View.ld_unit_zero (S := S5000x64) hz1_2, View.ld_unit_zero (S := S5000x1) hz1_2, View.ld_unit_zero (S := S64) hz1_1,
    View.ld_unit_zero (S := S64x64) hz1_2]
  obtain ⟨e00, e01, e10, e11, e20, e30, e31, e40, e41⟩ := idx_facts1_4 t
  funext j
  obtain ⟨p, q, rfl⟩ : ∃ (p : Fin 5000) (q : Fin 64), j = ix2 p q := ⟨j 0, j 1, eq_ix2 j⟩
  refine blk1_4_eq (iblk1 V c 0 t) (iblk1 V c 1 t) (iblk1 V c 2 t) (iblk1 V c 3 t) _ _ _ _ p q (((cfg1.win 4).blk t).view.emb (ix2 p q)) ?_ ?_ ?_ ?_
  · intro k
    show V c main_v26 (((cfg1.win 0).blk t).view.emb (ix2 p k)) = V c main_v26 (ix2 ((((cfg1.win 4).blk t).view.emb (ix2 p q)) 0) k)
    refine congrArg (V c main_v26) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * k.val = k.val; omega
  · show V c main_v15 (((cfg1.win 1).blk t).view.emb (ix2 p 0)) = V c main_v15 (ix2 ((((cfg1.win 4).blk t).view.emb (ix2 p q)) 0) 0)
    refine congrArg (V c main_v15) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  · intro k
    show V c main_arg4 (((cfg1.win 2).blk t).view.emb (ix1 k)) = V c main_arg4 (ix1 k)
    refine congrArg (V c main_arg4) (funext fun a => Fin.ext ?_)
    match a with
    | ⟨0, _⟩ => show win1_2.index t (0 : Fin 1) * 64 + 1 * k.val = k.val; omega
  · intro k
    show V c main_arg5 (((cfg1.win 3).blk t).view.emb (ix2 k q)) = V c main_arg5 (ix2 k ((((cfg1.win 4).blk t).view.emb (ix2 p q)) 1))
    refine congrArg (V c main_arg5) (funext fun a => Fin.ext ?_)
    match a with
    | ⟨0, _⟩ => show win1_3.index t (0 : Fin 2) * 64 + 1 * k.val = k.val; omega
    | ⟨1, _⟩ => show win1_3.index t (1 : Fin 2) * 64 + 1 * q.val = win1_4.index t (1 : Fin 2) * 64 + 1 * q.val; omega

/-- An index of the array is in point `t`'s block iff each coordinate is in the block's range on its axis. -/
theorem mem_blk1_4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v27).slice (win1_4.rect t)).set ↔ _
  rw [View.set_slice_whole, Rect.mem_set_unit]
  exact Iff.rfl

/-- Every index of the array is in some point's block: row `r` is in block `r / 5000`. -/
theorem covered1_4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : (i 0).val / 5000 < cfg1.N := lt_of_lt_of_eq (by omega : (i 0).val / 5000 < 20) N_1.symm
  refine ⟨⟨(i 0).val / 5000, hN⟩, flush1_4 _, ?_⟩
  obtain ⟨e00, e01, e10, e11, e20, e30, e31, e40, e41⟩ := idx_facts1_4 ⟨(i 0).val / 5000, hN⟩
  rw [mem_blk1_4]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 64 ≤ (i 1).val ∧ (i 1).val < win1_4.index ⟨(i 0).val / 5000, hN⟩ (1 : Fin 2) * 64 + 64
    rw [e41]; omega

/-- Region 1's output array after the region: the layer's value of the arrays it is entered with. -/
theorem final1 (c : Dev nD) :
    (dat1 (F := Ideal) V c).arrAt 4 cfg1.N = Cert.Spec.layerK (V c main_v26) (V c main_v15) (V c main_arg4) (V c main_arg5) :=
  (dat1 V c).arrAt_eq_of_cover 4 _ (fun t _ => flushed1_4_eq V c t) covered1_4

end

end Cert.KernelIdeal.Hand

end
-- ==== Proof.KI.Val2.lean ====
/- Region 2's output array after the region, at the extended reals: every row of the summed rows scaled by its node's
   entry of the scale column, the bias added, the rectifier, the next projection, and the row scaled again.  First
   the body's stored value read at one index of a block, then the blocks put together into the whole array. -/
import proofs.«422783_j89661737271610_2_alg».proof.Proof.KI.Reg2
import proofs.«422783_j89661737271610_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## The body's stored value at one index of a block -/

/-- A one-column block spread along the rows reads, at row `p`, the column's entry of that row. -/
theorem col2_apply (x : Vec Ideal S5000x1 .f32) (p : Fin 5000) (q : Fin 64) :
    broadcastTo S5000x64 (shapeCast S5000x1 x shapeCasts_S5000x1_S5000x1) broadcasts_S5000x1_S5000x64 (ix2 p q) = x (ix2 p 0) := by
  rw [shapeCast_self]
  exact broadcastTo_apply _ _ _ (ix2 p 0) (fun a => by match a with | ⟨0, _⟩ => rfl | ⟨1, _⟩ => rfl)

/-- The bias vector spread down the rows reads, at column `q`, its entry `q`. -/
theorem row2_apply (x : Vec Ideal S64 .f32) (p : Fin 5000) (q : Fin 64) :
    broadcastTo S5000x64 (shapeCast S1x64 x shapeCasts_S64_S1x64) broadcasts_S1x64_S5000x64 (ix2 p q) = x (ix1 q) := by
  rw [broadcastTo_apply _ _ _ (ix2 (0 : Fin 1) q) (fun a => by match a with | ⟨0, _⟩ => rfl | ⟨1, _⟩ => rfl)]
  rw [shapeCast_addUnit_apply]
  exact congrArg x (funext fun a => by match a with | ⟨0, _⟩ => rfl)

/-- The product's left operand index at row `i 0`, contraction index `q`: the row, -/
theorem lhs2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and the contraction index; -/
theorem lhs2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's: the contraction index, -/
theorem rhs2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and the column. -/
theorem rhs2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into the zero block, read at row `p` and column `q`: the sum over the 64 contraction indices. -/
theorem mm2_apply (a : FVec Ideal S5000x64 .bf16) (b : FVec Ideal S64x64 .bf16) (p : Fin 5000) (q : Fin 64) :
    matmul dot_S5000x64_S64x64_S5000x64_1_0_0_1_n_n none a b (constant S5000x64 .f32 0x00000000#32) (ix2 p q) = ∑ k : Fin 64, a (ix2 p k) * b (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- The body's stored value at row `p`, column `q` of a block: the row of the first operand scaled by the row's entry of
    the scale column, the bias added, the rectifier, the product with the weights, scaled by the (second) scale
    column's entry of the row. -/
theorem pay2_apply (x0 : Vec Ideal S5000x64 .f32) (x1 : Vec Ideal S5000x1 .f32) (x2 : Vec Ideal S64 .f32) (x3 : Vec Ideal S64x64 .f32)
    (x4 : Vec Ideal S5000x1 .f32) (p : Fin 5000) (q : Fin 64) :
    k2_pay1 (F := Ideal) x0 x1 x2 x3 x4 (ix2 p q)
      = (∑ k : Fin 64, max (x0 (ix2 p k) * x1 (ix2 p 0) + x2 (ix1 k)) 0 * x3 (ix2 k q)) * x4 (ix2 p 0) := by
  unfold k2_pay1
  rw [mulf_apply, col2_apply, mm2_apply]
  refine congrArg (· * x4 (ix2 p 0)) (Finset.sum_congr rfl fun k _ => ?_)
  rw [truncf_apply, truncf_apply, maximumf_apply, addf_apply, mulf_apply, col2_apply, row2_apply, shapeCast_self, broadcast_apply]
  rw [show (Scalar.ofBits (F := Ideal) .f32 0x00000000#32) = Ideal.ofBits .f32 0x00000000#32 from rfl, Ideal.ofBits_zero_f32]

/-! ## From the blocks to the whole array -/

theorem hz2_2 : (![0, 0] : Fin 2 → Nat) = fun _ => 0 := funext fun a => by fin_cases a <;> rfl
theorem hz2_1 : (![0] : Fin 1 → Nat) = fun _ => 0 := funext fun a => by fin_cases a <;> rfl

/-- The value stored for a block, at row `p` and column `q` of the block, where that entry sits at index `i` of the whole
    array, is the layer's value at `i`, given where each loaded block's entries sit in its array: the first operand's
    row and the scale column's entry move with the output's row, the bias and the weights are read whole. -/
theorem blk2_4_eq (x0 : Vec Ideal S5000x64 .f32) (x1 : Vec Ideal S5000x1 .f32) (x2 : Vec Ideal S64 .f32) (x3 : Vec Ideal S64x64 .f32)
    (a : Cert.Spec.SNx64.Idx → EReal) (d : Cert.Spec.SNx1.Idx → EReal) (b : Cert.Spec.S64.Idx → EReal) (w : Cert.Spec.S64x64.Idx → EReal)
    (p : Fin 5000) (q : Fin 64) (i : Cert.Spec.SNx64.Idx)
    (h0 : ∀ k : Fin 64, x0 (ix2 p k) = a (ix2 (i 0) k)) (h1 : x1 (ix2 p 0) = d (ix2 (i 0) 0))
    (h2 : ∀ k : Fin 64, x2 (ix1 k) = b (ix1 k)) (h3 : ∀ k : Fin 64, x3 (ix2 k q) = w (ix2 k (i 1))) :
    k2_pay1 (F := Ideal) x0 x1 x2 x3 x1 (ix2 p q) = Cert.Spec.layerK a d b w i := by
  rw [pay2_apply]
  unfold Cert.Spec.layerK
  rw [h1]
  refine congrArg (· * d (ix2 (i 0) 0)) (Finset.sum_congr rfl fun k _ => ?_)
  rw [h0, h2, h3]

/-- The windows' index maps over the grid: the first operand's and the scale column's blocks move with the output's
    block down the rows, the bias and the weights stay, and the output's block at point `t` is block `t`. -/
theorem idx_facts2_4 : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the layer's value of the arrays as the region is entered. -/
theorem flushed2_4_eq (c : Dev nD) (t : Fin cfg2.N) :
    (dat2 (F := Ideal) V c).flushed 4 t = ((cfg2.win 4).blk t).view.read (Elt Ideal)
      (Cert.Spec.layerK (V c main_v37) (V c main_v15) (V c main_arg6) (V c main_arg7)) := by
  show (cfg2.win 4).cut (grid2.coords t) ((dat2 V c).after 4 t) = _
  rw [after2_4]
  unfold out2_4
  rw [View.canon_unit_zero hz2_2]
  simp only [View.ld_unit_zero (S := S5000x64) hz2_2, View.ld_unit_zero (S := S5000x1) hz2_2, View.ld_unit_zero (S := S64) hz2_1,
    View.ld_unit_zero (S := S64x64) hz2_2]
  obtain ⟨e00, e01, e10, e11, e20, e30, e31, e40, e41⟩ := idx_facts2_4 t
  funext j
  obtain ⟨p, q, rfl⟩ : ∃ (p : Fin 5000) (q : Fin 64), j = ix2 p q := ⟨j 0, j 1, eq_ix2 j⟩
  refine blk2_4_eq (iblk2 V c 0 t) (iblk2 V c 1 t) (iblk2 V c 2 t) (iblk2 V c 3 t) _ _ _ _ p q (((cfg2.win 4).blk t).view.emb (ix2 p q)) ?_ ?_ ?_ ?_
  · intro k
    show V c main_v37 (((cfg2.win 0).blk t).view.emb (ix2 p k)) = V c main_v37 (ix2 ((((cfg2.win 4).blk t).view.emb (ix2 p q)) 0) k)
    refine congrArg (V c main_v37) (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * k.val = k.val; omega
  · show V c main_v15 (((cfg2.win 1).blk t).view.emb (ix2 p 0)) = V c main_v15 (ix2 ((((cfg2.win 4).blk t).view.emb (ix2 p q)) 0) 0)
    refine congrArg (V c main_v15) (funext fun a => Fin.ext ?_)
    match a with
    | ⟨0, _⟩ => show win2_1.index t (0 : Fin 2) * 5000 + 1 * p.val = win2_4.index t (0 : Fin 2) * 5000 + 1 * p.val; omega
    | ⟨1, _⟩ => show win2_1.index t (1 : Fin 2) * 1 + 1 * 0 = 0; omega
  · intro k
    show V c main_arg6 (((cfg2.win 2).blk t).view.emb (ix1 k)) = V c main_arg6 (ix1 k)
    refine congrArg (V c main_arg6) (funext fun a => Fin.ext ?_)
    match a with
    | ⟨0, _⟩ => show win2_2.index t (0 : Fin 1) * 64 + 1 * k.val = k.val; omega
  · intro k
    show V c main_arg7 (((cfg2.win 3).blk t).view.emb (ix2 k q)) = V c main_arg7 (ix2 k ((((cfg2.win 4).blk t).view.emb (ix2 p q)) 1))
    refine congrArg (V c main_arg7) (funext fun a => Fin.ext ?_)
    match a with
    | ⟨0, _⟩ => show win2_3.index t (0 : Fin 2) * 64 + 1 * k.val = k.val; omega
    | ⟨1, _⟩ => show win2_3.index t (1 : Fin 2) * 64 + 1 * q.val = win2_4.index t (1 : Fin 2) * 64 + 1 * q.val; omega

/-- An index of the array is in point `t`'s block iff each coordinate is in the block's range on its axis. -/
theorem mem_blk2_4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v38).slice (win2_4.rect t)).set ↔ _
  rw [View.set_slice_whole, Rect.mem_set_unit]
  exact Iff.rfl

/-- Every index of the array is in some point's block: row `r` is in block `r / 5000`. -/
theorem covered2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : (i 0).val / 5000 < cfg2.N := lt_of_lt_of_eq (by omega : (i 0).val / 5000 < 20) N_2.symm
  refine ⟨⟨(i 0).val / 5000, hN⟩, flush2_4 _, ?_⟩
  obtain ⟨e00, e01, e10, e11, e20, e30, e31, e40, e41⟩ := idx_facts2_4 ⟨(i 0).val / 5000, hN⟩
  rw [mem_blk2_4]
  intro a
  match a with
  | ⟨0, _⟩ =>
    show win2_4.index ⟨(i 0).val / 5000, hN⟩ (0 : Fin 2) * 5000 ≤ (i 0).val ∧ (i 0).val < win2_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, hN⟩ (1 : Fin 2) * 64 ≤ (i 1).val ∧ (i 1).val < win2_4.index ⟨(i 0).val / 5000, hN⟩ (1 : Fin 2) * 64 + 64
    rw [e41]; omega

/-- Region 2's output array after the region: the layer's value of the arrays it is entered with. -/
theorem final2 (c : Dev nD) :
    (dat2 (F := Ideal) V c).arrAt 4 cfg2.N = Cert.Spec.layerK (V c main_v37) (V c main_v15) (V c main_arg6) (V c main_arg7) :=
  (dat2 V c).arrAt_eq_of_cover 4 _ (fun t _ => flushed2_4_eq V c t) covered2_4

end

end Cert.KernelIdeal.Hand

end
-- ==== Proof.KI.Val3.lean ====
/- Region 3's value at the extended reals: the array the region leaves in its result window, as the specification's
   function of the arrays it is entered with.  The scratch after point n holds, at (g, k), the sum over the nodes of the
   blocks 0..n of the indicator "the node's graph word is g" times the node's scaled and biased row at k; the twenty
   blocks of 5000 rows are the 100000 nodes; the last point stores the linear head of the scratch. -/
import proofs.«422783_j89661737271610_2_alg».proof.Proof.KI.Reg3
import proofs.«422783_j89661737271610_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic

set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL.Sem
open Idealize.ShloMosaic.Pipeline (Dat Cfg Window)
open Cert.KernelIdeal Cert.KernelIdeal.Gen

/-! ## The body's three payloads read at an index, over any blocks of the literal types -/

theorem hz3_2 : (![0, 0] : Fin 2 → Nat) = fun _ => 0 := funext fun a => by fin_cases a <;> rfl
theorem hz3_1 : (![0] : Fin 1 → Nat) = fun _ => 0 := funext fun a => by fin_cases a <;> rfl

/-- A column broadcast over many columns reads, at (p, c), the column's entry at p. -/
theorem bcastCol3_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of a comparison, widened and converted: one where the two words are equal, zero elsewhere. -/
theorem onehot3 (x y : BitVec 32) :
    (FloatOps.sitofp (F := Ideal) .f32 ((IntOp.cmpi .eq x y).setWidth 32) : EReal) = if x = y then (1 : EReal) else 0 := by
  show (((((IntOp.cmpi .eq x y).setWidth 32).toInt : ℤ) : ℝ) : EReal) = _
  unfold IntOp.cmpi
  by_cases h : x = y
  · subst h
    rw [if_pos rfl]
    simp
  · rw [if_neg h]
    have hb : (x == y) = false := by simpa using h
    simp [hb]

theorem lhs3s_0 (i : S100x64.Idx) (q : dot_S5000x100_S5000x64_S100x64_0_0_1_1_n_n.contr.Idx) :
    (dot_S5000x100_S5000x64_S100x64_0_0_1_1_n_n.lhsIdx i q 0).val = (q ⟨0, by decide⟩).val :=
  dot_S5000x100_S5000x64_S100x64_0_0_1_1_n_n.lhsIdx_val_of_single rfl i q
theorem lhs3s_1 (i : S100x64.Idx) (q : dot_S5000x100_S5000x64_S100x64_0_0_1_1_n_n.contr.Idx) :
    (dot_S5000x100_S5000x64_S100x64_0_0_1_1_n_n.lhsIdx i q 1).val = (i 0).val := by
  unfold DotDims.lhsIdx
  rw [dif_neg (show ¬(1 : Fin S5000x100.rank) ∈ dot_S5000x100_S5000x64_S100x64_0_0_1_1_n_n.lhsBatch by decide), dif_pos (show (1 : Fin S5000x100.rank) ∈ dot_S5000x100_S5000x64_S100x64_0_0_1_1_n_n.lhsNonContracting by decide)]
  rfl
theorem rhs3s_0 (i : S100x64.Idx) (q : dot_S5000x100_S5000x64_S100x64_0_0_1_1_n_n.contr.Idx) :
    (dot_S5000x100_S5000x64_S100x64_0_0_1_1_n_n.rhsIdx i q 0).val = (q ⟨0, by decide⟩).val :=
  dot_S5000x100_S5000x64_S100x64_0_0_1_1_n_n.rhsIdx_val_of_single rfl i q
theorem rhs3s_1 (i : S100x64.Idx) (q : dot_S5000x100_S5000x64_S100x64_0_0_1_1_n_n.contr.Idx) :
    (dot_S5000x100_S5000x64_S100x64_0_0_1_1_n_n.rhsIdx i q 1).val = (i 1).val := by
  unfold DotDims.rhsIdx
  rw [dif_neg (show ¬(1 : Fin S5000x64.rank) ∈ dot_S5000x100_S5000x64_S100x64_0_0_1_1_n_n.rhsBatch by decide), dif_pos (show (1 : Fin S5000x64.rank) ∈ dot_S5000x100_S5000x64_S100x64_0_0_1_1_n_n.rhsNonContracting by decide)]
  rfl

/-- The pool's product at (g, k): over the block's rows, the one-hot's entry (r, g) times the rows' entry (r, k). -/
theorem matmul3s_apply (l : FVec Ideal S5000x100 .bf16) (r : FVec Ideal S5000x64 .bf16) (g : Fin 100) (k : Fin 64) :
    matmul dot_S5000x100_S5000x64_S100x64_0_0_1_1_n_n none l r (constant (F := Ideal) S100x64 .f32 0x00000000#32) (ix2 g k)
      = ∑ q : Fin 5000, l (ix2 q g) * r (ix2 q k) := by
  simp only [matmul]
  rw [Ideal.matmul_constant_zero_apply, ← Equiv.sum_comp (contrEquiv1 dot_S5000x100_S5000x64_S100x64_0_0_1_1_n_n 5000 rfl rfl).symm]
  refine Finset.sum_congr rfl fun q _ => ?_
  have hq := contrEquiv1_symm_val dot_S5000x100_S5000x64_S100x64_0_0_1_1_n_n 5000 rfl rfl q
  have el : dot_S5000x100_S5000x64_S100x64_0_0_1_1_n_n.lhsIdx (ix2 g k) ((contrEquiv1 dot_S5000x100_S5000x64_S100x64_0_0_1_1_n_n 5000 rfl rfl).symm q) = ix2 q g := funext fun a => Fin.ext (by
    match a with
    | ⟨0, _⟩ => exact (lhs3s_0 _ _).trans hq
    | ⟨1, _⟩ => exact lhs3s_1 _ _)
  have er : dot_S5000x100_S5000x64_S100x64_0_0_1_1_n_n.rhsIdx (ix2 g k) ((contrEquiv1 dot_S5000x100_S5000x64_S100x64_0_0_1_1_n_n 5000 rfl rfl).symm q) = ix2 q k := funext fun a => Fin.ext (by
    match a with
    | ⟨0, _⟩ => exact (rhs3s_0 _ _).trans hq
    | ⟨1, _⟩ => exact rhs3s_1 _ _)
  rw [el, er]

theorem lhs3h_0 (i : S100x1.Idx) (q : dot_S100x64_S64x1_S100x1_1_0_0_1_n_n.contr.Idx) :
    (dot_S100x64_S64x1_S100x1_1_0_0_1_n_n.lhsIdx i q 0).val = (i 0).val := by
  unfold DotDims.lhsIdx
  rw [dif_neg (show ¬(0 : Fin S100x64.rank) ∈ dot_S100x64_S64x1_S100x1_1_0_0_1_n_n.lhsBatch by decide), dif_pos (show (0 : Fin S100x64.rank) ∈ dot_S100x64_S64x1_S100x1_1_0_0_1_n_n.lhsNonContracting by decide)]
  rfl
theorem lhs3h_1 (i : S100x1.Idx) (q : dot_S100x64_S64x1_S100x1_1_0_0_1_n_n.contr.Idx) :
    (dot_S100x64_S64x1_S100x1_1_0_0_1_n_n.lhsIdx i q 1).val = (q ⟨0, by decide⟩).val :=
  dot_S100x64_S64x1_S100x1_1_0_0_1_n_n.lhsIdx_val_of_single rfl i q
theorem rhs3h_0 (i : S100x1.Idx) (q : dot_S100x64_S64x1_S100x1_1_0_0_1_n_n.contr.Idx) :
    (dot_S100x64_S64x1_S100x1_1_0_0_1_n_n.rhsIdx i q 0).val = (q ⟨0, by decide⟩).val :=
  dot_S100x64_S64x1_S100x1_1_0_0_1_n_n.rhsIdx_val_of_single rfl i q
theorem rhs3h_1 (i : S100x1.Idx) (q : dot_S100x64_S64x1_S100x1_1_0_0_1_n_n.contr.Idx) :
    (dot_S100x64_S64x1_S100x1_1_0_0_1_n_n.rhsIdx i q 1).val = (i 1).val := by
  unfold DotDims.rhsIdx
  rw [dif_neg (show ¬(1 : Fin S64x1.rank) ∈ dot_S100x64_S64x1_S100x1_1_0_0_1_n_n.rhsBatch by decide), dif_pos (show (1 : Fin S64x1.rank) ∈ dot_S100x64_S64x1_S100x1_1_0_0_1_n_n.rhsNonContracting by decide)]
  rfl

/-- The head's product at (g, z): row g of the pooled rows against column z of the weights. -/
theorem matmul3h_apply (l : FVec Ideal S100x64 .bf16) (r : FVec Ideal S64x1 .bf16) (g : Fin 100) (z : Fin 1) :
    matmul dot_S100x64_S64x1_S100x1_1_0_0_1_n_n none l r (constant (F := Ideal) S100x1 .f32 0x00000000#32) (ix2 g z)
      = ∑ q : Fin 64, l (ix2 g q) * r (ix2 q z) := by
  simp only [matmul]
  rw [Ideal.matmul_constant_zero_apply, ← Equiv.sum_comp (contrEquiv1 dot_S100x64_S64x1_S100x1_1_0_0_1_n_n 64 rfl rfl).symm]
  refine Finset.sum_congr rfl fun q _ => ?_
  have hq := contrEquiv1_symm_val dot_S100x64_S64x1_S100x1_1_0_0_1_n_n 64 rfl rfl q
  have el : dot_S100x64_S64x1_S100x1_1_0_0_1_n_n.lhsIdx (ix2 g z) ((contrEquiv1 dot_S100x64_S64x1_S100x1_1_0_0_1_n_n 64 rfl rfl).symm q) = ix2 g q := funext fun a => Fin.ext (by
    match a with
    | ⟨0, _⟩ => exact lhs3h_0 _ _
    | ⟨1, _⟩ => exact (lhs3h_1 _ _).trans hq)
  have er : dot_S100x64_S64x1_S100x1_1_0_0_1_n_n.rhsIdx (ix2 g z) ((contrEquiv1 dot_S100x64_S64x1_S100x1_1_0_0_1_n_n 64 rfl rfl).symm q) = ix2 q z := funext fun a => Fin.ext (by
    match a with
    | ⟨0, _⟩ => exact (rhs3h_0 _ _).trans hq
    | ⟨1, _⟩ => exact rhs3h_1 _ _)
  rw [el, er]

/-- The reset payload is zero everywhere. -/
theorem k3_pay1_apply (i : S100x64.Idx) : k3_pay1 (F := Ideal) i = 0 := by
  unfold k3_pay1
  simp only [shapeCast_self]
  show (Ideal.ofBits .f32 0x00000000#32 : EReal) = 0
  exact Ideal.ofBits_zero_f32

set_option maxHeartbeats 400000 in
/-- The accumulation payload at (g, k). -/
theorem k3_pay2_apply (v3 : Vec Ideal S5000x64 .f32) (v5 : Vec Ideal S5000x1 .f32) (v9 : Vec Ideal S64 .f32)
    (v14 : Vec Ideal S5000x1 .i32) (v23 : Vec Ideal S100x64 .f32) (g : Fin 100) (k : Fin 64) :
    k3_pay2 v3 v5 v9 v14 v23 (ix2 g k)
      = v23 (ix2 g k) + ∑ r : Fin 5000, (if v14 (ix2 r (0 : Fin 1)) = BitVec.ofNat 32 g.val then (1 : EReal) else 0)
          * (v3 (ix2 r k) * v5 (ix2 r (0 : Fin 1)) + v9 (ix1 k)) := by
  unfold k3_pay2
  dsimp only
  simp only [shapeCast_self]
  refine (addf_apply _ _ _).trans ?_
  congr 1
  refine (matmul3s_apply _ _ g k).trans ?_
  refine Finset.sum_congr rfl fun r _ => ?_
  refine congrArg₂ (· * ·) ?_ ?_
  · show FloatOps.sitofp (F := Ideal) .f32 ((IntOp.cmpi .eq (broadcastTo S5000x100 v14 broadcasts_S5000x1_S5000x100 (ix2 r g)) (iota Kind.tc S5000x100 32 [1] iota_S5000x100_d1_w32 (ix2 r g))).setWidth 32) = _
    rw [bcastCol3_apply, iota_single_apply]
    exact onehot3 _ _
  · show v3 (ix2 r k) * broadcastTo S5000x64 v5 broadcasts_S5000x1_S5000x64 (ix2 r k) + broadcastTo S5000x64 (shapeCast S1x64 v9 shapeCasts_S64_S1x64) broadcasts_S1x64_S5000x64 (ix2 r k) = _
    rw [bcastCol3_apply, broadcastTo_1b_ab_apply, shapeCast_a_1a_apply]

set_option maxHeartbeats 400000 in
/-- The head payload at (g, z). -/
theorem k3_pay3_apply (v31 : Vec Ideal S100x64 .f32) (v33 : Vec Ideal S64x1 .f32) (v36 : Vec Ideal S1 .f32) (g : Fin 100) (z : Fin 1) :
    k3_pay3 v31 v33 v36 (ix2 g z) = (∑ k : Fin 64, v31 (ix2 g k) * v33 (ix2 k z)) + v36 (ix1 (0 : Fin 1)) := by
  obtain rfl : z = 0 := Subsingleton.elim _ _
  unfold k3_pay3
  refine (addf_apply _ _ _).trans ?_
  congr 1
  · exact matmul3h_apply _ _ g 0
  · rw [broadcastTo_1b_ab_apply, shapeCast_a_1a_apply]

/-- The reset scratch is zero everywhere. -/
theorem zero3_apply (i : S100x64.Idx) : zero3 (F := Ideal) i = 0 := by
  unfold zero3
  rw [View.canon_unit_zero hz3_2]
  exact k3_pay1_apply i

/-- One point's accumulation at (g, k): what the scratch held plus, over the block's 5000 rows, the indicator "the row's
    graph word is g" times the row's entry at k scaled by the row's factor and biased. -/
theorem step3_apply (x0 : Vec Ideal S5000x64 .f32) (x1 : Vec Ideal S5000x1 .f32) (x2 : Vec Ideal S64 .f32)
    (x3 : Vec Ideal S5000x1 .i32) (s : Vec Ideal S100x64 .f32) (g : Fin 100) (k : Fin 64) :
    step3 x0 x1 x2 x3 s (ix2 g k)
      = s (ix2 g k) + ∑ r : Fin 5000, (if x3 (ix2 r (0 : Fin 1)) = BitVec.ofNat 32 g.val then (1 : EReal) else 0)
          * (x0 (ix2 r k) * x1 (ix2 r (0 : Fin 1)) + x2 (ix1 k)) := by
  unfold step3
  rw [View.canon_unit_zero hz3_2]
  simp only [View.ld_unit_zero (S := S5000x64) hz3_2, View.ld_unit_zero (S := S5000x1) hz3_2,
    View.ld_unit_zero (S := S64) hz3_1, View.ld_unit_zero (S := S100x64) hz3_2]
  exact k3_pay2_apply x0 x1 x2 x3 s g k

/-- The last point's store at (g, z): the scratch's row g against the head's weights, plus the head's bias. -/
theorem out3_6_apply (s : Vec Ideal S100x64 .f32) (x4 : Vec Ideal S64x1 .f32) (x5 : Vec Ideal S1 .f32) (g : Fin 100) (z : Fin 1) :
    out3_6 s x4 x5 (ix2 g z) = (∑ k : Fin 64, s (ix2 g k) * x4 (ix2 k z)) + x5 (ix1 (0 : Fin 1)) := by
  unfold out3_6
  rw [View.canon_unit_zero hz3_2]
  simp only [View.ld_unit_zero (S := S100x64) hz3_2, View.ld_unit_zero (S := S64x1) hz3_2,
    View.ld_unit_zero (S := S1) hz3_1]
  exact k3_pay3_apply s x4 x5 g z

/-! ## The blocks as rows of the arrays -/

variable (V : (c : Dev nD) → (b : Ref sig .tc) → Buf (Elt Ideal) ((c : Thread nD τ).loc b))

/-- The region's six input arrays, by their literal types. -/
abbrev arr3_a (c : Dev nD) : S100000x64.Idx → EReal := V c main_v48
abbrev arr3_d (c : Dev nD) : S100000x1.Idx → EReal := V c main_v15
abbrev arr3_b (c : Dev nD) : S64.Idx → EReal := V c main_arg8
abbrev arr3_g (c : Dev nD) : S100000x1.Idx → BitVec 32 := V c main_v49
abbrev arr3_w (c : Dev nD) : S64x1.Idx → EReal := V c main_arg9
abbrev arr3_l (c : Dev nD) : S1.Idx → EReal := V c main_arg10

theorem N3_eq : cfg3.N = 20 := N_3

/-- Row r of block t is node 5000 t + r. -/
theorem row3_lt (t : Fin cfg3.N) (r : Fin 5000) : 5000 * t.val + r.val < 100000 := by
  have h : t.val < 20 := lt_of_lt_of_eq t.isLt N3_eq
  omega

/-- The index maps at every point of the grid: the three row windows move one block per point, the others stay. -/
theorem idx3_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = 0 ∧ win3_6.index t (1 : Fin 2) = 0 :=
  (by decide +kernel : ∀ t : Fin grid3.N, _)

theorem iblk3_0_apply (c : Dev nD) (t : Fin cfg3.N) (r : Fin 5000) (k : Fin 64) :
    (iblk3 V c 0 t : Vec Ideal S5000x64 .f32) (ix2 r k) = arr3_a V c (ix2 ⟨5000 * t.val + r.val, row3_lt t r⟩ k) := by
  obtain ⟨e0, e1, -⟩ := idx3_facts t
  unfold iblk3
  rw [View.read_apply]
  show V c main_v48 _ = V c main_v48 _
  congr 1
  funext a
  apply Fin.ext
  match a with
  | ⟨0, _⟩ => show win3_0.index t 0 * 5000 + 1 * r.val = 5000 * t.val + r.val; rw [e0]; omega
  | ⟨1, _⟩ => show win3_0.index t 1 * 64 + 1 * k.val = k.val; rw [e1]; omega
theorem iblk3_1_apply (c : Dev nD) (t : Fin cfg3.N) (r : Fin 5000) :
    (iblk3 V c 1 t : Vec Ideal S5000x1 .f32) (ix2 r (0 : Fin 1)) = arr3_d V c (ix2 ⟨5000 * t.val + r.val, row3_lt t r⟩ (0 : Fin 1)) := by
  obtain ⟨-, -, e0, e1, -⟩ := idx3_facts t
  unfold iblk3
  rw [View.read_apply]
  show V c main_v15 _ = V c main_v15 _
  congr 1
  funext a
  apply Fin.ext
  match a with
  | ⟨0, _⟩ => show win3_1.index t 0 * 5000 + 1 * r.val = 5000 * t.val + r.val; rw [e0]; omega
  | ⟨1, _⟩ => show win3_1.index t 1 * 1 + 1 * 0 = 0; rw [e1]
theorem iblk3_2_apply (c : Dev nD) (t : Fin cfg3.N) (k : Fin 64) :
    (iblk3 V c 2 t : Vec Ideal S64 .f32) (ix1 k) = arr3_b V c (ix1 k) := by
  obtain ⟨-, -, -, -, e0, -⟩ := idx3_facts t
  unfold iblk3
  rw [View.read_apply]
  show V c main_arg8 _ = V c main_arg8 _
  congr 1
  funext a
  apply Fin.ext
  match a with
  | ⟨0, _⟩ => show win3_2.index t 0 * 64 + 1 * k.val = k.val; rw [e0]; omega
theorem iblk3_3_apply (c : Dev nD) (t : Fin cfg3.N) (r : Fin 5000) :
    (iblk3 V c 3 t : Vec Ideal S5000x1 .i32) (ix2 r (0 : Fin 1)) = arr3_g V c (ix2 ⟨5000 * t.val + r.val, row3_lt t r⟩ (0 : Fin 1)) := by
  obtain ⟨-, -, -, -, -, e0, e1, -⟩ := idx3_facts t
  unfold iblk3
  rw [View.read_apply]
  show V c main_v49 _ = V c main_v49 _
  congr 1
  funext a
  apply Fin.ext
  match a with
  | ⟨0, _⟩ => show win3_3.index t 0 * 5000 + 1 * r.val = 5000 * t.val + r.val; rw [e0]; omega
  | ⟨1, _⟩ => show win3_3.index t 1 * 1 + 1 * 0 = 0; rw [e1]
theorem iblk3_4_apply (c : Dev nD) (t : Fin cfg3.N) (k : Fin 64) (z : Fin 1) :
    (iblk3 V c 4 t : Vec Ideal S64x1 .f32) (ix2 k z) = arr3_w V c (ix2 k z) := by
  obtain ⟨-, -, -, -, -, -, -, e0, e1, -⟩ := idx3_facts t
  unfold iblk3
  rw [View.read_apply]
  show V c main_arg9 _ = V c main_arg9 _
  congr 1
  funext a
  apply Fin.ext
  match a with
  | ⟨0, _⟩ => show win3_4.index t 0 * 64 + 1 * k.val = k.val; rw [e0]; omega
  | ⟨1, _⟩ => show win3_4.index t 1 * 1 + 1 * z.val = z.val; rw [e1]; omega
theorem iblk3_5_apply (c : Dev nD) (t : Fin cfg3.N) :
    (iblk3 V c 5 t : Vec Ideal S1 .f32) (ix1 (0 : Fin 1)) = arr3_l V c (ix1 (0 : Fin 1)) := by
  obtain ⟨-, -, -, -, -, -, -, -, -, e0, -⟩ := idx3_facts t
  unfold iblk3
  rw [View.read_apply]
  show V c main_arg10 _ = V c main_arg10 _
  congr 1
  funext a
  apply Fin.ext
  match a with
  | ⟨0, _⟩ => show win3_5.index t 0 * 1 + 1 * 0 = 0; rw [e0]

/-! ## The scratch after every point -/

/-- Node m's term of the pool at (g, k): the indicator "its graph word is g" times its scaled and biased row at k
    (zero past the last node). -/
def node3 (a : S100000x64.Idx → EReal) (d : S100000x1.Idx → EReal) (b : S64.Idx → EReal) (bi : S100000x1.Idx → BitVec 32)
    (g : Fin 100) (k : Fin 64) (m : ℕ) : EReal :=
  if h : m < 100000 then
    (if bi (ix2 ⟨m, h⟩ (0 : Fin 1)) = BitVec.ofNat 32 g.val then (1 : EReal) else 0)
      * (a (ix2 ⟨m, h⟩ k) * d (ix2 ⟨m, h⟩ (0 : Fin 1)) + b (ix1 k))
  else 0

/-- One point's accumulation over the arrays: block n adds the terms of nodes 5000 n … 5000 n + 4999. -/
theorem scr3_step (c : Dev nD) (n : ℕ) (hn : n < cfg3.N) (s : Vec Ideal S100x64 .f32) (g : Fin 100) (k : Fin 64) :
    step3 (iblk3 V c 0 ⟨n, hn⟩) (iblk3 V c 1 ⟨n, hn⟩) (iblk3 V c 2 ⟨n, hn⟩) (iblk3 V c 3 ⟨n, hn⟩) s (ix2 g k)
      = s (ix2 g k) + ∑ r ∈ Finset.range 5000,
          node3 (arr3_a V c) (arr3_d V c) (arr3_b V c) (arr3_g V c) g k (5000 * n + r) := by
  rw [Finset.sum_range]
  refine (step3_apply (iblk3 V c 0 ⟨n, hn⟩) (iblk3 V c 1 ⟨n, hn⟩) (iblk3 V c 2 ⟨n, hn⟩) (iblk3 V c 3 ⟨n, hn⟩) s g k).trans ?_
  congr 1
  refine Finset.sum_congr rfl fun r _ => ?_
  rw [iblk3_0_apply, iblk3_1_apply, iblk3_2_apply, iblk3_3_apply]
  unfold node3
  rw [dif_pos (row3_lt ⟨n, hn⟩ r)]

/-- After point n the scratch holds the terms of the nodes of blocks 0..n, summed. -/
theorem scr3_apply (c : Dev nD) : ∀ (n : ℕ) (hn : n < cfg3.N) (g : Fin 100) (k : Fin 64),
    scr3 V c n hn (ix2 g k)
      = ∑ m ∈ Finset.range (5000 * (n + 1)), node3 (arr3_a V c) (arr3_d V c) (arr3_b V c) (arr3_g V c) g k m
  | 0, hn, g, k => by
    show step3 (iblk3 V c 0 ⟨0, hn⟩) (iblk3 V c 1 ⟨0, hn⟩) (iblk3 V c 2 ⟨0, hn⟩) (iblk3 V c 3 ⟨0, hn⟩) zero3 (ix2 g k) = _
    rw [scr3_step V c 0 hn zero3 g k, zero3_apply, zero_add]
    simp only [Nat.mul_zero, Nat.zero_add, Nat.mul_one]
  | n + 1, hn, g, k => by
    show step3 (iblk3 V c 0 ⟨n + 1, hn⟩) (iblk3 V c 1 ⟨n + 1, hn⟩) (iblk3 V c 2 ⟨n + 1, hn⟩) (iblk3 V c 3 ⟨n + 1, hn⟩)
      (scr3 V c n (Nat.lt_of_succ_lt hn)) (ix2 g k) = _
    rw [scr3_step V c (n + 1) hn (scr3 V c n (Nat.lt_of_succ_lt hn)) g k, scr3_apply c n (Nat.lt_of_succ_lt hn) g k,
      show 5000 * (n + 1 + 1) = 5000 * (n + 1) + 5000 from by omega, Finset.sum_range_add]

/-- After the last point: the specification's pool (the twenty blocks of 5000 rows are the 100000 nodes). -/
theorem scr3_last (c : Dev nD) (hn : 19 < cfg3.N) (g : Fin 100) (k : Fin 64) :
    scr3 V c 19 hn (ix2 g k)
      = Cert.Spec.poolKer (arr3_g V c) (fun i => arr3_a V c i * arr3_d V c (ix2 (i 0) 0) + arr3_b V c (ix1 (i 1))) (ix2 g k) := by
  rw [scr3_apply V c 19 hn g k]
  unfold Cert.Spec.poolKer
  rw [show 5000 * (19 + 1) = 100000 from by norm_num, Finset.sum_range]
  refine Finset.sum_congr rfl fun n _ => ?_
  unfold node3
  rw [dif_pos n.isLt]

/-! ## The result array -/

/-- What the last point stores is the specification's function of the arrays. -/
theorem last3_eq (c : Dev nD) (t : Fin cfg3.N) (ht : t.val = 19) :
    out3_6 (scr3 V c t.val t.isLt) (iblk3 V c 4 t) (iblk3 V c 5 t)
      = Cert.Spec.tailK (arr3_a V c) (arr3_d V c) (arr3_b V c) (arr3_g V c) (arr3_w V c) (arr3_l V c) := by
  obtain ⟨n, hn⟩ := t
  obtain rfl : n = 19 := ht
  funext i
  obtain ⟨g, z, rfl⟩ : ∃ (g : Fin 100) (z : Fin 1), i = ix2 g z := ⟨i 0, i 1, eq_ix2 i⟩
  refine (out3_6_apply (scr3 V c 19 hn) (iblk3 V c 4 ⟨19, hn⟩) (iblk3 V c 5 ⟨19, hn⟩) g z).trans ?_
  unfold Cert.Spec.tailK Cert.Spec.head
  rw [iblk3_5_apply]
  refine congrArg₂ (· + ·) (Finset.sum_congr rfl fun k _ => ?_) rfl
  rw [iblk3_4_apply, scr3_last V c hn g k]

/-- The one write-back, at the last point, writes the specification's function: block (0, 0) of the [100, 1] array is the array. -/
theorem flushed3_eq (c : Dev nD) (t : Fin cfg3.N) (hf : (cfg3.win 6).flush t = true) :
    (dat3 (F := Ideal) V c).flushed 6 t = ((cfg3.win 6).blk t).view.read (Elt Ideal)
      (Cert.Spec.tailK (arr3_a V c) (arr3_d V c) (arr3_b V c) (arr3_g V c) (arr3_w V c) (arr3_l V c)) := by
  have h19 : t.val = 19 := by
    have h1 := (flush3_6 t).mp hf
    have h2 : t.val < 20 := lt_of_lt_of_eq t.isLt N3_eq
    omega
  obtain ⟨-, -, -, -, -, -, -, -, -, -, e0, e1⟩ := idx3_facts t
  show (cfg3.win 6).cut (grid3.coords t) ((dat3 (F := Ideal) V c).after 6 t) = _
  rw [after3_6, last3_eq V c t h19]
  have hz' : (fun a => win3_6.index t a * main_v50.ty.shape.size a) = fun _ => 0 := funext fun a => by
    match a with
    | ⟨0, _⟩ => show win3_6.index t 0 * 100 = 0; rw [e0]
    | ⟨1, _⟩ => show win3_6.index t 1 * 1 = 0; rw [e1]
  exact (Memref.read_access_unit_zero (Elt Ideal) main_v50 hz' (fun a => by rw [congrFun hz' a]; simp)
    (Cert.Spec.tailK (arr3_a V c) (arr3_d V c) (arr3_b V c) (arr3_g V c) (arr3_w V c) (arr3_l V c))).symm

/-- The result window's block is the whole [100, 1] array at every point. -/
theorem xsize3_6 : ∀ t : Fin cfg3.N, win3_6.xsize (grid3.coords t) (0 : Fin 2) = 100 ∧ win3_6.xsize (grid3.coords t) (1 : Fin 2) = 1 :=
  (by decide +kernel : ∀ t : Fin grid3.N, _)

/-- The result array after the region: the last point's block covers it. -/
theorem final3 (c : Dev nD) : (dat3 (F := Ideal) V c).arrAt 6 cfg3.N
    = Cert.Spec.tailK (V c main_v48) (V c main_v15) (V c main_arg8) (V c main_v49) (V c main_arg9) (V c main_arg10) := by
  have ht : (19 : ℕ) < cfg3.N := by rw [N3_eq]; decide
  refine (dat3 (F := Ideal) V c).arrAt_eq_of_cover 6
    (Cert.Spec.tailK (arr3_a V c) (arr3_d V c) (arr3_b V c) (arr3_g V c) (arr3_w V c) (arr3_l V c))
    (flushed3_eq V c) fun i => ⟨⟨19, ht⟩, (flush3_6 _).mpr rfl, ?_⟩
  obtain ⟨-, -, -, -, -, -, -, -, -, -, e0, e1⟩ := idx3_facts ⟨19, ht⟩
  obtain ⟨x0, x1⟩ := xsize3_6 ⟨19, ht⟩
  show i ∈ ((View.whole main_v50).slice (win3_6.rect ⟨19, ht⟩)).set
  rw [View.set_slice_whole, Rect.mem_set_unit]
  intro a
  have h0 : (i 0 : Nat) < 100 := (i 0).isLt
  have h1 : (i 1 : Nat) < 1 := (i 1).isLt
  match a with
  | ⟨0, _⟩ =>
    show win3_6.index ⟨19, ht⟩ 0 * win3_6.size 0 ≤ (i 0 : Nat)
      ∧ (i 0 : Nat) < win3_6.index ⟨19, ht⟩ 0 * win3_6.size 0 + win3_6.xsize (grid3.coords ⟨19, ht⟩) 0
    rw [e0, x0]; omega
  | ⟨1, _⟩ =>
    show win3_6.index ⟨19, ht⟩ 1 * win3_6.size 1 ≤ (i 1 : Nat)
      ∧ (i 1 : Nat) < win3_6.index ⟨19, ht⟩ 1 * win3_6.size 1 + win3_6.xsize (grid3.coords ⟨19, ht⟩) 1
    rw [e1, x1]; omega

end Cert.KernelIdeal.Hand

end
-- ==== Proof.KI.Value.lean ====
/- The kernel's result as one function of the argument arrays: the four regions' arrays and the host stretches between
   them, composed.  Region 0 projects and scales the rows; each stretch carries the rows along the edges and sums them at
   their targets; regions 1 and 2 scale, add the bias, rectify, project and scale again; region 3 scales, adds the bias,
   pools the rows into their graphs and applies the linear head. -/
import proofs.«422783_j89661737271610_2_alg».proof.Proof.KI.Host
import proofs.«422783_j89661737271610_2_alg».proof.Proof.KI.Val0
import proofs.«422783_j89661737271610_2_alg».proof.Proof.KI.Val1
import proofs.«422783_j89661737271610_2_alg».proof.Proof.KI.Val2
import proofs.«422783_j89661737271610_2_alg».proof.Proof.KI.Val3

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The result array after the last region is the kernel's function of the arguments. -/
theorem kernel_value :
    (dat3 (F := Ideal) (V9 m) c).arrAt 6 cfg3.N
      = Cert.Spec.kernelOut (srcColK (m ((c : Thread nD τ).loc main_arg1))) (dstColK (m ((c : Thread nD τ).loc main_arg1)))
          (batchColK (m ((c : Thread nD τ).loc main_arg2)))
          (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  -- region 3 over its entry arrays
  rw [final3 (V9 m) c]
  show Cert.Spec.tailK (W9 m c (Proc.devRef .tc main_v48)) (W9 m c (Proc.devRef .tc main_v15)) (W9 m c (Proc.devRef .tc main_arg8))
      (W9 m c (Proc.devRef .tc main_v49)) (W9 m c (Proc.devRef .tc main_arg9)) (W9 m c (Proc.devRef .tc main_arg10)) = _
  rw [W9_v48, W9_v15, W9_arg8, W9_v49, W9_arg9, W9_arg10, W3_v15]
  -- region 2's array, over its entry arrays
  rw [show W8 m c (Proc.devRef .tc main_v38) = (dat2 (F := Ideal) (V7 m) c).arrAt 4 cfg2.N from W8_arr m c 4, final2 (V7 m) c]
  show Cert.Spec.tailK (Cert.Spec.agg _ _ (Cert.Spec.layerK (W7 m c (Proc.devRef .tc main_v37)) (W7 m c (Proc.devRef .tc main_v15))
      (W7 m c (Proc.devRef .tc main_arg6)) (W7 m c (Proc.devRef .tc main_arg7)))) _ _ _ _ _ = _
  rw [W7_v37, W7_v15, W7_arg6, W7_arg7, W3_v15]
  -- region 1's array
  rw [show W6 m c (Proc.devRef .tc main_v27) = (dat1 (F := Ideal) (V5 m) c).arrAt 4 cfg1.N from W6_arr m c 4, final1 (V5 m) c]
  show Cert.Spec.tailK (Cert.Spec.agg _ _ (Cert.Spec.layerK (Cert.Spec.agg _ _ (Cert.Spec.layerK (W5 m c (Proc.devRef .tc main_v26))
      (W5 m c (Proc.devRef .tc main_v15)) (W5 m c (Proc.devRef .tc main_arg4)) (W5 m c (Proc.devRef .tc main_arg5)))) _ _ _)) _ _ _ _ _ = _
  rw [W5_v26, W5_v15, W5_arg4, W5_arg5, W3_v15]
  -- region 0's array
  rw [show W4 m c (Proc.devRef .tc main_v16) = (dat0 (F := Ideal) (V3 m) c).arrAt 3 cfg0.N from W4_arr m c 3, final0 (V3 m) c]
  show Cert.Spec.tailK (Cert.Spec.agg _ _ (Cert.Spec.layerK (Cert.Spec.agg _ _ (Cert.Spec.layerK (Cert.Spec.agg _ _
      (Cert.Spec.projScaleK (W3 m c (Proc.devRef .tc main_arg0)) (W3 m c (Proc.devRef .tc main_arg3)) (W3 m c (Proc.devRef .tc main_v15))))
      _ _ _)) _ _ _)) _ _ _ _ _ = _
  rw [W3_arg0, W3_arg3, W3_v15]
  rfl

end Cert.KernelIdeal.Hand

end
-- ==== Proof.RefValue.lean ====
/-
  The reference program's result, as the function `Cert.Spec.refOut` of its argument arrays.

  The reference reads its edge list twice over.  From the two rows of the edge array it forms the source vector and the
  target vector of all 1,700,000 edges (the 1,600,000 given ones followed by one loop per node), and from these the
  index columns its gathers and scatters take: the source column with a negative word moved up by the number of
  nodes (`srcColR`), the target column as it stands (`dstColR`), the target column with a negative word moved up
  (`dstNColR`), and the graph column of the nodes (`batchColR`).  Everything else is pointwise arithmetic, three
  contractions and the host's gathers and scatters at these columns, which is what `refOut` says: the degree count,
  its inverse square root, the edge weights, and three rounds of "project, carry the weighted rows along the edges,
  add the bias (and rectify)", then the pool over the graphs and the linear head.

  The gathers and scatters are never opened: both sides apply the same host operation to the same column, so it is
  enough to read the pointwise operations, the broadcasts and the contractions at an index.
-/
import proofs.«422783_j89661737271610_2_alg».proof.Proof.RefRead
import proofs.«422783_j89661737271610_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-! ## The index columns -/

/-- The source column: the edges' sources (the given ones, then every node once), a negative word moved up by the
    number of nodes, as one column. -/
def srcColR (ei : IVec S2x1600000 32) : IVec S1700000x1 32 := val_main_v36 (F := Ideal) ei

/-- The target column: the edges' targets (the given ones, then every node once), as one column. -/
def dstColR (ei : IVec S2x1600000 32) : IVec S1700000x1 32 := val_main_v9 (F := Ideal) ei

/-- The target column with a negative word moved up by the number of nodes. -/
def dstNColR (ei : IVec S2x1600000 32) : IVec S1700000x1 32 := val_main_v27 (F := Ideal) ei

/-- The graph word of every node, as one column. -/
def batchColR (bt : IVec S100000 32) : IVec S100000x1 32 := val_main_v84 (F := Ideal) bt

/-! ## The columns, spelt out and read at an index -/

/-- The edges' sources as one vector: the first row of the edge array, then every node once. -/
def srcVecR (ei : IVec S2x1600000 32) : IVec S1700000 32 := val_main_v3 (F := Ideal) ei

/-- The edges' targets as one vector: the second row of the edge array, then every node once. -/
def dstVecR (ei : IVec S2x1600000 32) : IVec S1700000 32 := val_main_v6 (F := Ideal) ei

theorem srcVecR_term (ei : IVec S2x1600000 32) :
    srcVecR ei = concatenate S1700000 0
      [⟨S1600000, shapeCast _ (extractStridedSlice S1x1600000 ![0, 0] ei slices_S2x1600000_S1x1600000_0_0) shapeCasts_S1x1600000_S1600000⟩,
        ⟨S100000, iotaInDim S100000 32 0⟩] concatenates_S1600000_S100000_S1700000_d0 := rfl

theorem dstVecR_term (ei : IVec S2x1600000 32) :
    dstVecR ei = concatenate S1700000 0
      [⟨S1600000, shapeCast _ (extractStridedSlice S1x1600000 ![1, 0] ei slices_S2x1600000_S1x1600000_1_0) shapeCasts_S1x1600000_S1600000⟩,
        ⟨S100000, iotaInDim S100000 32 0⟩] concatenates_S1600000_S100000_S1700000_d0 := rfl

theorem srcColR_term (ei : IVec S2x1600000 32) :
    srcColR ei = broadcastInDim S1700000x1 ![0] bcast_S1700000_S1700000x1_0
      (select (cmpi .slt (srcVecR ei) (broadcastInDim S1700000 ![] bcast_S_S1700000 (constantI S_ 32 0#32)))
        (addi (srcVecR ei) (broadcastInDim S1700000 ![] bcast_S_S1700000 (constantI S_ 32 100000#32))) (srcVecR ei)) := rfl

theorem dstColR_term (ei : IVec S2x1600000 32) :
    dstColR ei = broadcastInDim S1700000x1 ![0] bcast_S1700000_S1700000x1_0 (dstVecR ei) := rfl

theorem dstNColR_term (ei : IVec S2x1600000 32) :
    dstNColR ei = broadcastInDim S1700000x1 ![0] bcast_S1700000_S1700000x1_0
      (select (cmpi .slt (dstVecR ei) (broadcastInDim S1700000 ![] bcast_S_S1700000 (constantI S_ 32 0#32)))
        (addi (dstVecR ei) (broadcastInDim S1700000 ![] bcast_S_S1700000 (constantI S_ 32 100000#32))) (dstVecR ei)) := rfl

theorem batchColR_term (bt : IVec S100000 32) :
    batchColR bt = broadcastInDim S100000x1 ![0] bcast_S100000_S100000x1_0 bt := rfl

/-- An entry of a column is the entry of its vector in the same row. -/
theorem row_of_col (j : S1700000x1.Idx) : idx_main_v9 j = ix1 (j 0) := by
  funext a; match a with | ⟨0, _⟩ => rfl
theorem row_of_col_nodes (j : S100000x1.Idx) : idx_main_v84 j = ix1 (j 0) := by
  funext a; match a with | ⟨0, _⟩ => rfl

/-- The target column read at an edge: the edge's target word. -/
theorem dstColR_apply (ei : IVec S2x1600000 32) (j : S1700000x1.Idx) : dstColR ei j = dstVecR ei (ix1 (j 0)) := by
  show val_main_v9 (F := Ideal) ei j = _
  rw [val_main_v9_apply, row_of_col]; rfl

/-- The source column read at an edge: the edge's source word, moved up by the number of nodes if negative. -/
theorem srcColR_apply (ei : IVec S2x1600000 32) (j : S1700000x1.Idx) :
    srcColR ei j = Scalar.select (IntOp.cmpi .slt (srcVecR ei (ix1 (j 0))) 0#32)
      (IntOp.addi (srcVecR ei (ix1 (j 0))) 100000#32) (srcVecR ei (ix1 (j 0))) := by
  show val_main_v36 (F := Ideal) ei j = _
  rw [val_main_v36_apply, val_main_v35_apply, val_main_v32_apply, val_main_v34_apply, val_main_v31_apply, val_main_c_6_apply,
    val_main_v33_apply, val_main_c_7_apply]
  rw [show idx_main_v36 j = ix1 (j 0) from row_of_col j]; rfl

/-- The target column with negative words moved up, read at an edge. -/
theorem dstNColR_apply (ei : IVec S2x1600000 32) (j : S1700000x1.Idx) :
    dstNColR ei j = Scalar.select (IntOp.cmpi .slt (dstVecR ei (ix1 (j 0))) 0#32)
      (IntOp.addi (dstVecR ei (ix1 (j 0))) 100000#32) (dstVecR ei (ix1 (j 0))) := by
  show val_main_v27 (F := Ideal) ei j = _
  rw [val_main_v27_apply, val_main_v26_apply, val_main_v23_apply, val_main_v25_apply, val_main_v22_apply, val_main_c_4_apply,
    val_main_v24_apply, val_main_c_5_apply]
  rw [show idx_main_v27 j = ix1 (j 0) from row_of_col j]; rfl

/-- The graph column read at a node: the node's graph word. -/
theorem batchColR_apply (bt : IVec S100000 32) (j : S100000x1.Idx) : batchColR bt j = bt (ix1 (j 0)) := by
  show val_main_v84 (F := Ideal) bt j = _
  rw [val_main_v84_apply, row_of_col_nodes]; rfl

/-! ## Indices met along the way, by their coordinates -/

/-- The two broadcasts that spread an edge's weight over its row read the weight of the row's edge. -/
theorem edge_of_row38 (j : S1700000x64.Idx) : idx_main_v38 (idx_main_v39 j) = ix1 (j 0) := by
  funext a; match a with | ⟨0, _⟩ => rfl
theorem edge_of_row56 (j : S1700000x64.Idx) : idx_main_v56 (idx_main_v57 j) = ix1 (j 0) := by
  funext a; match a with | ⟨0, _⟩ => rfl
theorem edge_of_row74 (j : S1700000x64.Idx) : idx_main_v74 (idx_main_v75 j) = ix1 (j 0) := by
  funext a; match a with | ⟨0, _⟩ => rfl

/-- The two broadcasts that spread the bias over the rows read the bias of the entry's column. -/
theorem col_of_entry44 (i : S100000x64.Idx) : idx_main_v44 (idx_main_v45 i) = ix1 (i 1) := by
  funext a; match a with | ⟨0, _⟩ => rfl
theorem col_of_entry62 (i : S100000x64.Idx) : idx_main_v62 (idx_main_v63 i) = ix1 (i 1) := by
  funext a; match a with | ⟨0, _⟩ => rfl
theorem col_of_entry80 (i : S100000x64.Idx) : idx_main_v80 (idx_main_v81 i) = ix1 (i 1) := by
  funext a; match a with | ⟨0, _⟩ => rfl

/-- The head's bias has one entry. -/
theorem head_bias_idx (i : S100x1.Idx) : idx_main_v87 (idx_main_v88 i) = ix1 (0 : Fin 1) := by
  funext a; match a with | ⟨0, _⟩ => rfl

/-- A contraction's left operand is read in the entry's row, its right operand in the entry's column. -/
theorem lidx30 (i : S100000x64.Idx) (k : Fin 256) : lidx_main_v30 i k = ix2 (i 0) k := by
  funext a; match a with | ⟨0, _⟩ => rfl | ⟨1, _⟩ => rfl
theorem ridx30 (i : S100000x64.Idx) (k : Fin 256) : ridx_main_v30 i k = ix2 k (i 1) := by
  funext a; match a with | ⟨0, _⟩ => rfl | ⟨1, _⟩ => rfl
theorem lidx48 (i : S100000x64.Idx) (k : Fin 64) : lidx_main_v48 i k = ix2 (i 0) k := by
  funext a; match a with | ⟨0, _⟩ => rfl | ⟨1, _⟩ => rfl
theorem ridx48 (i : S100000x64.Idx) (k : Fin 64) : ridx_main_v48 i k = ix2 k (i 1) := by
  funext a; match a with | ⟨0, _⟩ => rfl | ⟨1, _⟩ => rfl
theorem lidx66 (i : S100000x64.Idx) (k : Fin 64) : lidx_main_v66 i k = ix2 (i 0) k := by
  funext a; match a with | ⟨0, _⟩ => rfl | ⟨1, _⟩ => rfl
theorem ridx66 (i : S100000x64.Idx) (k : Fin 64) : ridx_main_v66 i k = ix2 k (i 1) := by
  funext a; match a with | ⟨0, _⟩ => rfl | ⟨1, _⟩ => rfl
theorem lidx86 (i : S100x1.Idx) (k : Fin 64) : lidx_main_v86 i k = ix2 (i 0) k := by
  funext a; match a with | ⟨0, _⟩ => rfl | ⟨1, _⟩ => rfl
theorem ridx86 (i : S100x1.Idx) (k : Fin 64) : ridx_main_v86 i k = ix2 k (i 1) := by
  funext a; match a with | ⟨0, _⟩ => rfl | ⟨1, _⟩ => rfl

/-! ## The constant arrays -/

/-- The degree count starts from zero at every node … -/
theorem zeros_nodes : val_main_v8 (F := Ideal) = fun _ => Ideal.ofBits .f32 0x00000000#32 := by
  funext i; rw [val_main_v8_apply, val_main_cst_0_apply]; rfl
/-- … and adds one for every edge. -/
theorem ones_edges : val_main_v7 (F := Ideal) = fun _ => Ideal.ofBits .f32 0x3F800000#32 := by
  funext i; rw [val_main_v7_apply, val_main_cst_apply]; rfl
/-- Every sum over the edges starts from the zero array of node rows. -/
theorem zeros_rows41 : val_main_v41 (F := Ideal) = fun _ => Ideal.ofBits .f32 0x00000000#32 := by
  funext i; rw [val_main_v41_apply, val_main_cst_8_apply]; rfl
theorem zeros_rows59 : val_main_v59 (F := Ideal) = fun _ => Ideal.ofBits .f32 0x00000000#32 := by
  funext i; rw [val_main_v59_apply, val_main_cst_11_apply]; rfl
theorem zeros_rows77 : val_main_v77 (F := Ideal) = fun _ => Ideal.ofBits .f32 0x00000000#32 := by
  funext i; rw [val_main_v77_apply, val_main_cst_14_apply]; rfl
/-- The pool starts from the zero array of graph rows. -/
theorem zeros_graphs : val_main_v83 (F := Ideal) = fun _ => Ideal.ofBits .f32 0x00000000#32 := by
  funext i; rw [val_main_v83_apply, val_main_cst_15_apply]; rfl

/-! ## The four readings of the source column and of the target column are one -/

theorem src_col20 (x1 : (⟨S2x1600000, .i32⟩ : BufTy).Contents (Elt Ideal)) : val_main_v20 (F := Ideal) x1 = srcColR x1 := rfl
theorem src_col54 (x1 : (⟨S2x1600000, .i32⟩ : BufTy).Contents (Elt Ideal)) : val_main_v54 (F := Ideal) x1 = srcColR x1 := rfl
theorem src_col72 (x1 : (⟨S2x1600000, .i32⟩ : BufTy).Contents (Elt Ideal)) : val_main_v72 (F := Ideal) x1 = srcColR x1 := rfl
theorem dst_col42 (x1 : (⟨S2x1600000, .i32⟩ : BufTy).Contents (Elt Ideal)) : val_main_v42 (F := Ideal) x1 = dstColR x1 := rfl
theorem dst_col60 (x1 : (⟨S2x1600000, .i32⟩ : BufTy).Contents (Elt Ideal)) : val_main_v60 (F := Ideal) x1 = dstColR x1 := rfl
theorem dst_col78 (x1 : (⟨S2x1600000, .i32⟩ : BufTy).Contents (Elt Ideal)) : val_main_v78 (F := Ideal) x1 = dstColR x1 := rfl

/-! ## Degrees and edge weights -/

/-- The scatter of ones along the target column is the degree count. -/
theorem deg_eq (x1 : (⟨S2x1600000, .i32⟩ : BufTy).Contents (Elt Ideal)) : val_main_v10 (F := Ideal) x1 = Cert.Spec.deg (dstColR x1) := by
  unfold val_main_v10
  rw [zeros_nodes, ones_edges]
  rfl

/-- Its inverse square root where the degree is positive, zero elsewhere. -/
theorem dinv_eq (x1 : (⟨S2x1600000, .i32⟩ : BufTy).Contents (Elt Ideal)) : val_main_v14 (F := Ideal) x1 = Cert.Spec.dinv (dstColR x1) := by
  funext i
  rw [val_main_v14_apply, val_main_v12_apply, val_main_v13_apply, val_main_call0_v1_apply, val_main_call0_v0_apply,
    val_main_cst_2_apply, val_main_v11_apply, val_main_cst_1_apply, deg_eq]
  unfold Cert.Spec.dinv
  simp only [Ideal.cmpf_def, Ideal.hostUnary_rsqrt_def, Ideal.ofBits_def]

/-- The weight of an edge: the product of the two readings of the inverse square root at its ends. -/
theorem norm_eq (x1 : (⟨S2x1600000, .i32⟩ : BufTy).Contents (Elt Ideal)) :
    val_main_v29 (F := Ideal) x1 = Cert.Spec.norm (dstColR x1) (srcColR x1) (dstNColR x1) := by
  funext e
  rw [val_main_v29_apply]
  unfold val_main_v21 val_main_v28
  rw [dinv_eq, src_col20]
  rfl

/-! ## The first projection -/

theorem proj1_eq (x0 : (⟨S100000x256, .f32⟩ : BufTy).Contents (Elt Ideal)) (x3 : (⟨S256x64, .f32⟩ : BufTy).Contents (Elt Ideal)) : val_main_v30 (F := Ideal) x0 x3 = Cert.Spec.proj256 x0 x3 := by
  funext i
  rw [val_main_v30_apply]
  simp only [lidx30, ridx30]
  rfl

/-! ## Round 1: the weighted rows carried along the edges, the bias, the rectifier, the next projection -/

/-- Every edge's row: the row of its source, times the edge's weight. -/
theorem rows1_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) :
    val_main_v40 (F := Ideal) x0 x1 x3
      = fun j => Host.gather Cert.Spec.gdRows (Cert.Spec.proj256 x0 x3) (srcColR x1) j * (Cert.Spec.norm (dstColR x1) (srcColR x1) (dstNColR x1)) (ix1 (j 0)) := by
  funext j
  rw [val_main_v40_apply, val_main_v39_apply, val_main_v38_apply, norm_eq, edge_of_row38]
  unfold val_main_v37
  rw [proj1_eq]
  rfl

/-- Summed at the targets. -/
theorem agg1_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) :
    val_main_v43 (F := Ideal) x0 x1 x3 = Cert.Spec.aggW (srcColR x1) (dstColR x1) (Cert.Spec.norm (dstColR x1) (srcColR x1) (dstNColR x1)) (Cert.Spec.proj256 x0 x3) := by
  unfold val_main_v43
  rw [zeros_rows41, rows1_eq, dst_col42]
  rfl

/-- The bias added to every row. -/
theorem bias1_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) :
    val_main_v46 (F := Ideal) x0 x1 x3 x4 = Cert.Spec.addBias (Cert.Spec.aggW (srcColR x1) (dstColR x1) (Cert.Spec.norm (dstColR x1) (srcColR x1) (dstNColR x1)) (Cert.Spec.proj256 x0 x3)) x4 := by
  funext i
  rw [val_main_v46_apply, val_main_v45_apply, val_main_v44_apply, agg1_eq, col_of_entry44]
  rfl

/-- The rectifier: the maximum with the zero array. -/
theorem relu1_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) :
    val_main_v47 (F := Ideal) x0 x1 x3 x4 = Cert.Spec.relu (Cert.Spec.addBias (Cert.Spec.aggW (srcColR x1) (dstColR x1) (Cert.Spec.norm (dstColR x1) (srcColR x1) (dstNColR x1)) (Cert.Spec.proj256 x0 x3)) x4) := by
  funext i
  rw [val_main_v47_apply, val_main_call1_v0_apply, val_main_call1_cst_apply, bias1_eq, Ideal.maximumf_def, Ideal.ofBits_def,
    Ideal.ofBits_zero_f32]
  rfl

/-- The next projection. -/
theorem proj2_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) :
    val_main_v48 (F := Ideal) x0 x1 x3 x4 x5 = Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5 := by
  funext i
  rw [val_main_v48_apply, relu1_eq]
  simp only [lidx48, ridx48]
  rfl

/-! ## Round 2: the weighted rows carried along the edges, the bias, the rectifier, the next projection -/

/-- Every edge's row: the row of its source, times the edge's weight. -/
theorem rows2_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) :
    val_main_v58 (F := Ideal) x0 x1 x3 x4 x5
      = fun j => Host.gather Cert.Spec.gdRows (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5) (srcColR x1) j * (Cert.Spec.norm (dstColR x1) (srcColR x1) (dstNColR x1)) (ix1 (j 0)) := by
  funext j
  rw [val_main_v58_apply, val_main_v57_apply, val_main_v56_apply, norm_eq, edge_of_row56]
  unfold val_main_v55
  rw [proj2_eq, src_col54]
  rfl

/-- Summed at the targets. -/
theorem agg2_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) :
    val_main_v61 (F := Ideal) x0 x1 x3 x4 x5 = Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5) := by
  unfold val_main_v61
  rw [zeros_rows59, rows2_eq, dst_col60]
  rfl

/-- The bias added to every row. -/
theorem bias2_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v64 (F := Ideal) x0 x1 x3 x4 x5 x6 = Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5)) x6 := by
  funext i
  rw [val_main_v64_apply, val_main_v63_apply, val_main_v62_apply, agg2_eq, col_of_entry62]
  rfl

/-- The rectifier: the maximum with the zero array. -/
theorem relu2_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v65 (F := Ideal) x0 x1 x3 x4 x5 x6 = Cert.Spec.relu (Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5)) x6) := by
  funext i
  rw [val_main_v65_apply, val_main_call2_v0_apply, val_main_call2_cst_apply, bias2_eq, Ideal.maximumf_def, Ideal.ofBits_def,
    Ideal.ofBits_zero_f32]
  rfl

/-- The next projection. -/
theorem proj3_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v66 (F := Ideal) x0 x1 x3 x4 x5 x6 x7 = Cert.Spec.proj64 (Cert.Spec.relu (Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5)) x6)) x7 := by
  funext i
  rw [val_main_v66_apply, relu2_eq]
  simp only [lidx66, ridx66]
  rfl

/-! ## Round 3: the weighted rows carried along the edges, the bias -/

/-- Every edge's row: the row of its source, times the edge's weight. -/
theorem rows3_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v76 (F := Ideal) x0 x1 x3 x4 x5 x6 x7
      = fun j => Host.gather Cert.Spec.gdRows (Cert.Spec.proj64 (Cert.Spec.relu (Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5)) x6)) x7) (srcColR x1) j * (Cert.Spec.norm (dstColR x1) (srcColR x1) (dstNColR x1)) (ix1 (j 0)) := by
  funext j
  rw [val_main_v76_apply, val_main_v75_apply, val_main_v74_apply, norm_eq, edge_of_row74]
  unfold val_main_v73
  rw [proj3_eq, src_col72]
  rfl

/-- Summed at the targets. -/
theorem agg3_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v79 (F := Ideal) x0 x1 x3 x4 x5 x6 x7 = Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5)) x6)) x7) := by
  unfold val_main_v79
  rw [zeros_rows77, rows3_eq, dst_col78]
  rfl

/-- The bias added to every row. -/
theorem bias3_eq (x0 : (⟨S100000x256, .f32⟩ : BufTy).Contents (Elt Ideal)) (x1 : (⟨S2x1600000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v82 (F := Ideal) x0 x1 x3 x4 x5 x6 x7 x8 = Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5)) x6)) x7)) x8 := by
  funext i
  rw [val_main_v82_apply, val_main_v81_apply, val_main_v80_apply, agg3_eq, col_of_entry80]
  rfl

/-! ## The pool and the head -/

/-- Every node's row added to the row of its graph. -/
theorem pool_eq (x0 : (⟨S100000x256, .f32⟩ : BufTy).Contents (Elt Ideal)) (x1 : (⟨S2x1600000, .i32⟩ : BufTy).Contents (Elt Ideal)) (x2 : (⟨S100000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v85 (F := Ideal) x0 x1 x2 x3 x4 x5 x6 x7 x8 = Cert.Spec.poolRef (batchColR x2) (Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj64 (Cert.Spec.relu (Cert.Spec.addBias (Cert.Spec.aggW (srcColR x1) (dstColR x1) (Cert.Spec.norm (dstColR x1) (srcColR x1) (dstNColR x1)) (Cert.Spec.proj256 x0 x3)) x4)) x5)) x6)) x7)) x8) := by
  unfold val_main_v85
  rw [zeros_graphs, bias3_eq]
  rfl

/-! ## The result -/

/-- The reference's last stage is `refOut` of the arguments. -/
theorem val_out_eq (x0 : (⟨S100000x256, .f32⟩ : BufTy).Contents (Elt Ideal)) (x1 : (⟨S2x1600000, .i32⟩ : BufTy).Contents (Elt Ideal)) (x2 : (⟨S100000, .i32⟩ : BufTy).Contents (Elt Ideal)) (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal)) :
    val_main_v89 (F := Ideal) x0 x1 x2 x3 x4 x5 x6 x7 x8 x9 x10
      = Cert.Spec.refOut (srcColR x1) (dstColR x1) (srcColR x1) (dstNColR x1) (batchColR x2) x0 x3 x4 x5 x6 x7 x8 x9 x10 := by
  funext i
  rw [val_main_v89_apply, val_main_v88_apply, val_main_v87_apply, val_main_v86_apply, pool_eq, head_bias_idx]
  simp only [lidx86, ridx86]
  rfl

/-- The reference's result is `refOut` of the argument arrays, read through the reference's own index columns. -/
theorem refValue (m : (ℓ : Loc nD τ sig) → Buf (Elt Ideal) ℓ) (c : Dev nD) :
    Cert.ReferenceIdeal.Value.res_out0 (F := Ideal) m c
      = Cert.Spec.refOut
          (srcColR (m ((c.tc : Thread nD τ).loc main_arg1))) (dstColR (m ((c.tc : Thread nD τ).loc main_arg1)))
          (srcColR (m ((c.tc : Thread nD τ).loc main_arg1))) (dstNColR (m ((c.tc : Thread nD τ).loc main_arg1)))
          (batchColR (m ((c.tc : Thread nD τ).loc main_arg2)))
          (m ((c.tc : Thread nD τ).loc main_arg0)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v89_eq (F := Ideal) m c).trans (val_out_eq _ _ _ _ _ _ _ _ _ _ _)

/-- Where an edge's target word is not negative, moving negative words up changes nothing. -/
theorem dstN_eq (ei : IVec S2x1600000 32) (e : Fin 1700000) (h : 0 ≤ (dstColR ei (ix2 e 0)).toInt) :
    dstNColR ei (ix2 e 0) = dstColR ei (ix2 e 0) := by
  have hd : dstColR ei (ix2 e 0) = val_main_v6 (F := Ideal) ei (idx_main_v9 (ix2 e 0)) := val_main_v9_apply (F := Ideal) ei (ix2 e 0)
  have hn : dstNColR ei (ix2 e 0)
      = Scalar.select (IntOp.cmpi .slt (val_main_v6 (F := Ideal) ei (idx_main_v9 (ix2 e 0))) 0#32)
          (IntOp.addi (val_main_v6 (F := Ideal) ei (idx_main_v9 (ix2 e 0))) (val_main_v24 (F := Ideal) (idx_main_v9 (ix2 e 0))))
          (val_main_v6 (F := Ideal) ei (idx_main_v9 (ix2 e 0))) := by
    show val_main_v27 (F := Ideal) ei (ix2 e 0) = _
    rw [val_main_v27_apply, val_main_v26_apply, val_main_v23_apply, val_main_v25_apply, val_main_v22_apply, val_main_c_4_apply]
  rw [hd] at h ⊢
  rw [hn]
  generalize val_main_v6 (F := Ideal) ei (idx_main_v9 (ix2 e 0)) = w at h ⊢
  have hlt : IntOp.cmpi .slt w 0#32 = 0#1 := by
    unfold IntOp.cmpi
    have h0 : (0#32 : BitVec 32).toInt = 0 := by decide
    have : w.slt 0#32 = false := by
      rw [BitVec.slt, h0, decide_eq_false_iff_not]
      omega
    rw [this]; rfl
  rw [hlt]
  exact select_zero _ _

end Cert.ReferenceIdeal.RefValue

end
-- ==== Proof.Cols.lean ====
/- The two programs read the same index columns off the same arguments.

   Both append one self-loop per node to each row of the edge list and turn the source and target vectors into
   one-column arrays by the same operations, so the source column (a negative word moved up by the number of nodes)
   and the target column are the same terms on the two sides.  The graph column differs in form only: one side lays
   the vector of graph words out again as a one-column array, the other repeats it along a new unit axis; either way
   entry `(n, 0)` is the word of node `n`. -/
import proofs.«422783_j89661737271610_2_alg».proof.Proof.KI.Host
import proofs.«422783_j89661737271610_2_alg».proof.Proof.RefValue
import Idealize.ShloMosaic.Lib.Pipeline.Value
import Idealize.ShloMosaic.Lib.ValueIdx

set_option maxRecDepth 16384

noncomputable section

namespace Cert.Cols

open Idealize.ShloMosaic Idealize.ShloMosaic.ValueIdx

/-- The edges' sources as one vector: the same term on both sides. -/
theorem srcVec_eq (ei : IVec Cert.KernelIdeal.S2x1600000 32) :
    Cert.KernelIdeal.Hand.srcVecK ei = Cert.ReferenceIdeal.RefValue.srcVecR ei := rfl

/-- The edges' targets as one vector: the same term on both sides. -/
theorem dstVec_eq (ei : IVec Cert.KernelIdeal.S2x1600000 32) :
    Cert.KernelIdeal.Hand.dstVecK ei = Cert.ReferenceIdeal.RefValue.dstVecR ei := rfl

/-- The source column: the same term on both sides. -/
theorem srcCol_eq (ei : IVec Cert.KernelIdeal.S2x1600000 32) :
    Cert.KernelIdeal.Hand.srcColK ei = Cert.ReferenceIdeal.RefValue.srcColR ei := rfl

/-- The target column: the same term on both sides. -/
theorem dstCol_eq (ei : IVec Cert.KernelIdeal.S2x1600000 32) :
    Cert.KernelIdeal.Hand.dstColK ei = Cert.ReferenceIdeal.RefValue.dstColR ei := rfl

/-- The graph column: laid out again as a column on one side, repeated along a unit axis on the other; entry
    `(n, 0)` is the graph word of node `n` on both. -/
theorem batchCol_eq (bt : IVec Cert.KernelIdeal.S100000 32) :
    Cert.KernelIdeal.Hand.batchColK bt = Cert.ReferenceIdeal.RefValue.batchColR bt := by
  funext j
  have hj1 : (j 1).val < 1 := (j 1).isLt
  have hK : Cert.KernelIdeal.Hand.batchColK bt j = bt (ix1 (j 0)) := by
    unfold Cert.KernelIdeal.Hand.batchColK
    refine shapeCast_apply bt _ j (ix1 (j 0)) ?_
    rw [Shape.rowMajor_val_one, Shape.rowMajor_val_two]
    show (j 0).val = (j 0).val * 1 + (j 1).val
    omega
  have hR : Cert.ReferenceIdeal.RefValue.batchColR bt j = bt (ix1 (j 0)) := by
    rw [Cert.ReferenceIdeal.RefValue.batchColR_term]
    refine broadcastInDim_apply ![0] _ bt j (ix1 (j 0)) fun a => ?_
    match a with
    | ⟨0, _⟩ =>
      show (j 0).val = if (100000 : Nat) = 1 then 0 else (j 0).val
      rw [if_neg (by decide)]
  rw [hK, hR]

end Cert.Cols

end
-- ==== Proof.IdxLemmas.lean ====
/-
  Gathers and scatters of the graph convolution read at one index.

  A row gather reads the operand's row at the start index of the edge, read signed and clamped into the array; a
  scatter of rows lands an update at the row its index word names, read signed and NOT clamped, and drops it when
  that row is outside the array.  So a scatter-add read at an index is the operand there plus the sum, over the
  edges (or nodes) whose index word names that row, of the update's entry in the same column.
-/
import proofs.«422783_j89661737271610_2_alg».proof.Proof.Spec
import Idealize.ShloMosaic.Lib.StableHlo.Predicate
import Idealize.ShloMosaic.Lib.ValueIdx
import Idealize.ShloMosaic.PureOps.Ideal.Laws
import Idealize.ShloMosaic.Lib.IdealHost

noncomputable section

open scoped BigOperators

namespace Cert.Spec

open Idealize.ShloMosaic Idealize.ShloMosaic.ValueIdx

/-! ## Gathers -/

/-- A row gather at `(e, f)`: the operand at the row the edge's start word names (read signed, clamped into the
    array), column `f`.  The row axis is collapsed and start-indexed, the column axis is the one offset axis. -/
theorem gather_rows_apply (H : SNx64.Idx → EReal) (si : IVec SEx1 32) (j : SEx64.Idx) :
    Host.gather gdRows H si j = H (ix2 ⟨min (si (ix2 (j 0) 0)).toInt.toNat 99999, by omega⟩ (j 1)) := by
  unfold Host.gather
  refine congrArg H ?_
  funext a
  refine Fin.ext ?_
  revert a
  refine Fin.forall_fin_two.mpr ⟨?_, ?_⟩
  · show gdRows.start j si 0 + gdRows.batchCoord j 0 + gdRows.offCoord j 0 = min (si (ix2 (j 0) 0)).toInt.toNat 99999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gdRows.startIndexMap from List.mem_singleton.mpr rfl)]
    have hsi : gdRows.siIdx j ⟨List.idxOf (0 : Fin 2) gdRows.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  · show gdRows.start j si 1 + gdRows.batchCoord j 1 + gdRows.offCoord j 1 = (j 1).val
    rw [GatherDims.batchCoord_eq_zero _ _ _ List.not_mem_nil]
    unfold GatherDims.start
    rw [dif_neg (show (1 : Fin 2) ∉ gdRows.startIndexMap by decide)]
    unfold GatherDims.offCoord
    rw [dif_pos (show (1 : Fin 2) ∈ gdRows.sKept by decide)]
    simp only [Nat.zero_add, Nat.add_zero]
    rfl

/-- A vector gather at `e`: the operand at the entry the edge's start word names (read signed, clamped). -/
theorem gather_vec_apply (v : SN.Idx → EReal) (si : IVec SEx1 32) (e : SE.Idx) :
    Host.gather gdVec v si e = v (ix1 ⟨min (si (ix2 (e 0) 0)).toInt.toNat 99999, by omega⟩) := by
  unfold Host.gather
  refine congrArg v ?_
  funext a
  obtain rfl : a = 0 := Fin.ext (by have h1 : a.val < 1 := a.isLt; show a.val = 0; omega)
  refine Fin.ext ?_
  show gdVec.start e si 0 + gdVec.batchCoord e 0 + gdVec.offCoord e 0 = min (si (ix2 (e 0) 0)).toInt.toNat 99999
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gdVec.startIndexMap from List.mem_singleton.mpr rfl)]
  have hsi : gdVec.siIdx e ⟨List.idxOf (0 : Fin 1) gdVec.startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-! ## The scatter of the edges' rows into the nodes' rows: where an update lands -/

/-- On the row axis the window starts at the edge's index word, read signed. -/
theorem sdRows_start0 (di : IVec SEx1 32) (j : SEx64.Idx) : sdRows.start j di 0 = (di (ix2 (j 0) 0)).toInt := by
  unfold ScatterDims.start
  rw [dif_pos (show (0 : Fin 2) ∈ sdRows.scatterDimsToOperandDims from List.mem_singleton.mpr rfl)]
  congr 2
  funext b
  refine Fin.ext ?_
  match b with
  | ⟨0, _⟩ => rfl
  | ⟨1, _⟩ => rfl

/-- On the column axis the window starts at zero. -/
theorem sdRows_start1 (di : IVec SEx1 32) (j : SEx64.Idx) : sdRows.start j di 1 = 0 := by
  unfold ScatterDims.start
  rw [dif_neg (show (1 : Fin 2) ∉ sdRows.scatterDimsToOperandDims by decide)]

/-- The row axis is inserted: no window coordinate on it. -/
theorem sdRows_window0 (j : SEx64.Idx) : sdRows.window j 0 = 0 := by
  unfold ScatterDims.window
  rw [dif_neg (show (0 : Fin 2) ∉ sdRows.sKept by decide)]

/-- The column axis carries the update's column. -/
theorem sdRows_window1 (j : SEx64.Idx) : sdRows.window j 1 = (j 1).val := by
  unfold ScatterDims.window
  rw [dif_pos (show (1 : Fin 2) ∈ sdRows.sKept by decide)]
  rfl

/-- The update `(r, f)` lands at `(n, f')` exactly when the columns agree and the edge's word, read signed, is `n`
    (a word that names no row of the operand lands nowhere). -/
theorem scat_rows_hit (di : IVec SEx1 32) (j : SEx64.Idx) (i : SNx64.Idx) :
    sdRows.resultIdx? j di = some i ↔ (j 1 = i 1 ∧ (di (ix2 (j 0) 0)).toInt = ((i 0).val : ℤ)) := by
  have hi0 := idx2_lt0 i
  have hj1 := idx2_lt1 j
  unfold ScatterDims.resultIdx?
  constructor
  · intro h
    split at h
    · rename_i hc
      have h' := Option.some.inj h
      have e0 := congrArg Fin.val (congrFun h' 0)
      have e1 := congrArg Fin.val (congrFun h' 1)
      have c0 := (hc 0).1
      simp only [sdRows_start0, sdRows_start1, sdRows_window0, sdRows_window1] at e0 e1 c0
      exact ⟨Fin.ext (by omega), by omega⟩
    · exact absurd h (by simp)
  · rintro ⟨h1, h0⟩
    have hc : ∀ a, 0 ≤ sdRows.start j di a + sdRows.window j a ∧ sdRows.start j di a + sdRows.window j a < SNx64.size a := by
      refine Fin.forall_fin_two.mpr ⟨?_, ?_⟩
      · rw [sdRows_start0, sdRows_window0, h0]
        show (0 : ℤ) ≤ ((i 0).val : ℤ) + ((0 : ℕ) : ℤ) ∧ ((i 0).val : ℤ) + ((0 : ℕ) : ℤ) < ((100000 : ℕ) : ℤ)
        omega
      · rw [sdRows_start1, sdRows_window1]
        show (0 : ℤ) ≤ 0 + ((j 1).val : ℤ) ∧ 0 + ((j 1).val : ℤ) < ((64 : ℕ) : ℤ)
        omega
    rw [dif_pos hc]
    congr 1
    funext a
    refine Fin.ext ?_
    revert a
    refine Fin.forall_fin_two.mpr ⟨?_, ?_⟩
    · show (sdRows.start j di 0 + sdRows.window j 0).toNat = (i 0).val
      rw [sdRows_start0, sdRows_window0, h0]; omega
    · show (sdRows.start j di 1 + sdRows.window j 1).toNat = (i 1).val
      rw [sdRows_start1, sdRows_window1, ← h1]; omega

/-- The scatter-add at `(n, f)`: the operand there plus column `f` of every edge whose word, read signed, is `n`.
    The updates that land at `(n, f)` are the `(r, f)` with `r` such an edge: the sum is re-indexed by `r`. -/
theorem scatterAdd_rows_apply (x : SNx64.Idx → EReal) (di : IVec SEx1 32) (U : SEx64.Idx → EReal) (i : SNx64.Idx) :
    Host.scatterAdd (F := Ideal) (φ := .f32) sdRows x di U i
      = x i + ∑ e ∈ Finset.univ.filter (fun e : Fin 1700000 => (di (ix2 e 0)).toInt = ((i 0).val : ℤ)), U (ix2 e (i 1)) := by
  show Ideal.hostScatterAdd sdRows x di U i = _
  unfold Ideal.hostScatterAdd
  refine congrArg (fun z => x i + z) ?_
  symm
  refine Finset.sum_bij (fun r _ => ix2 r (i 1)) ?_ ?_ ?_ ?_
  · intro r hr
    rw [Finset.mem_filter] at hr ⊢
    exact ⟨Finset.mem_univ _, (scat_rows_hit di _ i).mpr ⟨rfl, hr.2⟩⟩
  · intro a _ b _ h
    exact congrFun h 0
  · intro j hj
    rw [Finset.mem_filter] at hj
    obtain ⟨h1, h0⟩ := (scat_rows_hit di j i).mp hj.2
    refine ⟨j 0, Finset.mem_filter.mpr ⟨Finset.mem_univ _, h0⟩, ?_⟩
    rw [← h1]; exact (eq_ix2 j).symm
  · intro r _; rfl

/-! ## The scatter of the nodes' rows into the graphs' rows: where an update lands -/

/-- On the row axis the window starts at the node's index word, read signed. -/
theorem sdPool_start0 (bi : IVec SNx1 32) (j : SNx64.Idx) : sdPool.start j bi 0 = (bi (ix2 (j 0) 0)).toInt := by
  unfold ScatterDims.start
  rw [dif_pos (show (0 : Fin 2) ∈ sdPool.scatterDimsToOperandDims from List.mem_singleton.mpr rfl)]
  congr 2
  funext b
  refine Fin.ext ?_
  match b with
  | ⟨0, _⟩ => rfl
  | ⟨1, _⟩ => rfl

/-- On the column axis the window starts at zero. -/
theorem sdPool_start1 (bi : IVec SNx1 32) (j : SNx64.Idx) : sdPool.start j bi 1 = 0 := by
  unfold ScatterDims.start
  rw [dif_neg (show (1 : Fin 2) ∉ sdPool.scatterDimsToOperandDims by decide)]

/-- The row axis is inserted: no window coordinate on it. -/
theorem sdPool_window0 (j : SNx64.Idx) : sdPool.window j 0 = 0 := by
  unfold ScatterDims.window
  rw [dif_neg (show (0 : Fin 2) ∉ sdPool.sKept by decide)]

/-- The column axis carries the update's column. -/
theorem sdPool_window1 (j : SNx64.Idx) : sdPool.window j 1 = (j 1).val := by
  unfold ScatterDims.window
  rw [dif_pos (show (1 : Fin 2) ∈ sdPool.sKept by decide)]
  rfl

/-- The update `(r, f)` lands at `(n, f')` exactly when the columns agree and the node's word, read signed, is `n`
    (a word that names no row of the operand lands nowhere). -/
theorem scat_pool_hit (bi : IVec SNx1 32) (j : SNx64.Idx) (i : SGx64.Idx) :
    sdPool.resultIdx? j bi = some i ↔ (j 1 = i 1 ∧ (bi (ix2 (j 0) 0)).toInt = ((i 0).val : ℤ)) := by
  have hi0 := idx2_lt0 i
  have hj1 := idx2_lt1 j
  unfold ScatterDims.resultIdx?
  constructor
  · intro h
    split at h
    · rename_i hc
      have h' := Option.some.inj h
      have e0 := congrArg Fin.val (congrFun h' 0)
      have e1 := congrArg Fin.val (congrFun h' 1)
      have c0 := (hc 0).1
      simp only [sdPool_start0, sdPool_start1, sdPool_window0, sdPool_window1] at e0 e1 c0
      exact ⟨Fin.ext (by omega), by omega⟩
    · exact absurd h (by simp)
  · rintro ⟨h1, h0⟩
    have hc : ∀ a, 0 ≤ sdPool.start j bi a + sdPool.window j a ∧ sdPool.start j bi a + sdPool.window j a < SGx64.size a := by
      refine Fin.forall_fin_two.mpr ⟨?_, ?_⟩
      · rw [sdPool_start0, sdPool_window0, h0]
        show (0 : ℤ) ≤ ((i 0).val : ℤ) + ((0 : ℕ) : ℤ) ∧ ((i 0).val : ℤ) + ((0 : ℕ) : ℤ) < ((100 : ℕ) : ℤ)
        omega
      · rw [sdPool_start1, sdPool_window1]
        show (0 : ℤ) ≤ 0 + ((j 1).val : ℤ) ∧ 0 + ((j 1).val : ℤ) < ((64 : ℕ) : ℤ)
        omega
    rw [dif_pos hc]
    congr 1
    funext a
    refine Fin.ext ?_
    revert a
    refine Fin.forall_fin_two.mpr ⟨?_, ?_⟩
    · show (sdPool.start j bi 0 + sdPool.window j 0).toNat = (i 0).val
      rw [sdPool_start0, sdPool_window0, h0]; omega
    · show (sdPool.start j bi 1 + sdPool.window j 1).toNat = (i 1).val
      rw [sdPool_start1, sdPool_window1, ← h1]; omega

/-- The scatter-add at `(n, f)`: the operand there plus column `f` of every node whose word, read signed, is `n`.
    The updates that land at `(n, f)` are the `(r, f)` with `r` such a node: the sum is re-indexed by `r`. -/
theorem scatterAdd_pool_apply (x : SGx64.Idx → EReal) (bi : IVec SNx1 32) (U : SNx64.Idx → EReal) (i : SGx64.Idx) :
    Host.scatterAdd (F := Ideal) (φ := .f32) sdPool x bi U i
      = x i + ∑ n ∈ Finset.univ.filter (fun n : Fin 100000 => (bi (ix2 n 0)).toInt = ((i 0).val : ℤ)), U (ix2 n (i 1)) := by
  show Ideal.hostScatterAdd sdPool x bi U i = _
  unfold Ideal.hostScatterAdd
  refine congrArg (fun z => x i + z) ?_
  symm
  refine Finset.sum_bij (fun r _ => ix2 r (i 1)) ?_ ?_ ?_ ?_
  · intro r hr
    rw [Finset.mem_filter] at hr ⊢
    exact ⟨Finset.mem_univ _, (scat_pool_hit bi _ i).mpr ⟨rfl, hr.2⟩⟩
  · intro a _ b _ h
    exact congrFun h 0
  · intro j hj
    rw [Finset.mem_filter] at hj
    obtain ⟨h1, h0⟩ := (scat_pool_hit bi j i).mp hj.2
    refine ⟨j 0, Finset.mem_filter.mpr ⟨Finset.mem_univ _, h0⟩, ?_⟩
    rw [← h1]; exact (eq_ix2 j).symm
  · intro r _; rfl

/-! ## The degree is a count -/

/-- A scatter-add of a constant update into a constant operand, read at an index, is the operand's constant plus a
    natural multiple of the update's: one copy for every update that lands there.  Stated for any two constants and
    any dimension numbers. -/
theorem scatterAdd_const_count {s si su : Shape} (d : ScatterDims s si su) {w : Nat} (a b : EReal)
    (idx : IVec si w) (i : s.Idx) :
    ∃ k : ℕ, Host.scatterAdd (F := Ideal) (φ := .f32) d (fun _ => a) idx (fun _ => b) i = a + k • b := by
  show ∃ k : ℕ, Ideal.hostScatterAdd d (fun _ => a) idx (fun _ => b) i = a + k • b
  unfold Ideal.hostScatterAdd
  exact ⟨_, congrArg (fun z => a + z) (Finset.sum_const b)⟩

/-- Zero plus `k` ones is the natural number `k`. -/
theorem zero_add_nsmul_one (k : ℕ) (a b : EReal) (ha : a = 0) (hb : b = 1) : a + k • b = ((k : ℝ) : EReal) := by
  rw [ha, hb, zero_add, nsmul_one]
  exact EReal.coe_natCast.symm

/-- The degree of a node is a natural number: zero plus a one for every edge that lands on it. -/
theorem deg_eq_card (di : IVec SEx1 32) (i : SN.Idx) : ∃ k : ℕ, deg di i = ((k : ℝ) : EReal) := by
  unfold deg
  obtain ⟨k, hk⟩ := scatterAdd_const_count sdDeg (Ideal.ofBits .f32 0x00000000#32)
    (Ideal.ofBits .f32 0x3F800000#32) di i
  exact ⟨k, hk.trans (zero_add_nsmul_one k _ _ Ideal.ofBits_zero_f32 Ideal.ofBits_one_f32)⟩

/-! ## A word read signed against a small natural -/

/-- A 32-bit word read signed is the small natural `g` exactly when it is the word of `g`: a non-negative signed
    reading is the unsigned one, and `g` is below the modulus. -/
theorem toInt_eq_iff_eq_ofNat (b : BitVec 32) (g : ℕ) (hg : g < 100) : b.toInt = (g : ℤ) ↔ b = BitVec.ofNat 32 g := by
  constructor
  · intro h
    apply BitVec.eq_of_toNat_eq
    rw [BitVec.toNat_ofNat]
    have hb := b.isLt
    rw [BitVec.toInt_eq_toNat_cond] at h
    split at h <;> omega
  · rintro rfl
    exact StableHlo.Predicate.toInt_ofNat_small g (by omega)

end Cert.Spec

end
-- ==== Proof.Law.lean ====
/-
  The two programs compute the same function.

  The scale of a node is a non-negative real number whatever its degree is: the scale is the inverse square root of
  the degree where the degree is positive (a positive real, or zero at `⊤`) and zero elsewhere.  Multiplication by a non-negative real distributes
  over every finite sum of extended reals, so scaling the summed rows of a node afterwards is the same as scaling every
  row that travels to it; an edge that lands on a node reads the node's own scale through its target word, so the two
  factors of the reference's edge weight are the two scalings of the kernel.  The pool by indicators is the scatter of
  the rows: a graph word names graph `g` exactly when it is the word of `g`.
-/
import proofs.«422783_j89661737271610_2_alg».proof.Proof.Spec
import proofs.«422783_j89661737271610_2_alg».proof.Proof.IdxLemmas
import Idealize.ShloMosaic.PureOps.Ideal.Laws
import Idealize.ShloMosaic.Lib.ValueIdx
import Mathlib.Data.EReal.Operations

noncomputable section

open scoped BigOperators

namespace Cert.Spec

open Idealize.ShloMosaic Idealize.ShloMosaic.ValueIdx

/-! ## Multiplication by a non-negative real distributes over finite sums -/

/-- A finite sum of extended reals times a non-negative real is the sum of the terms times it. -/
theorem mul_sum_real (r : ℝ) (hr : 0 ≤ r) {ι : Type} (s : Finset ι) (f : ι → EReal) :
    (∑ e ∈ s, f e) * (r : EReal) = ∑ e ∈ s, f e * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-! ## The scale is a non-negative real -/

/-- For every extended real `x` the guarded inverse square root (zero unless `x` is positive) is a non-negative real:
    at `⊥` the guard fails and the value is zero; at `⊤` the inverse square root is zero; at a positive real `r` it is
    `(√r)⁻¹`; at any other real the guard fails. -/
theorem guarded_rsqrt_real (x : EReal) :
    ∃ r : ℝ, 0 ≤ r ∧ Scalar.select (Ideal.cmp .ogt x (Ideal.ofBits .f32 0x00000000#32)) (Ideal.rsqrt x)
      (Ideal.ofBits .f32 0x00000000#32) = (r : EReal) := by
  rw [Ideal.ofBits_zero_f32]
  induction x using EReal.rec with
  | bot =>
    have hc : Ideal.cmp .ogt (⊥ : EReal) 0 = 0#1 := by
      show BitVec.ofBool (decide ((0 : EReal) < ⊥)) = 0#1
      rw [decide_eq_false not_lt_bot]; rfl
    rw [hc, select_zero]
    exact ⟨0, le_refl _, by simp⟩
  | top =>
    have hc : Ideal.cmp .ogt (⊤ : EReal) 0 = 1#1 := by
      show BitVec.ofBool (decide ((0 : EReal) < ⊤)) = 1#1
      rw [decide_eq_true EReal.zero_lt_top]; rfl
    rw [hc, select_one, Ideal.rsqrt_top]
    exact ⟨0, le_refl _, by simp⟩
  | coe a =>
    by_cases hpos : (0 : ℝ) < a
    · have hc : Ideal.cmp .ogt (a : EReal) 0 = 1#1 := by
        show BitVec.ofBool (decide ((0 : EReal) < (a : EReal))) = 1#1
        rw [decide_eq_true (EReal.coe_pos.mpr hpos)]; rfl
      rw [hc, select_one]
      refine ⟨(Real.sqrt a)⁻¹, inv_nonneg.mpr (Real.sqrt_nonneg _), ?_⟩
      rw [Ideal.rsqrt_coe, if_neg (not_lt.mpr hpos.le), if_neg hpos.ne']
    · have hc : Ideal.cmp .ogt (a : EReal) 0 = 0#1 := by
        show BitVec.ofBool (decide ((0 : EReal) < (a : EReal))) = 0#1
        rw [decide_eq_false (fun h => hpos (EReal.coe_pos.mp h))]; rfl
      rw [hc, select_zero]
      exact ⟨0, le_refl _, by simp⟩

/-- The scale of a node is a non-negative real, whatever its degree: it is the guarded inverse square root of the
    degree. -/
theorem dinv_real (di : IVec SEx1 32) (i : SN.Idx) : ∃ r : ℝ, 0 ≤ r ∧ dinv di i = (r : EReal) :=
  guarded_rsqrt_real (deg di i)

/-! ## The layer law -/

/-- Scaling the rows before they travel and the summed rows after is weighting every edge's row by the product of the
    scales at its two ends: on the edges that land on node `i` the target word is `i` itself, so the second factor read
    through `dj` is the scale of `i`, a non-negative real, which moves inside the sum. -/
theorem layer_law (si di dj : IVec SEx1 32)
    (hdj : ∀ e : Fin 1700000, 0 ≤ (di (ix2 e 0)).toInt → dj (ix2 e 0) = di (ix2 e 0))
    (H : SNx64.Idx → EReal) :
    scaleRows di (agg si di (scaleRows di H)) = aggW si di (norm di si dj) H := by
  funext i
  obtain ⟨r, hr, hdr⟩ := dinv_real di (ix1 (i 0))
  change agg si di (scaleRows di H) i * dinv di (ix1 (i 0)) = aggW si di (norm di si dj) H i
  unfold agg aggW
  rw [scatterAdd_rows_apply, scatterAdd_rows_apply, Ideal.ofBits_zero_f32, zero_add, zero_add, hdr,
    mul_sum_real r hr]
  refine Finset.sum_congr rfl fun e he => ?_
  have hei : (di (ix2 e 0)).toInt = ((i 0).val : ℤ) := (Finset.mem_filter.mp he).2
  have hdje : dj (ix2 e 0) = di (ix2 e 0) := hdj e (by rw [hei]; exact Int.natCast_nonneg _)
  have hlt : (i 0).val < 100000 := idx2_lt0 i
  have hfin : (⟨min (dj (ix2 e 0)).toInt.toNat 99999, by omega⟩ : Fin 100000) = i 0 := by
    apply Fin.ext
    show min (dj (ix2 e 0)).toInt.toNat 99999 = (i 0).val
    rw [hdje, hei, Int.toNat_natCast]; omega
  rw [gather_rows_apply, gather_rows_apply]
  unfold norm scaleRows
  rw [gather_vec_apply, gather_vec_apply]
  show H (ix2 ⟨min (si (ix2 e 0)).toInt.toNat 99999, by omega⟩ (i 1))
        * dinv di (ix1 ⟨min (si (ix2 e 0)).toInt.toNat 99999, by omega⟩) * (r : EReal)
    = H (ix2 ⟨min (si (ix2 e 0)).toInt.toNat 99999, by omega⟩ (i 1))
        * (dinv di (ix1 ⟨min (si (ix2 e 0)).toInt.toNat 99999, by omega⟩)
          * dinv di (ix1 ⟨min (dj (ix2 e 0)).toInt.toNat 99999, by omega⟩))
  rw [hfin, hdr, mul_assoc]

/-! ## The pool -/

/-- The sum of the rows times the indicator of graph `g` is the sum of the rows whose graph word names `g`. -/
theorem pool_law (bi : IVec SNx1 32) (H : SNx64.Idx → EReal) : poolKer bi H = poolRef bi H := by
  funext i
  unfold poolRef
  rw [scatterAdd_pool_apply, Ideal.ofBits_zero_f32, zero_add, Finset.sum_filter]
  show (∑ n : Fin 100000, (if bi (ix2 n 0) = BitVec.ofNat 32 (i 0).val then (1 : EReal) else 0) * H (ix2 n (i 1))) = _
  refine Finset.sum_congr rfl fun n _ => ?_
  have hlt : (i 0).val < 100 := idx2_lt0 i
  by_cases h : bi (ix2 n 0) = BitVec.ofNat 32 (i 0).val
  · rw [if_pos h, if_pos ((toInt_eq_iff_eq_ofNat _ _ hlt).mpr h), one_mul]
  · rw [if_neg h, if_neg (fun h' => h ((toInt_eq_iff_eq_ofNat _ _ hlt).mp h')), zero_mul]

/-! ## The regions in terms of the pieces -/

/-- Region 0 is the first projection with every row scaled. -/
theorem projScaleK_eq (di : IVec SEx1 32) (x : SNx256.Idx → EReal) (w : S256x64.Idx → EReal) :
    projScaleK x w (dcol di) = scaleRows di (proj256 x w) := by
  funext i; rfl

/-- Regions 1 and 2: scale the summed rows, add the bias, rectify, project, scale again. -/
theorem layerK_eq (di : IVec SEx1 32) (a : SNx64.Idx → EReal) (b : S64.Idx → EReal) (w : S64x64.Idx → EReal) :
    layerK a (dcol di) b w = scaleRows di (proj64 (relu (addBias (scaleRows di a) b)) w) := by
  funext i; rfl

/-- Region 3: scale the summed rows, add the bias, pool by indicators, apply the linear head. -/
theorem tailK_eq (di : IVec SEx1 32) (a : SNx64.Idx → EReal) (b : S64.Idx → EReal) (bi : IVec SNx1 32)
    (wl : S64x1.Idx → EReal) (bl : S1.Idx → EReal) :
    tailK a (dcol di) b bi wl bl = head (poolKer bi (addBias (scaleRows di a) b)) wl bl := rfl

/-! ## The two programs agree -/

/-- Three layers by the layer law, then the pool. -/
theorem kernelOut_eq_refOut (si di dj : IVec SEx1 32)
    (hdj : ∀ e : Fin 1700000, 0 ≤ (di (ix2 e 0)).toInt → dj (ix2 e 0) = di (ix2 e 0))
    (bi : IVec SNx1 32) (x : SNx256.Idx → EReal) (w1 : S256x64.Idx → EReal) (b1 : S64.Idx → EReal)
    (w2 : S64x64.Idx → EReal) (b2 : S64.Idx → EReal) (w3 : S64x64.Idx → EReal) (b3 : S64.Idx → EReal)
    (wl : S64x1.Idx → EReal) (bl : S1.Idx → EReal) :
    kernelOut si di bi x w1 b1 w2 b2 w3 b3 wl bl = refOut si di si dj bi x w1 b1 w2 b2 w3 b3 wl bl := by
  simp only [kernelOut, refOut, projScaleK_eq, layerK_eq, tailK_eq]
  rw [layer_law si di dj hdj, layer_law si di dj hdj, layer_law si di dj hdj, pool_law]

end Cert.Spec

end
-- ==== Proof.lean ====
/- The certificate.  Both printed kernels (the word-level one and its idealization: one text at two float instances) run
   as ten items with every boundary's contents named, so their argument arrays end as launched; the reference's run is
   read back operation by operation.  At the extended reals the kernel's result is the composition of its four regions and
   the host stretches between them, the reference's is its own composition, and the two are one function of the arguments:
   scaling the rows by the inverse root degree before they travel along the edges and again after they are summed is
   weighting every edge by the product, because that scale is a non-negative real number and such a factor distributes
   over a finite sum of extended reals; the pool by indicators is the pool by scatter. -/
import proofs.«422783_j89661737271610_2_alg».proof.Defs
import proofs.«422783_j89661737271610_2_alg».proof.Proof.Gen.Kernel
import proofs.«422783_j89661737271610_2_alg».proof.Proof.Gen.KernelIdeal
import proofs.«422783_j89661737271610_2_alg».proof.Proof.Gen.ReferenceIdeal
import proofs.«422783_j89661737271610_2_alg».proof.Proof.Gen.Pre_finite_inputs
import proofs.«422783_j89661737271610_2_alg».proof.Proof.K.Run
import proofs.«422783_j89661737271610_2_alg».proof.Proof.KI.Value
import proofs.«422783_j89661737271610_2_alg».proof.Proof.RefValue
import proofs.«422783_j89661737271610_2_alg».proof.Proof.Cols
import proofs.«422783_j89661737271610_2_alg».proof.Proof.Law

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (Cert.KernelIdeal.Hand.dat3 (F := Ideal) (Cert.KernelIdeal.Hand.V9 m) c).arrAt 6 Cert.KernelIdeal.cfg3.N,
    Cert.KernelIdeal.Hand.run_out m ρ, ?_⟩
  refine (θ_run Cert.ReferenceIdeal.defs _ _).mono (fun _ h c => ⟨(h c).1.trans ?_, (h c).2⟩)
    (Cert.ReferenceIdeal.Value.run (F := Ideal) m' ρ')
  -- the reference's term is its Spec function (the run names it by an abbreviation: met by `.trans`, not by `rw`) …
  refine (Cert.ReferenceIdeal.RefValue.refValue m' c).trans ?_
  -- … the kernel's array is its Spec function …
  refine Eq.trans ?_ (Cert.KernelIdeal.Hand.kernel_value m c).symm
  -- … and the two Spec functions agree on arguments that agree: the index columns are the same terms, and where a
  -- target word is non-negative its normalized copy is the word itself
  obtain ⟨h0, h1, h2, h3, h4, h5, h6, h7, h8, h9, h10⟩ := hagree c
  rw [h0, h1, h2, h3, h4, h5, h6, h7, h8, h9, h10, Cert.Cols.srcCol_eq, Cert.Cols.dstCol_eq, Cert.Cols.batchCol_eq]
  exact (Cert.Spec.kernelOut_eq_refOut _ _ _ (fun e h => Cert.ReferenceIdeal.RefValue.dstN_eq _ e h) _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
